-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39x1 : Shape := ⟨3, ![16384, 39, 1]⟩
abbrev S16384x39 : Shape := ⟨2, ![16384, 39]⟩
abbrev S39x100000 : Shape := ⟨2, ![39, 100000]⟩
abbrev S39x100000x16 : Shape := ⟨3, ![39, 100000, 16]⟩
abbrev S16x128 : Shape := ⟨2, ![16, 128]⟩
abbrev S128 : Shape := ⟨1, ![128]⟩
abbrev S128x128 : Shape := ⟨2, ![128, 128]⟩
abbrev S_ : Shape := ⟨0, ![]⟩

class Facts : Prop where
  bcast_S_S16384x39 : S_.BroadcastsInDim S16384x39 (![] : Fin 0 → Fin S16384x39.rank)
  reducesTo_S16384x39_S_d0_1 : S16384x39.ReducesTo [0, 1] S_
  h_S_ : 0 < S_.numel
  bcast_S_S39x100000 : S_.BroadcastsInDim S39x100000 (![] : Fin 0 → Fin S39x100000.rank)
  reducesTo_S39x100000_S_d0_1 : S39x100000.ReducesTo [0, 1] S_
  bcast_S_S39x100000x16 : S_.BroadcastsInDim S39x100000x16 (![] : Fin 0 → Fin S39x100000x16.rank)
  reducesTo_S39x100000x16_S_d0_1_2 : S39x100000x16.ReducesTo [0, 1, 2] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  reducesTo_S_S_d : S_.ReducesTo [] S_
  bcast_S_S16384x39x1 : S_.BroadcastsInDim S16384x39x1 (![] : Fin 0 → Fin S16384x39x1.rank)
  reducesTo_S16384x39x1_S_d0_1_2 : S16384x39x1.ReducesTo [0, 1, 2] S_

variable [Facts]

def fn_part2 {F : FTy → Type} [FloatOps F] (main_arg0 : IVec S16384x39x1 32) (main_arg8 : FVec F S_ .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_c_14 : IVec S_ 32 := constantI S_ 32 0#32
  let main_v38 : IVec S16384x39x1 32 := broadcastInDim S16384x39x1 ![] bcast_S_S16384x39x1 main_c_14
  let main_v39 : IVec S16384x39x1 1 := cmpi .sge main_arg0 main_v38
  let main_c_15 : IVec S_ 1 := constantI S_ 1 1#1
  let main_v40 : IVec S_ 1 := (fun x v => Host.reduce IntOp.andi x v reducesTo_S16384x39x1_S_d0_1_2 h_S_) main_v39 main_c_15
  let main_v41 : IVec S_ 1 := andi main_v37 main_v40
  let main_c_16 : IVec S_ 32 := constantI S_ 32 100000#32
  let main_v42 : IVec S16384x39x1 32 := broadcastInDim S16384x39x1 ![] bcast_S_S16384x39x1 main_c_16
  let main_v43 : IVec S16384x39x1 1 := cmpi .slt main_arg0 main_v42
  let main_c_17 : IVec S_ 1 := constantI S_ 1 1#1
  let main_v44 : IVec S_ 1 := (fun x v => Host.reduce IntOp.andi x v reducesTo_S16384x39x1_S_d0_1_2 h_S_) main_v43 main_c_17
  let main_v45 : IVec S_ 1 := andi main_v41 main_v44
  main_v45

def fn_part1 {F : FTy → Type} [FloatOps F] (main_arg0 : IVec S16384x39x1 32) (main_arg5 : FVec F S128 .f32) (main_arg6 : FVec F S128x128 .f32) (main_arg7 : FVec F S128 .f32) (main_arg8 : FVec F S_ .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg8 main_v33

def fn {F : FTy → Type} [FloatOps F] (main_arg0 : IVec S16384x39x1 32) (main_arg1 : FVec F S16384x39 .f32) (main_arg2 : FVec F S39x100000 .f32) (main_arg3 : FVec F S39x100000x16 .f32) (main_arg4 : FVec F S16x128 .f32) (main_arg5 : FVec F S128 .f32) (main_arg6 : FVec F S128x128 .f32) (main_arg7 : FVec F S128 .f32) (main_arg8 : FVec F S_ .f32) : IVec S_ 1 :=
  let main_v0 : FVec F S16384x39 .f32 := Host.absf main_arg1
  let main_cst : FVec F S_ .f32 := constant S_ .f32 0x7F800000#32
  let main_v1 : FVec F S16384x39 .f32 := broadcastInDim S16384x39 ![] bcast_S_S16384x39 main_cst
  let main_v2 : IVec S16384x39 1 := cmpf .olt main_v0 main_v1
  let main_c : IVec S_ 1 := constantI S_ 1 1#1
  let main_v3 : IVec S_ 1 := (fun x v => Host.reduce IntOp.andi x v reducesTo_S16384x39_S_d0_1 h_S_) main_v2 main_c
  let main_v4 : FVec F S39x100000 .f32 := Host.absf main_arg2
  let main_cst_0 : FVec F S_ .f32 := constant S_ .f32 0x7F800000#32
  let main_v5 : FVec F S39x100000 .f32 := broadcastInDim S39x100000 ![] bcast_S_S39x100000 main_cst_0
  let main_v6 : IVec S39x100000 1 := cmpf .olt main_v4 main_v5
  let main_c_1 : IVec S_ 1 := constantI S_ 1 1#1
  let main_v7 : IVec S_ 1 := (fun x v => Host.reduce IntOp.andi x v reducesTo_S39x100000_S_d0_1 h_S_) main_v6 main_c_1
  let main_v8 : IVec S_ 1 := andi main_v3 main_v7
  let main_v9 : FVec F S39x100000x16 .f32 := Host.absf main_arg3
  let main_cst_2 : FVec F S_ .f32 := constant S_ .f32 0x7F800000#32
  let main_v10 : FVec F S39x100000x16 .f32 := broadcastInDim S39x100000x16 ![] bcast_S_S39x100000x16 main_cst_2
  let main_v11 : IVec S39x100000x16 1 := cmpf .olt main_v9 main_v10
  let main_c_3 : IVec S_ 1 := constantI S_ 1 1#1
  let main_v12 : IVec S_ 1 := (fun x v => Host.reduce IntOp.andi x v reducesTo_S39x100000x16_S_d0_1_2 h_S_) main_v11 main_c_3
  let main_v13 : IVec S_ 1 := andi main_v8 main_v12
  let main_v14 : FVec F S16x128 .f32 := Host.absf main_arg4
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg0 main_arg5 main_arg6 main_arg7 main_arg8 main_v13 main_v16
-- ==== Kernel.lean ====
abbrev S16384x39x1 : Shape := ⟨3, ![16384, 39, 1]⟩
abbrev S16384x39 : Shape := ⟨2, ![16384, 39]⟩
abbrev S39x100000 : Shape := ⟨2, ![39, 100000]⟩
abbrev S39x100000x16 : Shape := ⟨3, ![39, 100000, 16]⟩
abbrev S16x128 : Shape := ⟨2, ![16, 128]⟩
abbrev S128 : Shape := ⟨1, ![128]⟩
abbrev S128x128 : Shape := ⟨2, ![128, 128]⟩
abbrev S_ : Shape := ⟨0, ![]⟩
abbrev S39x16384 : Shape := ⟨2, ![39, 16384]⟩
abbrev S39x16384x1 : Shape := ⟨3, ![39, 16384, 1]⟩
abbrev S39x100000x1 : Shape := ⟨3, ![39, 100000, 1]⟩
abbrev S39x100000x17 : Shape := ⟨3, ![39, 100000, 17]⟩
abbrev S39x100352x17 : Shape := ⟨3, ![39, 100352, 17]⟩
abbrev S39x784x128x17 : Shape := ⟨4, ![39, 784, 128, 17]⟩
abbrev S39x784x17x128 : Shape := ⟨4, ![39, 784, 17, 128]⟩
abbrev S39x784x2176 : Shape := ⟨3, ![39, 784, 2176]⟩
abbrev S1x128 : Shape := ⟨2, ![1, 128]⟩
abbrev S1x1 : Shape := ⟨2, ![1, 1]⟩
abbrev S16384x1 : Shape := ⟨2, ![16384, 1]⟩
abbrev S1x512x1 : Shape := ⟨3, ![1, 512, 1]⟩
abbrev S1x784x2176 : Shape := ⟨3, ![1, 784, 2176]⟩
abbrev S512x1 : Shape := ⟨2, ![512, 1]⟩
abbrev S512x16 : Shape := ⟨2, ![512, 16]⟩
abbrev S512x784 : Shape := ⟨2, ![512, 784]⟩
abbrev S784x2176 : Shape := ⟨2, ![784, 2176]⟩
abbrev S512x2176 : Shape := ⟨2, ![512, 2176]⟩
abbrev S512x17x128 : Shape := ⟨3, ![512, 17, 128]⟩
abbrev S512x128 : Shape := ⟨2, ![512, 128]⟩
abbrev S512x1x128 : Shape := ⟨3, ![512, 1, 128]⟩
abbrev S512x17 : Shape := ⟨2, ![512, 17]⟩
abbrev S512 : Shape := ⟨1, ![512]⟩
abbrev S16384 : Shape := ⟨1, ![16384]⟩

abbrev nBuf : Space → Nat
  | .hbm => 70
  | .vmem => 18
  | .smem => 0
  | _ => 0

abbrev bufTy : (tb : Table) → Fin (tcTables nBuf tb) → BufTy
  | .hbm, ⟨0, _⟩ => ⟨S16384x39x1, .i32⟩
  | .hbm, ⟨1, _⟩ => ⟨S16384x39, .f32⟩
  | .hbm, ⟨2, _⟩ => ⟨S39x100000, .f32⟩
  | .hbm, ⟨3, _⟩ => ⟨S39x100000x16, .f32⟩
  | .hbm, ⟨4, _⟩ => ⟨S16x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S16384x39, .i32⟩
  | .hbm, ⟨10, _⟩ => ⟨S_, .i32⟩
  | .hbm, ⟨11, _⟩ => ⟨S_, .i32⟩
  | .hbm, ⟨12, _⟩ => ⟨S16384x39, .i32⟩
  | .hbm, ⟨13, _⟩ => ⟨S16384x39, .i32⟩
  | .hbm, ⟨14, _⟩ => ⟨S16384x39, .i32⟩
  | .hbm, ⟨15, _⟩ => ⟨S_, .i32⟩
  | .hbm, ⟨16, _⟩ => ⟨S16384x39, .i32⟩
  | .hbm, ⟨17, _⟩ => ⟨S16384x39, .i1⟩
  | .hbm, ⟨18, _⟩ => ⟨S16384x39, .i32⟩
  | .hbm, ⟨19, _⟩ => ⟨S16384x39, .i32⟩
  | .hbm, ⟨20, _⟩ => ⟨S_, .i32⟩
  | .hbm, ⟨21, _⟩ => ⟨S16384x39, .i32⟩
  | .hbm, ⟨22, _⟩ => ⟨S16384x39, .i1⟩
  | .hbm, ⟨23, _⟩ => ⟨S16384x39, .i1⟩
  | .hbm, ⟨24, _⟩ => ⟨S_, .i32⟩
  | .hbm, ⟨25, _⟩ => ⟨S16384x39, .i32⟩
  | .hbm, ⟨26, _⟩ => ⟨S16384x39, .i32⟩
  | .hbm, ⟨27, _⟩ => ⟨S16384x39, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S16384x39, .i32⟩
  | .hbm, ⟨35, _⟩ => ⟨S16384x39, .i32⟩
  | .hbm, ⟨36, _⟩ => ⟨S_, .i32⟩
  | .hbm, ⟨37, _⟩ => ⟨S16384x39, .i32⟩
  | .hbm, ⟨38, _⟩ => ⟨S16384x39, .i1⟩
  | .hbm, ⟨39, _⟩ => ⟨S_, .i32⟩
  | .hbm, ⟨40, _⟩ => ⟨S16384x39, .i32⟩
  | .hbm, ⟨41, _⟩ => ⟨S16384x39, .i1⟩
  | .hbm, ⟨42, _⟩ => ⟨S_, .i32⟩
  | .hbm, ⟨43, _⟩ => ⟨S_, .i1⟩
  | .hbm, ⟨44, _⟩ => ⟨S16384x39, .i1⟩
  | .hbm, ⟨45, _⟩ => ⟨S16384x39, .i1⟩
  | .hbm, ⟨46, _⟩ => ⟨S16384x39, .i1⟩
  | .hbm, ⟨47, _⟩ => ⟨S16384x39, .i32⟩
  | .hbm, ⟨48, _⟩ => ⟨S16384x39, .i32⟩
  | .hbm, ⟨49, _⟩ => ⟨S16384x39, .i32⟩
  | .hbm, ⟨50, _⟩ => ⟨S39x16384, .i32⟩
  | .hbm, ⟨51, _⟩ => ⟨S39x16384x1, .i32⟩
  | .hbm, ⟨52, _⟩ => ⟨S39x16384, .i32⟩
  | .hbm, ⟨53, _⟩ => ⟨S39x16384x1, .i32⟩
  | .hbm, ⟨54, _⟩ => ⟨S39x16384, .f32⟩
  | .hbm, ⟨55, _⟩ => ⟨S39x16384x1, .f32⟩
  | .hbm, ⟨56, _⟩ => ⟨S39x100000x1, .f32⟩
  | .hbm, ⟨57, _⟩ => ⟨S39x100000x17, .f32⟩
  | .hbm, ⟨58, _⟩ => ⟨S_, .i32⟩
  | .hbm, ⟨59, _⟩ => ⟨S_, .f32⟩
  | .hbm, ⟨60, _⟩ => ⟨S39x100352x17, .f32⟩
  | .hbm, ⟨61, _⟩ => ⟨S39x784x128x17, .f32⟩
  | .hbm, ⟨62, _⟩ => ⟨S39x784x17x128, .f32⟩
  | .hbm, ⟨63, _⟩ => ⟨S39x784x2176, .f32⟩
  | .hbm, ⟨64, _⟩ => ⟨S39x784x2176, .bf16⟩
  | .hbm, ⟨65, _⟩ => ⟨S1x128, .f32⟩
  | .hbm, ⟨66, _⟩ => ⟨S1x128, .f32⟩
  | .hbm, ⟨67, _⟩ => ⟨S1x1, .f32⟩
  | .hbm, ⟨68, _⟩ => ⟨S16384x1, .f32⟩
  | .hbm, ⟨69, _⟩ => ⟨S16384, .f32⟩
  | .local _ .vmem, ⟨0, _⟩ => ⟨S1x512x1, .i32⟩
  | .local _ .vmem, ⟨1, _⟩ => ⟨S1x512x1, .i32⟩
  | .local _ .vmem, ⟨2, _⟩ => ⟨S1x512x1, .i32⟩
  | .local _ .vmem, ⟨3, _⟩ => ⟨S1x512x1, .i32⟩
  | .local _ .vmem, ⟨4, _⟩ => ⟨S1x512x1, .f32⟩
  | .local _ .vmem, ⟨5, _⟩ => ⟨S1x512x1, .f32⟩
  | .local _ .vmem, ⟨6, _⟩ => ⟨S1x784x2176, .bf16⟩
  | .local _ .vmem, ⟨7, _⟩ => ⟨S1x784x2176, .bf16⟩
  | .local _ .vmem, ⟨8, _⟩ => ⟨S16x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x16, .f32⟩
  | .local _ .vmem, ⟨17, _⟩ => ⟨S512x16, .f32⟩
  | _, _ => ⟨S16384x39x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_c_1 : Ref sig .tc := ⟨.hbm, 58, rfl⟩
abbrev main_call2_v0 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 39], ![false, false]⟩

def k0_cond2 (i : grid0.Coords) : BitVec 1 :=
  let arg1 : BitVec 32 := BitVec.ofNat 32 (i 1).val
  let c38_i32 : BitVec 32 := 38#32
  let v49 : BitVec 1 := Scalar.cmpi .eq arg1 c38_i32
  let v50 : BitVec 32 := Scalar.extui v49
  let c0_i32_25 : BitVec 32 := 0#32
  let v51 : BitVec 1 := Scalar.cmpi .ne v50 c0_i32_25
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x784x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S16384x39x1_S16384x39 : S16384x39x1.ShapeCasts S16384x39
  bcast_S_S16384x39 : S_.BroadcastsInDim S16384x39 (![] : Fin 0 → Fin S16384x39.rank)
  transposes_S16384x39_S39x16384_1_0 : S16384x39.Transposes [1, 0] S39x16384
  bcast_S39x16384_S39x16384x1_0_1 : S39x16384.BroadcastsInDim S39x16384x1 (![0, 1] : Fin 2 → Fin S39x16384x1.rank)
  bcast_S39x100000_S39x100000x1_0_1 : S39x100000.BroadcastsInDim S39x100000x1 (![0, 1] : Fin 2 → Fin S39x100000x1.rank)
  concatenates_S39x100000x16_S39x100000x1_S39x100000x17_d2 : Shape.Concatenates [S39x100000x16, S39x100000x1] S39x100000x17 2
  pads_S39x100000x17_S39x100352x17_000_03520_000 : S39x100000x17.Pads (![0, 0, 0] : Fin 3 → Nat) ![0, 352, 0] ![0, 0, 0] S39x100352x17
  h_S_ : 0 < S_.numel
  shapeCasts_S39x100352x17_S39x784x128x17 : S39x100352x17.ShapeCasts S39x784x128x17
  transposes_S39x784x128x17_S39x784x17x128_0_1_3_2 : S39x784x128x17.Transposes [0, 1, 3, 2] S39x784x17x128
  shapeCasts_S39x784x17x128_S39x784x2176 : S39x784x17x128.ShapeCasts S39x784x2176
  bitsLt_bf16_f32 : FTy.bits .bf16 < FTy.bits .f32
  shapeCasts_S128_S1x128 : S128.ShapeCasts S1x128
  shapeCasts_S_S1x1 : S_.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  iota_S512x784_d1_w32 : S512x784.Iotas .tc 32 [1]
  broadcasts_S512x1_S512x784 : S512x1.Broadcasts S512x784
  natLt_1_32 : 1 < 32
  inb_S1x784x2176_S1x784x2176_0_0_0 : ∀ a, (![0, 0, 0] : Fin 3 → Nat) a + S1x784x2176.size a ≤ S1x784x2176.size a
  h_S1x784x2176 : 0 < S1x784x2176.numel
  shapeCasts_S1x784x2176_S784x2176 : S1x784x2176.ShapeCasts S784x2176
  shapeCasts_S512x2176_S512x17x128 : S512x2176.ShapeCasts S512x17x128
  iota_S512x128_d1_w32 : S512x128.Iotas .tc 32 [1]
  broadcasts_S512x1_S512x128 : S512x1.Broadcasts S512x128
  shapeCasts_S512x128_S512x1x128 : S512x128.ShapeCasts S512x1x128
  broadcasts_S512x1x128_S512x17x128 : S512x1x128.Broadcasts S512x17x128
  reduces_S512x17x128_S512x17 : S512x17x128.Reduces [2] S512x17
  slices_S512x17_o0_0_S512x16 : S512x17.Slices ![0, 0] S512x16
  slices_S512x17_o0_16_S512x1 : S512x17.Slices ![0, 16] S512x1
  broadcasts_S512x1_S512x16 : S512x1.Broadcasts S512x16
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x128_S128x128_0_0 : ∀ a, (![0, 0] : Fin 2 → Nat) a + S128x128.size a ≤ S128x128.size a
  h_S128x128 : 0 < S128x128.numel
  reduces_S512x128_S512 : S512x128.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S16384x1_S16384 : S16384x1.ShapeCasts S16384
  dot_S512x784_S784x2176_S512x2176_1_0_0_1_n_n_wf : DotDims.WF S512x784 S784x2176 S512x2176 [1] [0] [0] [1] [] []
  dot_S512x16_S16x128_S512x128_1_0_0_1_n_n_wf : DotDims.WF S512x16 S16x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S39x16384x1.size a
  hwx0_0 : ∀ i : grid0.Coords, EltTy.bits .i32 = 32 ∨ (Rect.block (s := S39x16384x1) S1x512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S39x16384x1.size a
  hwx0_1 : ∀ i : grid0.Coords, EltTy.bits .i32 = 32 ∨ (Rect.block (s := S39x16384x1) S1x512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S39x16384x1.size a
  hwx0_2 : ∀ i : grid0.Coords, EltTy.bits .f32 = 32 ∨ (Rect.block (s := S39x16384x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x784x2176.size a ≤ S39x784x2176.size a
  hwx0_3 : ∀ i : grid0.Coords, EltTy.bits .bf16 = 32 ∨ (Rect.block (s := S39x784x2176) S1x784x2176.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .f32 = 32 ∨ (Rect.block (s := S16x128) S16x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S16384x1.size a
  hwx0_9 : ∀ i : grid0.Coords, EltTy.bits .f32 = 32 ∨ (Rect.block (s := S16384x1) S512x1.size (cc0_transform_9 i) (hinb0_9 i)).WholeWords (EltTy.packing .f32)

variable [Facts₀]

def dot_S512x784_S784x2176_S512x2176_1_0_0_1_n_n : DotDims S512x784 S784x2176 S512x2176 where
  lhsContracting := [1]
  rhsContracting := [0]
  lhsNonContracting := [0]
  rhsNonContracting := [1]
  lhsBatch := []
  rhsBatch := []
  wf := dot_S512x784_S784x2176_S512x2176_1_0_0_1_n_n_wf
def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v4) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x784x2176.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S16384x39x1 : Shape := ⟨3, ![16384, 39, 1]⟩
abbrev S16384x39 : Shape := ⟨2, ![16384, 39]⟩
abbrev S39x100000 : Shape := ⟨2, ![39, 100000]⟩
abbrev S39x100000x16 : Shape := ⟨3, ![39, 100000, 16]⟩
abbrev S16x128 : Shape := ⟨2, ![16, 128]⟩
abbrev S128 : Shape := ⟨1, ![128]⟩
abbrev S128x128 : Shape := ⟨2, ![128, 128]⟩
abbrev S_ : Shape := ⟨0, ![]⟩
abbrev S39 : Shape := ⟨1, ![39]⟩
abbrev S1x39 : Shape := ⟨2, ![1, 39]⟩
abbrev S16384x39x2 : Shape := ⟨3, ![16384, 39, 2]⟩
abbrev S16384x39x16 : Shape := ⟨3, ![16384, 39, 16]⟩
abbrev S16384x16 : Shape := ⟨2, ![16384, 16]⟩
abbrev S16384x128 : Shape := ⟨2, ![16384, 128]⟩
abbrev S1x128 : Shape := ⟨2, ![1, 128]⟩
abbrev S16384 : Shape := ⟨1, ![16384]⟩

abbrev nBuf : Space → Nat
  | .hbm => 85
  | .vmem => 0
  | .smem => 0
  | _ => 0

abbrev bufTy : (tb : Table) → Fin (tcTables nBuf tb) → BufTy
  | .hbm, ⟨0, _⟩ => ⟨S16384x39x1, .i32⟩
  | .hbm, ⟨1, _⟩ => ⟨S16384x39, .f32⟩
  | .hbm, ⟨2, _⟩ => ⟨S39x100000, .f32⟩
  | .hbm, ⟨3, _⟩ => ⟨S39x100000x16, .f32⟩
  | .hbm, ⟨4, _⟩ => ⟨S16x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S16384x39, .i32⟩
  | .hbm, ⟨10, _⟩ => ⟨S39, .i32⟩
  | .hbm, ⟨11, _⟩ => ⟨S1x39, .i32⟩
  | .hbm, ⟨12, _⟩ => ⟨S_, .i32⟩
  | .hbm, ⟨13, _⟩ => ⟨S1x39, .i32⟩
  | .hbm, ⟨14, _⟩ => ⟨S1x39, .i1⟩
  | .hbm, ⟨15, _⟩ => ⟨S_, .i32⟩
  | .hbm, ⟨16, _⟩ => ⟨S1x39, .i32⟩
  | .hbm, ⟨17, _⟩ => ⟨S1x39, .i32⟩
  | .hbm, ⟨18, _⟩ => ⟨S1x39, .i32⟩
  | .hbm, ⟨19, _⟩ => ⟨S_, .i32⟩
  | .hbm, ⟨20, _⟩ => ⟨S16384x39, .i32⟩
  | .hbm, ⟨21, _⟩ => ⟨S16384x39, .i1⟩
  | .hbm, ⟨22, _⟩ => ⟨S_, .i32⟩
  | .hbm, ⟨23, _⟩ => ⟨S16384x39, .i32⟩
  | .hbm, ⟨24, _⟩ => ⟨S16384x39, .i32⟩
  | .hbm, ⟨25, _⟩ => ⟨S16384x39, .i32⟩
  | .hbm, ⟨26, _⟩ => ⟨S16384x39, .i32⟩
  | .hbm, ⟨27, _⟩ => ⟨S16384x39x1, .i32⟩
  | .hbm, ⟨28, _⟩ => ⟨S16384x39x1, .i32⟩
  | .hbm, ⟨29, _⟩ => ⟨S16384x39x2, .i32⟩
  | .hbm, ⟨30, _⟩ => ⟨S16384x39, .f32⟩
  | .hbm, ⟨31, _⟩ => ⟨S16384x39, .f32⟩
  | .hbm, ⟨32, _⟩ => ⟨S_, .i32⟩
  | .hbm, ⟨33, _⟩ => ⟨S1x39, .i32⟩
  | .hbm, ⟨34, _⟩ => ⟨S1x39, .i1⟩
  | .hbm, ⟨35, _⟩ => ⟨S_, .i32⟩
  | .hbm, ⟨36, _⟩ => ⟨S1x39, .i32⟩
  | .hbm, ⟨37, _⟩ => ⟨S1x39, .i32⟩
  | .hbm, ⟨38, _⟩ => ⟨S1x39, .i32⟩
  | .hbm, ⟨39, _⟩ => ⟨S_, .i32⟩
  | .hbm, ⟨40, _⟩ => ⟨S16384x39, .i32⟩
  | .hbm, ⟨41, _⟩ => ⟨S16384x39, .i1⟩
  | .hbm, ⟨42, _⟩ => ⟨S_, .i32⟩
  | .hbm, ⟨43, _⟩ => ⟨S16384x39, .i32⟩
  | .hbm, ⟨44, _⟩ => ⟨S16384x39, .i32⟩
  | .hbm, ⟨45, _⟩ => ⟨S16384x39, .i32⟩
  | .hbm, ⟨46, _⟩ => ⟨S16384x39, .i32⟩
  | .hbm, ⟨47, _⟩ => ⟨S16384x39x1, .i32⟩
  | .hbm, ⟨48, _⟩ => ⟨S16384x39x1, .i32⟩
  | .hbm, ⟨49, _⟩ => ⟨S16384x39x2, .i32⟩
  | .hbm, ⟨50, _⟩ => ⟨S16384x39x16, .f32⟩
  | .hbm, ⟨51, _⟩ => ⟨S16384x39x1, .f32⟩
  | .hbm, ⟨52, _⟩ => ⟨S16384x39x16, .f32⟩
  | .hbm, ⟨53, _⟩ => ⟨S16384x39x16, .f32⟩
  | .hbm, ⟨54, _⟩ => ⟨S_, .f32⟩
  | .hbm, ⟨55, _⟩ => ⟨S16384x16, .f32⟩
  | .hbm, ⟨56, _⟩ => ⟨S16384x16, .f32⟩
  | .hbm, ⟨57, _⟩ => ⟨S16384x39x16, .f32⟩
  | .hbm, ⟨58, _⟩ => ⟨S_, .f32⟩
  | .hbm, ⟨59, _⟩ => ⟨S16384x16, .f32⟩
  | .hbm, ⟨60, _⟩ => ⟨S16384x16, .f32⟩
  | .hbm, ⟨61, _⟩ => ⟨S_, .f32⟩
  | .hbm, ⟨62, _⟩ => ⟨S16384x16, .f32⟩
  | .hbm, ⟨63, _⟩ => ⟨S16384x16, .f32⟩
  | .hbm, ⟨64, _⟩ => ⟨S16384x128, .f32⟩
  | .hbm, ⟨65, _⟩ => ⟨S1x128, .f32⟩
  | .hbm, ⟨66, _⟩ => ⟨S16384x128, .f32⟩
  | .hbm, ⟨67, _⟩ => ⟨S16384x128, .f32⟩
  | .hbm, ⟨68, _⟩ => ⟨S_, .f32⟩
  | .hbm, ⟨69, _⟩ => ⟨S16384x128, .f32⟩
  | .hbm, ⟨70, _⟩ => ⟨S16384x128, .f32⟩
  | .hbm, ⟨71, _⟩ => ⟨S16384x128, .f32⟩
  | .hbm, ⟨72, _⟩ => ⟨S1x128, .f32⟩
  | .hbm, ⟨73, _⟩ => ⟨S16384x128, .f32⟩
  | .hbm, ⟨74, _⟩ => ⟨S16384x128, .f32⟩
  | .hbm, ⟨75, _⟩ => ⟨S_, .f32⟩
  | .hbm, ⟨76, _⟩ => ⟨S16384x128, .f32⟩
  | .hbm, ⟨77, _⟩ => ⟨S16384x128, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S16384, .f32⟩
  | .hbm, ⟨82, _⟩ => ⟨S_, .f32⟩
  | .hbm, ⟨83, _⟩ => ⟨S16384, .f32⟩
  | .hbm, ⟨84, _⟩ => ⟨S16384, .f32⟩
  | _, _ => ⟨S16384x39x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  shapeCasts_S16384x39x1_S16384x39 : S16384x39x1.ShapeCasts S16384x39
  bcast_S39_S1x39_1 : S39.BroadcastsInDim S1x39 (![1] : Fin 1 → Fin S1x39.rank)
  bcast_S_S1x39 : S_.BroadcastsInDim S1x39 (![] : Fin 0 → Fin S1x39.rank)
  bcast_S_S16384x39 : S_.BroadcastsInDim S16384x39 (![] : Fin 0 → Fin S16384x39.rank)
  bcast_S1x39_S16384x39_0_1 : S1x39.BroadcastsInDim S16384x39 (![0, 1] : Fin 2 → Fin S16384x39.rank)
  bcast_S16384x39_S16384x39x1_0_1 : S16384x39.BroadcastsInDim S16384x39x1 (![0, 1] : Fin 2 → Fin S16384x39x1.rank)
  concatenates_S16384x39x1_S16384x39x1_S16384x39x2_d2 : Shape.Concatenates [S16384x39x1, S16384x39x1] S16384x39x2 2
  bcast_S16384x39x1_S16384x39x16_0_1_2 : S16384x39x1.BroadcastsInDim S16384x39x16 (![0, 1, 2] : Fin 3 → Fin S16384x39x16.rank)
  reducesTo_S16384x39x16_S16384x16_d1 : S16384x39x16.ReducesTo [1] S16384x16
  h_S_ : 0 < S_.numel
  bcast_S_S16384x16 : S_.BroadcastsInDim S16384x16 (![] : Fin 0 → Fin S16384x16.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  reducesTo_S16384x39_S16384_d1 : S16384x39.ReducesTo [1] S16384
  bcast_S_S16384 : S_.BroadcastsInDim S16384 (![] : Fin 0 → Fin S16384.rank)
  reducesTo_S16384x128_S16384_d1 : S16384x128.ReducesTo [1] S16384
  gather_S39x100000_S16384x39x2_S16384x39_n_01_n_n_01_2_11_wf : GatherDims.WF S39x100000 S16384x39x2 S16384x39 [] [0, 1] [] [0, 1] [] 2 ![1, 1]
  gather_S39x100000x16_S16384x39x2_S16384x39x16_2_01_n_n_01_2_1116_wf : GatherDims.WF S39x100000x16 S16384x39x2 S16384x39x16 [2] [0, 1] [] [0, 1] [] 2 ![1, 1, 16]
  dot_S16384x16_S16x128_S16384x128_1_0_0_1_n_n_wf : DotDims.WF S16384x16 S16x128 S16384x128 [1] [0] [0] [1] [] []
  dot_S16384x128_S128x128_S16384x128_1_0_0_1_n_n_wf : DotDims.WF S16384x128 S128x128 S16384x128 [1] [0] [0] [1] [] []

variable [Facts₀]

def gather_S39x100000_S16384x39x2_S16384x39_n_01_n_n_01_2_11 : GatherDims S39x100000 S16384x39x2 S16384x39 where
  offsetDims := []
  collapsedSliceDims := [0, 1]
  operandBatchingDims := []
  startIndicesBatchingDims := []
  startIndexMap := [0, 1]
  indexVectorDim := 2
  sliceSizes := ![1, 1]
  wf := gather_S39x100000_S16384x39x2_S16384x39_n_01_n_n_01_2_11_wf
def gather_S39x100000x16_S16384x39x2_S16384x39x16_2_01_n_n_01_2_1116 : GatherDims S39x100000x16 S16384x39x2 S16384x39x16 where
  offsetDims := [2]
  collapsedSliceDims := [0, 1]
  operandBatchingDims := []
  startIndicesBatchingDims := []
  startIndexMap := [0, 1]
  indexVectorDim := 2
  sliceSizes := ![1, 1, 16]
  wf := gather_S39x100000x16_S16384x39x2_S16384x39x16_2_01_n_n_01_2_1116_wf
def dot_S16384x16_S16x128_S16384x128_1_0_0_1_n_n : DotDims S16384x16 S16x128 S16384x128 where
  lhsContracting := [1]
  rhsContracting := [0]
  lhsNonContracting := [0]
  rhsNonContracting := [1]
  lhsBatch := []
  rhsBatch := []
  wf := dot_S16384x16_S16x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.Spec.lean ====
/-
  The layer both programs compute, as ONE function of the argument arrays over the extended reals.

  Sample b has one id per field f. Field f owns a first-order table w1[f, ·] (one number per id) and a second-order
  table e2[f, ·, ·] (sixteen numbers per id). With x = Xv[b, f]:
    lin b f   = w1[f, id] · x                       the first-order term
    emb b f e = e2[f, id, e] · x                    the second-order embedding, scaled
    s e = Σ_f emb,  q e = Σ_f emb²,  cross e = ½ · (s e · s e − q e)     (square of the sum minus sum of the squares)
  and a two-layer ReLU head reads the sixteen cross terms:
    hid0 j = max (Σ_e cross e · W0[e, j] + b0[j]) 0,  hid1 j = max (Σ_k hid0 k · W1[k, j] + b1[j]) 0
    result b = (bias + Σ_f lin b f) + Σ_j hid1 j.
  The sums over the fields are stated as partial sums over the first n fields, because one program forms them one
  field at a time; at n = 39 they are the whole sums. A table is extended by ZERO past its last row: that is what a
  zero-padded copy of it holds there, and under the hypothesis that every id names a row it changes nothing.
  Two selection laws close the file: a sum against an indicator of one position is the term at that position.
-/
import Idealize.ShloMosaic.PureOps.Ideal
import Idealize.ShloMosaic.Lib.ValueIdx

noncomputable section

open scoped BigOperators

namespace Cert.Fm

open Idealize.ShloMosaic Idealize.ShloMosaic.ValueIdx

/-- The nine argument arrays: ids, their scales, the two tables, the head's weights and biases, the output bias. -/
structure Args where
  Xi : IVec ⟨3, ![16384, 39, 1]⟩ 32
  Xv : FVec Ideal ⟨2, ![16384, 39]⟩ .f32
  w1 : FVec Ideal ⟨2, ![39, 100000]⟩ .f32
  e2 : FVec Ideal ⟨3, ![39, 100000, 16]⟩ .f32
  W0 : FVec Ideal ⟨2, ![16, 128]⟩ .f32
  b0 : FVec Ideal ⟨1, ![128]⟩ .f32
  W1 : FVec Ideal ⟨2, ![128, 128]⟩ .f32
  b1 : FVec Ideal ⟨1, ![128]⟩ .f32
  bb : FVec Ideal ⟨0, ![]⟩ .f32

variable (A : Args)

/-- The id of sample b in field f, the index word read as a natural number. -/
def vid (b : Fin 16384) (f : Fin 39) : ℕ := (A.Xi (ix3 b f 0)).toNat

/-- Every id names a row of its field's tables. -/
def InVocab : Prop := ∀ (b : Fin 16384) (f : Fin 39), vid A b f < 100000

/-- Row n of field f's first-order table, zero past the last row. -/
def w1z (f : Fin 39) (n : ℕ) : EReal := if h : n < 100000 then A.w1 (ix2 f ⟨n, h⟩) else 0

/-- Entry e of row n of field f's second-order table, zero past the last row. -/
def e2z (f : Fin 39) (n : ℕ) (e : Fin 16) : EReal := if h : n < 100000 then A.e2 (ix3 f ⟨n, h⟩ e) else 0

/-- The two tables side by side: columns 0 … 15 the second-order entries, column 16 the first-order weight. -/
def slab (f : Fin 39) (n : ℕ) (e : Fin 17) : EReal :=
  if he : e.val < 16 then e2z A f n ⟨e.val, he⟩ else w1z A f n

theorem slab_lt (f : Fin 39) (n : ℕ) (e : Fin 16) : slab A f n ⟨e.val, by omega⟩ = e2z A f n e := by
  unfold slab; rw [dif_pos e.isLt]

theorem slab_last (f : Fin 39) (n : ℕ) : slab A f n ⟨16, by omega⟩ = w1z A f n := by
  unfold slab; rw [dif_neg (by simp)]

/-- The first-order term of sample b in field f. -/
def lin (b : Fin 16384) (f : Fin 39) : EReal := w1z A f (vid A b f) * A.Xv (ix2 b f)

/-- The scaled second-order embedding of sample b in field f. -/
def emb (b : Fin 16384) (f : Fin 39) (e : Fin 16) : EReal := e2z A f (vid A b f) e * A.Xv (ix2 b f)

/-- The same by field NUMBER, zero past the last field, so that sums over the first n fields range over naturals. -/
def linN (b : Fin 16384) (f : ℕ) : EReal := if h : f < 39 then lin A b ⟨f, h⟩ else 0
def embN (b : Fin 16384) (f : ℕ) (e : Fin 16) : EReal := if h : f < 39 then emb A b ⟨f, h⟩ e else 0

theorem linN_of_lt (b : Fin 16384) (f : Fin 39) : linN A b f.val = lin A b f := by
  unfold linN; rw [dif_pos f.isLt]
theorem embN_of_lt (b : Fin 16384) (f : Fin 39) (e : Fin 16) : embN A b f.val e = emb A b f e := by
  unfold embN; rw [dif_pos f.isLt]

/-- The sums over the first n fields. -/
def linUpTo (b : Fin 16384) (n : ℕ) : EReal := ∑ f ∈ Finset.range n, linN A b f
def sumUpTo (b : Fin 16384) (e : Fin 16) (n : ℕ) : EReal := ∑ f ∈ Finset.range n, embN A b f e
def sqUpTo (b : Fin 16384) (e : Fin 16) (n : ℕ) : EReal := ∑ f ∈ Finset.range n, embN A b f e * embN A b f e

theorem linUpTo_zero (b : Fin 16384) : linUpTo A b 0 = 0 := Finset.sum_range_zero _
theorem sumUpTo_zero (b : Fin 16384) (e : Fin 16) : sumUpTo A b e 0 = 0 := Finset.sum_range_zero _
theorem sqUpTo_zero (b : Fin 16384) (e : Fin 16) : sqUpTo A b e 0 = 0 := Finset.sum_range_zero _

/-- One more field: the sum so far plus that field's term (the order in which a running total is formed). -/
theorem linUpTo_succ (b : Fin 16384) (n : ℕ) : linUpTo A b (n + 1) = linUpTo A b n + linN A b n :=
  Finset.sum_range_succ _ _
theorem sumUpTo_succ (b : Fin 16384) (e : Fin 16) (n : ℕ) : sumUpTo A b e (n + 1) = sumUpTo A b e n + embN A b n e :=
  Finset.sum_range_succ _ _
theorem sqUpTo_succ (b : Fin 16384) (e : Fin 16) (n : ℕ) :
    sqUpTo A b e (n + 1) = sqUpTo A b e n + embN A b n e * embN A b n e :=
  Finset.sum_range_succ _ _

/-- All 39 fields: the sum over the fields themselves. -/
theorem linUpTo_all (b : Fin 16384) : linUpTo A b 39 = ∑ f : Fin 39, lin A b f := by
  unfold linUpTo; rw [Finset.sum_range]; exact Finset.sum_congr rfl fun f _ => linN_of_lt A b f
theorem sumUpTo_all (b : Fin 16384) (e : Fin 16) : sumUpTo A b e 39 = ∑ f : Fin 39, emb A b f e := by
  unfold sumUpTo; rw [Finset.sum_range]; exact Finset.sum_congr rfl fun f _ => embN_of_lt A b f e
theorem sqUpTo_all (b : Fin 16384) (e : Fin 16) : sqUpTo A b e 39 = ∑ f : Fin 39, emb A b f e * emb A b f e := by
  unfold sqUpTo; rw [Finset.sum_range]
  exact Finset.sum_congr rfl fun f _ => by rw [embN_of_lt A b f e]

/-- One half, as the binary32 word both programs carry. -/
def half : EReal := Ideal.ofBits .f32 0x3F000000#32

/-- Half the square of the sum minus the sum of the squares. -/
def cross (s q : EReal) : EReal := half * (s * s - q)

/-- The head's first layer at unit j. -/
def hid0 (x : Fin 16 → EReal) (j : Fin 128) : EReal := max ((∑ e : Fin 16, x e * A.W0 (ix2 e j)) + A.b0 (ix1 j)) 0

/-- The head's second layer at unit j. -/
def hid1 (x : Fin 128 → EReal) (j : Fin 128) : EReal := max ((∑ k : Fin 128, x k * A.W1 (ix2 k j)) + A.b1 (ix1 j)) 0

/-- The head: the second layer's units summed. -/
def head (x : Fin 16 → EReal) : EReal := ∑ j : Fin 128, hid1 A (hid0 A x) j

/-- What a row's result is once its three running totals are known. -/
def finish (first : EReal) (s q : Fin 16 → EReal) : EReal :=
  (A.bb ix0 + first) + head A (fun e => cross (s e) (q e))

/-- The layer's result for sample b. -/
def result (b : Fin 16384) : EReal :=
  finish A (linUpTo A b 39) (fun e => sumUpTo A b e 39) (fun e => sqUpTo A b e 39)

/-! ## Selecting one term with an indicator -/

/-- A sum whose left factors are the indicator of position a is the term at a. -/
theorem sum_indicator_mul {n : ℕ} (a : Fin n) (T : Fin n → EReal) :
    ∑ h : Fin n, (if a = h then (1 : EReal) else 0) * T h = T a := by
  rw [Finset.sum_eq_single a]
  · rw [if_pos rfl, one_mul]
  · intro h _ hne; rw [if_neg (fun e => hne e.symm), zero_mul]
  · intro ha; exact absurd (Finset.mem_univ a) ha

/-- A sum whose right factors are the indicator of position a is the term at a. -/
theorem sum_mul_indicator {n : ℕ} (a : Fin n) (T : Fin n → EReal) :
    ∑ l : Fin n, T l * (if a = l then (1 : EReal) else 0) = T a := by
  rw [Finset.sum_eq_single a]
  · rw [if_pos rfl, mul_one]
  · intro l _ hne; rw [if_neg (fun e => hne e.symm), mul_zero]
  · intro ha; exact absurd (Finset.mem_univ a) ha

/-- No position selected: the sum is zero (an id outside every lane). -/
theorem sum_indicator_none {n : ℕ} (p : Fin n → Prop) [DecidablePred p] (hp : ∀ h, ¬p h) (T : Fin n → EReal) :
    ∑ h : Fin n, (if p h then (1 : EReal) else 0) * T h = 0 :=
  Finset.sum_eq_zero fun h _ => by rw [if_neg (hp h), zero_mul]

end Cert.Fm

end
-- ==== Proof.KArgs.lean ====
/-
  The specification's argument bundle read off a memory of the kernel's program, and off one of the reference's: the
  nine argument buffers of a core, in the order of the entry point's parameters. Two memories that agree on the nine
  buffers give the same bundle.
-/
import proofs.«417294_j31825707663666_2_alg».proof.KernelIdeal
import proofs.«417294_j31825707663666_2_alg».proof.ReferenceIdeal
import proofs.«417294_j31825707663666_2_alg».proof.Proof.Spec

noncomputable section

namespace Cert.Fm

open Idealize.ShloMosaic Idealize.SL.Sem

/-- The argument arrays a core of the kernel's program starts from. -/
def kArgs (m : (ℓ : Loc Cert.KernelIdeal.nD Cert.KernelIdeal.τ Cert.KernelIdeal.sig) → Buf (Elt Ideal) ℓ)
    (c : Dev Cert.KernelIdeal.nD) : Args where
  Xi := m ((c.tc : Thread Cert.KernelIdeal.nD Cert.KernelIdeal.τ).loc Cert.KernelIdeal.main_arg0)
  Xv := m ((c.tc : Thread Cert.KernelIdeal.nD Cert.KernelIdeal.τ).loc Cert.KernelIdeal.main_arg1)
  w1 := m ((c.tc : Thread Cert.KernelIdeal.nD Cert.KernelIdeal.τ).loc Cert.KernelIdeal.main_arg2)
  e2 := m ((c.tc : Thread Cert.KernelIdeal.nD Cert.KernelIdeal.τ).loc Cert.KernelIdeal.main_arg3)
  W0 := m ((c.tc : Thread Cert.KernelIdeal.nD Cert.KernelIdeal.τ).loc Cert.KernelIdeal.main_arg4)
  b0 := m ((c.tc : Thread Cert.KernelIdeal.nD Cert.KernelIdeal.τ).loc Cert.KernelIdeal.main_arg5)
  W1 := m ((c.tc : Thread Cert.KernelIdeal.nD Cert.KernelIdeal.τ).loc Cert.KernelIdeal.main_arg6)
  b1 := m ((c.tc : Thread Cert.KernelIdeal.nD Cert.KernelIdeal.τ).loc Cert.KernelIdeal.main_arg7)
  bb := m ((c.tc : Thread Cert.KernelIdeal.nD Cert.KernelIdeal.τ).loc Cert.KernelIdeal.main_arg8)

/-- The argument arrays a core of the reference's program starts from. -/
def rArgs (m : (ℓ : Loc Cert.ReferenceIdeal.nD Cert.ReferenceIdeal.τ Cert.ReferenceIdeal.sig) → Buf (Elt Ideal) ℓ)
    (c : Dev Cert.ReferenceIdeal.nD) : Args where
  Xi := m ((c.tc : Thread Cert.ReferenceIdeal.nD Cert.ReferenceIdeal.τ).loc Cert.ReferenceIdeal.main_arg0)
  Xv := m ((c.tc : Thread Cert.ReferenceIdeal.nD Cert.ReferenceIdeal.τ).loc Cert.ReferenceIdeal.main_arg1)
  w1 := m ((c.tc : Thread Cert.ReferenceIdeal.nD Cert.ReferenceIdeal.τ).loc Cert.ReferenceIdeal.main_arg2)
  e2 := m ((c.tc : Thread Cert.ReferenceIdeal.nD Cert.ReferenceIdeal.τ).loc Cert.ReferenceIdeal.main_arg3)
  W0 := m ((c.tc : Thread Cert.ReferenceIdeal.nD Cert.ReferenceIdeal.τ).loc Cert.ReferenceIdeal.main_arg4)
  b0 := m ((c.tc : Thread Cert.ReferenceIdeal.nD Cert.ReferenceIdeal.τ).loc Cert.ReferenceIdeal.main_arg5)
  W1 := m ((c.tc : Thread Cert.ReferenceIdeal.nD Cert.ReferenceIdeal.τ).loc Cert.ReferenceIdeal.main_arg6)
  b1 := m ((c.tc : Thread Cert.ReferenceIdeal.nD Cert.ReferenceIdeal.τ).loc Cert.ReferenceIdeal.main_arg7)
  bb := m ((c.tc : Thread Cert.ReferenceIdeal.nD Cert.ReferenceIdeal.τ).loc Cert.ReferenceIdeal.main_arg8)

end Cert.Fm

end
-- ==== Proof.PreFacts.lean ====
/-
  What the precondition says about the ids. Its last two conjuncts compare every id word, as a signed number, with 0
  (not below) and with 100000 (below), and take the conjunction over all entries. A word that is not negative reads
  the same signed and unsigned, so every id, read as a natural number, is below 100000.
-/
import proofs.«417294_j31825707663666_2_alg».proof.Pre_finite_inputs
import Idealize.ShloMosaic.Lib.ReduceAll
import Idealize.ShloMosaic.Lib.StableHlo.Predicate

namespace Cert.Pre_finite_inputs.IdRange

open Idealize.ShloMosaic Cert.Pre_finite_inputs

variable [Cert.Pre_finite_inputs.Facts]

/-- One word: not below 0 and below 100000 as signed numbers. Not being negative clears the top bit, so the signed
    and the unsigned readings agree, and the unsigned reading is below 100000. -/
private theorem word_lt (x : BitVec 32) (h0 : IntOp.cmpi .sge x 0#32 = 1#1) (h1 : IntOp.cmpi .slt x 100000#32 = 1#1) :
    x.toNat < 100000 := by
  rw [IntOp.cmpi_sge] at h0
  rw [IntOp.cmpi_slt] at h1
  have hz : (0#32 : BitVec 32).toInt = 0 := by decide
  have hc : (100000#32 : BitVec 32).toInt = 100000 := by decide
  rw [hz] at h0
  rw [hc] at h1
  have hlt : 2 * x.toNat < 2 ^ 32 := BitVec.toInt_pos_iff.1 h0
  rw [BitVec.toInt_eq_toNat_of_lt hlt] at h1
  exact_mod_cast h1

/-- Under the precondition every id, read unsigned, is below 100000. -/
theorem id_lt_of_pre {F : FTy → Type} [FloatOps F] (a0 : IVec S16384x39x1 32) (a1 : FVec F S16384x39 .f32)
    (a2 : FVec F S39x100000 .f32) (a3 : FVec F S39x100000x16 .f32) (a4 : FVec F S16x128 .f32) (a5 : FVec F S128 .f32)
    (a6 : FVec F S128x128 .f32) (a7 : FVec F S128 .f32) (a8 : FVec F S_ .f32)
    (h : Cert.Pre_finite_inputs.fn (F := F) a0 a1 a2 a3 a4 a5 a6 a7 a8 = fun _ => 1#1) (i : S16384x39x1.Idx) :
    (a0 i).toNat < 100000 := by
  -- the rank-0 result has a single index
  haveI : Subsingleton S_.Idx := ⟨fun a b => funext fun d => d.elim0⟩
  have hj := congrFun h (fun d => d.elim0)
  dsimp only [fn, fn_part1, fn_part2] at hj
  -- the outermost conjunction ends in the "below 100000" test, the one inside it in the "not below 0" test
  obtain ⟨h41, h44⟩ := IntOp.andi_eq_one.1 hj
  obtain ⟨-, h40⟩ := IntOp.andi_eq_one.1 h41
  -- a conjunction over all entries that holds, holds at the entry i; the broadcast constants read 0 and 100000 there
  have e0 := Host.reduce_andi_all _ _ _ _ _ h40 i
  have e1 := Host.reduce_andi_all _ _ _ _ _ h44 i
  exact word_lt (a0 i) e0 e1

end Cert.Pre_finite_inputs.IdRange
-- ==== Proof.Pieces.lean ====
/-
  What each control case of the kernel body leaves in the three running totals and in the output block, as the body's
  pure payload terms. The body stores every buffer whole, so what a buffer holds afterwards is its last stored value,
  and a load that follows a store of the same buffer reads that stored value back:
    first field (reset, then update):   total0 = pay1 (pay11 … zeros),  total1 = pay2 (pay10 …) zeros,  total2 = pay3 (pay10 …) zeros
    a later field (update only):        total0 = pay1 (pay11 … old0),   total1 = pay2 (pay10 …) old1,   total2 = pay3 (pay10 …) old2
    the last field: the same updates, and the output block = pay4 of the NEW totals and the head's weights.
-/
import proofs.«417294_j31825707663666_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The offsets of a whole-buffer rectangle of rank 2 are all zero. -/
theorem zeroOffsets2 : (![0, 0] : Fin 2 → Nat) = fun _ => 0 := funext fun a => by fin_cases a <;> rfl

/-- The offsets of a whole-buffer rectangle of rank 3 are all zero. -/
theorem zeroOffsets3 : (![0, 0, 0] : Fin 3 → Nat) = fun _ => 0 := funext fun a => by fin_cases a <;> rfl

/-- First field, total 0: the zero block is stored, read back, and the update of it stored over it; the later store covers, so the buffer holds the update of the zero block. -/
theorem sout0_A_0_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : cond0_0 i) (hc1 : ¬cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 (k0_pay11 x0 x1 x2 x3 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S512x1) zeroOffsets2, View.readCov_unit_zero (S := S512x1) _ zeroOffsets2]
  simp only [View.readAt_eq_ld, harg2.read_unread, harg3.read_unread, harg4.read_unread, harg5.read_unread,
    View.ld_unit_zero (S := S1x512x1) zeroOffsets3, View.ld_unit_zero (S := S1x784x2176) zeroOffsets3]

/-- First field, total 1: zeros stored and read back, then the sum update stored over them. -/
theorem sout0_A_1_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : cond0_0 i) (hc1 : ¬cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay2 (k0_pay10 x0 x1 x2 x3) k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S512x16) zeroOffsets2, View.readCov_unit_zero (S := S512x16) _ zeroOffsets2]
  simp only [View.readAt_eq_ld, harg2.read_unread, harg3.read_unread, harg4.read_unread, harg5.read_unread,
    View.ld_unit_zero (S := S1x512x1) zeroOffsets3, View.ld_unit_zero (S := S1x784x2176) zeroOffsets3]

/-- First field, total 2: zeros stored and read back, then the sum-of-squares update stored over them. -/
theorem sout0_A_2_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : cond0_0 i) (hc1 : ¬cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 (k0_pay10 x0 x1 x2 x3) k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S512x16) zeroOffsets2, View.readCov_unit_zero (S := S512x16) _ zeroOffsets2]
  simp only [View.readAt_eq_ld, harg2.read_unread, harg3.read_unread, harg4.read_unread, harg5.read_unread,
    View.ld_unit_zero (S := S1x512x1) zeroOffsets3, View.ld_unit_zero (S := S1x784x2176) zeroOffsets3]

/-- A middle field, total 0: one whole-buffer store of the update of what the previous point left. -/
theorem sout0_B_0_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : ¬cond0_0 i) (hc1 : ¬cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) (xs0 : Vec F S512x1 .f32) (xs1 : Vec F S512x16 .f32) (xs2 : Vec F S512x16 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay1 (k0_pay11 x0 x1 x2 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero (S := S512x1) zeroOffsets2]
  simp only [View.readAt_eq_ld, harg2.read_unread, harg3.read_unread, harg4.read_unread, harg5.read_unread,
    harg12.read_unread, View.ld_unit_zero (S := S512x1) zeroOffsets2, View.ld_unit_zero (S := S1x512x1) zeroOffsets3,
    View.ld_unit_zero (S := S1x784x2176) zeroOffsets3]

/-- A middle field, total 1: one whole-buffer store of the old total plus this field's term. -/
theorem sout0_B_1_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : ¬cond0_0 i) (hc1 : ¬cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) (xs0 : Vec F S512x1 .f32) (xs1 : Vec F S512x16 .f32) (xs2 : Vec F S512x16 .f32) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay2 (k0_pay10 x0 x1 x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero (S := S512x16) zeroOffsets2]
  simp only [View.readAt_eq_ld, harg2.read_unread, harg3.read_unread, harg4.read_unread, harg5.read_unread,
    harg13.read_unread, View.ld_unit_zero (S := S512x16) zeroOffsets2,
    View.ld_unit_zero (S := S1x512x1) zeroOffsets3, View.ld_unit_zero (S := S1x784x2176) zeroOffsets3]

/-- A middle field, total 2: one whole-buffer store of the old total plus this field's squared term. -/
theorem sout0_B_2_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : ¬cond0_0 i) (hc1 : ¬cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) (xs0 : Vec F S512x1 .f32) (xs1 : Vec F S512x16 .f32) (xs2 : Vec F S512x16 .f32) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay3 (k0_pay10 x0 x1 x2 x3) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_B
  dsimp only
  sl_unfold_words
  rw [View.canon_unit_zero (S := S512x16) zeroOffsets2]
  simp only [View.readAt_eq_ld, harg2.read_unread, harg3.read_unread, harg4.read_unread, harg5.read_unread,
    harg14.read_unread, View.ld_unit_zero (S := S512x16) zeroOffsets2,
    View.ld_unit_zero (S := S1x512x1) zeroOffsets3, View.ld_unit_zero (S := S1x784x2176) zeroOffsets3]

/-- The last field, total 0: the same single update store as at a middle field. -/
theorem sout0_C_0_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : ¬cond0_0 i) (hc1 : cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) (xs0 : Vec F S512x1 .f32) (xs1 : Vec F S512x16 .f32) (xs2 : Vec F S512x16 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay1 (k0_pay11 x0 x1 x2 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero (S := S512x1) zeroOffsets2]
  simp only [View.readAt_eq_ld, harg2.read_unread, harg3.read_unread, harg4.read_unread, harg5.read_unread,
    harg12.read_unread, View.ld_unit_zero (S := S512x1) zeroOffsets2, View.ld_unit_zero (S := S1x512x1) zeroOffsets3,
    View.ld_unit_zero (S := S1x784x2176) zeroOffsets3]

/-- The last field, total 1: the same single update store as at a middle field. -/
theorem sout0_C_1_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : ¬cond0_0 i) (hc1 : cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) (xs0 : Vec F S512x1 .f32) (xs1 : Vec F S512x16 .f32) (xs2 : Vec F S512x16 .f32) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay2 (k0_pay10 x0 x1 x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero (S := S512x16) zeroOffsets2]
  simp only [View.readAt_eq_ld, harg2.read_unread, harg3.read_unread, harg4.read_unread, harg5.read_unread,
    harg13.read_unread, View.ld_unit_zero (S := S512x16) zeroOffsets2,
    View.ld_unit_zero (S := S1x512x1) zeroOffsets3, View.ld_unit_zero (S := S1x784x2176) zeroOffsets3]

/-- The last field, total 2: the same single update store as at a middle field. -/
theorem sout0_C_2_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : ¬cond0_0 i) (hc1 : cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) (xs0 : Vec F S512x1 .f32) (xs1 : Vec F S512x16 .f32) (xs2 : Vec F S512x16 .f32) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay3 (k0_pay10 x0 x1 x2 x3) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero (S := S512x16) zeroOffsets2]
  simp only [View.readAt_eq_ld, harg2.read_unread, harg3.read_unread, harg4.read_unread, harg5.read_unread,
    harg14.read_unread, View.ld_unit_zero (S := S512x16) zeroOffsets2,
    View.ld_unit_zero (S := S1x512x1) zeroOffsets3, View.ld_unit_zero (S := S1x784x2176) zeroOffsets3]

/-- The last field, the output block: after the three updates are stored, each total is loaded back whole (so the load reads the value just stored) and the finishing step of the new totals and the head's weights is stored once over the whole block. -/
theorem out0_C_9_eq (c : Dev nD) (i : grid0.Coords) (arg2 : Memref sig .tc .vmem S1x512x1 .i32) (harg2 : arg2.IsWhole) (arg3 : Memref sig .tc .vmem S1x512x1 .i32) (harg3 : arg3.IsWhole) (arg4 : Memref sig .tc .vmem S1x512x1 .f32) (harg4 : arg4.IsWhole) (arg5 : Memref sig .tc .vmem S1x784x2176 .bf16) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x16 .f32) (harg13 : arg13.IsWhole) (arg14 : Memref sig .tc .vmem S512x16 .f32) (harg14 : arg14.IsWhole) (hc0 : ¬cond0_0 i) (hc1 : cond0_1 i)
    (x0 : Vec F S1x512x1 .i32) (x1 : Vec F S1x512x1 .i32) (x2 : Vec F S1x512x1 .f32) (x3 : Vec F S1x784x2176 .bf16) (x4 : Vec F S16x128 .f32) (x5 : Vec F S1x128 .f32) (x6 : Vec F S128x128 .f32) (x7 : Vec F S1x128 .f32) (x8 : Vec F S1x1 .f32) (xs0 : Vec F S512x1 .f32) (xs1 : Vec F S512x16 .f32) (xs2 : Vec F S512x16 .f32) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay4 (k0_pay2 (k0_pay10 x0 x1 x2 x3) xs1) (k0_pay3 (k0_pay10 x0 x1 x2 x3) xs2) x4 x5 x6 x7 x8 (k0_pay1 (k0_pay11 x0 x1 x2 x3 xs0)) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2)]
  unfold kernelRun0_C
  dsimp only
  sl_unfold_words
  rw [View.canon_unit_zero (S := S512x1) zeroOffsets2]
  simp only [View.readAt_eq_ld, harg2.read_unread, harg3.read_unread, harg4.read_unread, harg5.read_unread, harg6.read_unread,
    harg7.read_unread, harg8.read_unread, harg9.read_unread, harg10.read_unread, harg12.read_unread,
    harg13.read_unread, harg14.read_unread, View.ld_unit_zero (S := S512x1) zeroOffsets2,
    View.ld_unit_zero (S := S512x16) zeroOffsets2, View.ld_unit_zero (S := S16x128) zeroOffsets2,
    View.ld_unit_zero (S := S1x128) zeroOffsets2, View.ld_unit_zero (S := S128x128) zeroOffsets2,
    View.ld_unit_zero (S := S1x1) zeroOffsets2, View.ld_unit_zero (S := S1x512x1) zeroOffsets3,
    View.ld_unit_zero (S := S1x784x2176) zeroOffsets3, View.readCov_unit_zero (S := S512x1) _ zeroOffsets2,
    View.readCov_unit_zero (S := S512x16) _ zeroOffsets2]

end Cert.KernelIdeal.Pieces

end
-- ==== Proof.BlockReads.lean ====
/-
  The kernel's input blocks at a grid point, as entries of their arrays. The 1248 points run over 32 batch tiles of
  512 rows (outer) and 39 fields (inner): point t is field t % 39 of tile t / 39, and row r of the point is sample
  (t / 39)·512 + r. The three per-row blocks (quotient, remainder, scale) are rows (t / 39)·512 … of field t % 39 of
  their field-major arrays; the table block is field t % 39's whole packed table; the head's weights and biases are
  whole arrays at every point. An entry of a block is the array's entry at block index × block size + the coordinate
  inside the block, on every axis.
-/
import proofs.«417294_j31825707663666_2_alg».proof.Proof.Gen.KernelIdeal.Frame
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The nine input blocks of point t, named at their literal types. -/
abbrev hiBlk (c : Dev nD) (t : Fin cfg0.N) : Vec F S1x512x1 .i32 := iblk m c 0 t
abbrev loBlk (c : Dev nD) (t : Fin cfg0.N) : Vec F S1x512x1 .i32 := iblk m c 1 t
abbrev xvBlk (c : Dev nD) (t : Fin cfg0.N) : Vec F S1x512x1 .f32 := iblk m c 2 t
abbrev tabBlk (c : Dev nD) (t : Fin cfg0.N) : Vec F S1x784x2176 .bf16 := iblk m c 3 t
abbrev w0Blk (c : Dev nD) (t : Fin cfg0.N) : Vec F S16x128 .f32 := iblk m c 4 t
abbrev b0Blk (c : Dev nD) (t : Fin cfg0.N) : Vec F S1x128 .f32 := iblk m c 5 t
abbrev w1Blk (c : Dev nD) (t : Fin cfg0.N) : Vec F S128x128 .f32 := iblk m c 6 t
abbrev b1Blk (c : Dev nD) (t : Fin cfg0.N) : Vec F S1x128 .f32 := iblk m c 7 t
abbrev bbBlk (c : Dev nD) (t : Fin cfg0.N) : Vec F S1x1 .f32 := iblk m c 8 t

theorem N_eq : cfg0.N = 1248 := N_0

/-- The field of point t. -/
def fld (t : Fin cfg0.N) : Fin 39 := ⟨t.val % 39, Nat.mod_lt _ (by decide)⟩

/-- The sample that row r of point t is. -/
def row (t : Fin cfg0.N) (r : Fin 512) : Fin 16384 :=
  ⟨t.val / 39 * 512 + r.val, by have h : t.val < 1248 := lt_of_lt_of_eq t.isLt N_eq; have := r.isLt; omega⟩

/-- The printed index maps, decided over the grid: the per-row windows sit at (field, tile, 0), the table's at
    (field, 0, 0), the head's at the origin, the output's at (tile, 0). -/
theorem idx_facts : ∀ t : Fin cfg0.N,
    (win0_0.index t (0 : Fin 3) = t.val % 39 ∧ win0_0.index t (1 : Fin 3) = t.val / 39 ∧ win0_0.index t (2 : Fin 3) = 0)
    ∧ (win0_1.index t (0 : Fin 3) = t.val % 39 ∧ win0_1.index t (1 : Fin 3) = t.val / 39 ∧ win0_1.index t (2 : Fin 3) = 0)
    ∧ (win0_2.index t (0 : Fin 3) = t.val % 39 ∧ win0_2.index t (1 : Fin 3) = t.val / 39 ∧ win0_2.index t (2 : Fin 3) = 0)
    ∧ (win0_3.index t (0 : Fin 3) = t.val % 39 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val / 39 ∧ win0_9.index t (1 : Fin 2) = 0) :=
  (by decide +kernel : ∀ t : Fin grid0.N, _)

/-- Row r of the quotient block is the quotient array at (field, sample, 0). -/
theorem hiBlk_at (c : Dev nD) (t : Fin cfg0.N) (r : Fin 512) :
    hiBlk m c t (ix3 (0 : Fin 1) r (0 : Fin 1))
      = (V m c main_v4 : S39x16384x1.Idx → Elt F .i32) (ix3 (fld t) (row t r) (0 : Fin 1)) := by
  obtain ⟨⟨e0, e1, e2⟩, -⟩ := idx_facts t
  have h : ((cfg0.win 0).blk t).view.emb (ix3 (0 : Fin 1) r (0 : Fin 1)) = ix3 (fld t) (row t r) (0 : Fin 1) := by
    funext a; apply Fin.ext
    match a with
    | ⟨0, _⟩ => show win0_0.index t (0 : Fin 3) * 1 + 1 * 0 = t.val % 39; omega
    | ⟨1, _⟩ => show win0_0.index t (1 : Fin 3) * 512 + 1 * r.val = t.val / 39 * 512 + r.val; omega
    | ⟨2, _⟩ => show win0_0.index t (2 : Fin 3) * 1 + 1 * 0 = 0; omega
  show V m c main_v4 (((cfg0.win 0).blk t).view.emb (ix3 (0 : Fin 1) r (0 : Fin 1))) = _
  rw [h]

/-- Row r of the remainder block is the remainder array at (field, sample, 0). -/
theorem loBlk_at (c : Dev nD) (t : Fin cfg0.N) (r : Fin 512) :
    loBlk m c t (ix3 (0 : Fin 1) r (0 : Fin 1))
      = (V m c main_v6 : S39x16384x1.Idx → Elt F .i32) (ix3 (fld t) (row t r) (0 : Fin 1)) := by
  obtain ⟨-, ⟨e0, e1, e2⟩, -⟩ := idx_facts t
  have h : ((cfg0.win 1).blk t).view.emb (ix3 (0 : Fin 1) r (0 : Fin 1)) = ix3 (fld t) (row t r) (0 : Fin 1) := by
    funext a; apply Fin.ext
    match a with
    | ⟨0, _⟩ => show win0_1.index t (0 : Fin 3) * 1 + 1 * 0 = t.val % 39; omega
    | ⟨1, _⟩ => show win0_1.index t (1 : Fin 3) * 512 + 1 * r.val = t.val / 39 * 512 + r.val; omega
    | ⟨2, _⟩ => show win0_1.index t (2 : Fin 3) * 1 + 1 * 0 = 0; omega
  show V m c main_v6 (((cfg0.win 1).blk t).view.emb (ix3 (0 : Fin 1) r (0 : Fin 1))) = _
  rw [h]

/-- Row r of the scale block is the scale array at (field, sample, 0). -/
theorem xvBlk_at (c : Dev nD) (t : Fin cfg0.N) (r : Fin 512) :
    xvBlk m c t (ix3 (0 : Fin 1) r (0 : Fin 1))
      = (V m c main_v8 : S39x16384x1.Idx → Elt F .f32) (ix3 (fld t) (row t r) (0 : Fin 1)) := by
  obtain ⟨-, -, ⟨e0, e1, e2⟩, -⟩ := idx_facts t
  have h : ((cfg0.win 2).blk t).view.emb (ix3 (0 : Fin 1) r (0 : Fin 1)) = ix3 (fld t) (row t r) (0 : Fin 1) := by
    funext a; apply Fin.ext
    match a with
    | ⟨0, _⟩ => show win0_2.index t (0 : Fin 3) * 1 + 1 * 0 = t.val % 39; omega
    | ⟨1, _⟩ => show win0_2.index t (1 : Fin 3) * 512 + 1 * r.val = t.val / 39 * 512 + r.val; omega
    | ⟨2, _⟩ => show win0_2.index t (2 : Fin 3) * 1 + 1 * 0 = 0; omega
  show V m c main_v8 (((cfg0.win 2).blk t).view.emb (ix3 (0 : Fin 1) r (0 : Fin 1))) = _
  rw [h]

/-- The table block is the point's field of the packed table. -/
theorem tabBlk_at (c : Dev nD) (t : Fin cfg0.N) (h : Fin 784) (col : Fin 2176) :
    tabBlk m c t (ix3 (0 : Fin 1) h col)
      = (V m c main_v15 : S39x784x2176.Idx → Elt F .bf16) (ix3 (fld t) h col) := by
  obtain ⟨-, -, -, ⟨e0, e1, e2⟩, -⟩ := idx_facts t
  have hh : ((cfg0.win 3).blk t).view.emb (ix3 (0 : Fin 1) h col) = ix3 (fld t) h col := by
    funext a; apply Fin.ext
    match a with
    | ⟨0, _⟩ => show win0_3.index t (0 : Fin 3) * 1 + 1 * 0 = t.val % 39; omega
    | ⟨1, _⟩ => show win0_3.index t (1 : Fin 3) * 784 + 1 * h.val = h.val; omega
    | ⟨2, _⟩ => show win0_3.index t (2 : Fin 3) * 2176 + 1 * col.val = col.val; omega
  show V m c main_v15 (((cfg0.win 3).blk t).view.emb (ix3 (0 : Fin 1) h col)) = _
  rw [hh]

/-- The first layer's weights are one block, the whole array. -/
theorem w0Blk_eq (c : Dev nD) (t : Fin cfg0.N) (y : S16x128.Idx) :
    w0Blk m c t y = (V m c main_arg4 : S16x128.Idx → Elt F .f32) y := by
  obtain ⟨-, -, -, -, ⟨e0, e1⟩, -⟩ := idx_facts t
  have h : ((cfg0.win 4).blk t).view.emb y = y := by
    funext a; apply Fin.ext
    match a with
    | ⟨0, _⟩ => show win0_4.index t (0 : Fin 2) * 16 + 1 * (y 0).val = (y 0).val; omega
    | ⟨1, _⟩ => show win0_4.index t (1 : Fin 2) * 128 + 1 * (y 1).val = (y 1).val; omega
  show V m c main_arg4 (((cfg0.win 4).blk t).view.emb y) = _
  rw [h]

/-- The first layer's bias row is one block, the whole array. -/
theorem b0Blk_eq (c : Dev nD) (t : Fin cfg0.N) (y : S1x128.Idx) :
    b0Blk m c t y = (V m c main_v16 : S1x128.Idx → Elt F .f32) y := by
  obtain ⟨-, -, -, -, -, ⟨e0, e1⟩, -⟩ := idx_facts t
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  show V m c main_v16 (((cfg0.win 5).blk t).view.emb y) = _
  rw [h]

/-- The second layer's weights are one block, the whole array. -/
theorem w1Blk_eq (c : Dev nD) (t : Fin cfg0.N) (y : S128x128.Idx) :
    w1Blk m c t y = (V m c main_arg6 : S128x128.Idx → Elt F .f32) y := by
  obtain ⟨-, -, -, -, -, -, ⟨e0, e1⟩, -⟩ := idx_facts t
  have h : ((cfg0.win 6).blk t).view.emb y = y := by
    funext a; apply Fin.ext
    match a with
    | ⟨0, _⟩ => show win0_6.index t (0 : Fin 2) * 128 + 1 * (y 0).val = (y 0).val; omega
    | ⟨1, _⟩ => show win0_6.index t (1 : Fin 2) * 128 + 1 * (y 1).val = (y 1).val; omega
  show V m c main_arg6 (((cfg0.win 6).blk t).view.emb y) = _
  rw [h]

/-- The second layer's bias row is one block, the whole array. -/
theorem b1Blk_eq (c : Dev nD) (t : Fin cfg0.N) (y : S1x128.Idx) :
    b1Blk m c t y = (V m c main_v17 : S1x128.Idx → Elt F .f32) y := by
  obtain ⟨-, -, -, -, -, -, -, ⟨e0, e1⟩, -⟩ := idx_facts t
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 128 + 1 * (y 1).val = (y 1).val; omega
  show V m c main_v17 (((cfg0.win 7).blk t).view.emb y) = _
  rw [h]

/-- The output bias is one block, the whole array. -/
theorem bbBlk_eq (c : Dev nD) (t : Fin cfg0.N) (y : S1x1.Idx) :
    bbBlk m c t y = (V m c main_v18 : S1x1.Idx → Elt F .f32) y := by
  obtain ⟨-, -, -, -, -, -, -, -, ⟨e0, e1⟩, -⟩ := idx_facts t
  have h : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 1 + 1 * (y 1).val = (y 1).val; omega
  show V m c main_v18 (((cfg0.win 8).blk t).view.emb y) = _
  rw [h]

end Cert.KernelIdeal.Blocks

end
-- ==== Proof.PointPieces.lean ====
/-
  What the three running totals and the output block hold after grid point t, as the body's payload terms of the
  point's blocks and of what the point before left. The points of a batch tile are its 39 fields in order: the first
  (t % 39 = 0) resets the totals and adds its terms; every later one adds its terms to what the point before left;
  the last (t % 39 = 38) moreover stores the finished rows in the output block.
-/
import proofs.«417294_j31825707663666_2_alg».proof.Proof.Pieces
import proofs.«417294_j31825707663666_2_alg».proof.Proof.BlockReads

set_option maxRecDepth 16384

noncomputable section

namespace Cert.KernelIdeal.PointPieces

open Idealize.ShloMosaic Idealize.ShloMosaic.TcCoe Idealize.SL.Sem
open Cert.KernelIdeal Cert.KernelIdeal.Gen Cert.KernelIdeal.Blocks

variable {F : FTy → Type} [FloatOps F]
variable (m : (ℓ : Loc nD τ sig) → Buf (Elt F) ℓ)

/-- The three totals after point t, and the output block's staging contents after it. -/
abbrev tot0 (c : Dev nD) (n : ℕ) (hn : n < cfg0.N) : Vec F S512x1 .f32 := (outsAt0 m c n hn).2.1
abbrev tot1 (c : Dev nD) (n : ℕ) (hn : n < cfg0.N) : Vec F S512x16 .f32 := (outsAt0 m c n hn).2.2.1
abbrev tot2 (c : Dev nD) (n : ℕ) (hn : n < cfg0.N) : Vec F S512x16 .f32 := (outsAt0 m c n hn).2.2.2
abbrev outBlk (c : Dev nD) (n : ℕ) (hn : n < cfg0.N) : Vec F S512x1 .f32 := (outsAt0 m c n hn).1

/-- The point's per-field embedding term. -/
abbrev embTerm (c : Dev nD) (t : Fin cfg0.N) : FVec F S512x16 .f32 :=
  k0_pay10 (hiBlk m c t) (loBlk m c t) (xvBlk m c t) (tabBlk m c t)

/-- The point before t (t itself at t = 0, where it is not used). -/
abbrev predLt (t : Fin cfg0.N) : t.val - 1 < cfg0.N := Nat.lt_of_le_of_lt (Nat.sub_le _ _) t.isLt

/-! ### A tile's first field -/

theorem tot0_first (c : Dev nD) (t : Fin cfg0.N) (h0 : t.val % 39 = 0) (h1 : ¬t.val % 39 = 38) :
    tot0 m c t.val t.isLt = k0_pay1 (k0_pay11 (hiBlk m c t) (loBlk m c t) (xvBlk m c t) (tabBlk m c t) k0_pay5) := by
  show (outsAt0 m c t.val t.isLt).2.1 = _
  rw [outsAt0_A m c t h0 h1]
  dsimp only
  exact Pieces.sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _)
    ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t)

theorem tot1_first (c : Dev nD) (t : Fin cfg0.N) (h0 : t.val % 39 = 0) (h1 : ¬t.val % 39 = 38) :
    tot1 m c t.val t.isLt = k0_pay2 (embTerm m c t) k0_pay6 := by
  show (outsAt0 m c t.val t.isLt).2.2.1 = _
  rw [outsAt0_A m c t h0 h1]
  dsimp only
  exact Pieces.sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _)
    ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t)

theorem tot2_first (c : Dev nD) (t : Fin cfg0.N) (h0 : t.val % 39 = 0) (h1 : ¬t.val % 39 = 38) :
    tot2 m c t.val t.isLt = k0_pay3 (embTerm m c t) k0_pay7 := by
  show (outsAt0 m c t.val t.isLt).2.2.2 = _
  rw [outsAt0_A m c t h0 h1]
  dsimp only
  exact Pieces.sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _)
    ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t)

/-! ### A later field (whether or not the last) -/

theorem tot0_later (c : Dev nD) (t : Fin cfg0.N) (h0 : ¬t.val % 39 = 0) :
    tot0 m c t.val t.isLt
      = k0_pay1 (k0_pay11 (hiBlk m c t) (loBlk m c t) (xvBlk m c t) (tabBlk m c t) (tot0 m c (t.val - 1) (predLt t))) := by
  by_cases h1 : t.val % 39 = 38
  · show (outsAt0 m c t.val t.isLt).2.1 = _
    rw [outsAt0_C m c t h0 h1]
    dsimp only
    exact Pieces.sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _)
      (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t)
      (outsAt0 m c (t.val - 1) (predLt t)).2.1 (outsAt0 m c (t.val - 1) (predLt t)).2.2.1
      (outsAt0 m c (t.val - 1) (predLt t)).2.2.2
  · show (outsAt0 m c t.val t.isLt).2.1 = _
    rw [outsAt0_B m c t h0 h1]
    dsimp only
    exact Pieces.sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _)
      (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t)
      (outsAt0 m c (t.val - 1) (predLt t)).2.1 (outsAt0 m c (t.val - 1) (predLt t)).2.2.1
      (outsAt0 m c (t.val - 1) (predLt t)).2.2.2

theorem tot1_later (c : Dev nD) (t : Fin cfg0.N) (h0 : ¬t.val % 39 = 0) :
    tot1 m c t.val t.isLt = k0_pay2 (embTerm m c t) (tot1 m c (t.val - 1) (predLt t)) := by
  by_cases h1 : t.val % 39 = 38
  · show (outsAt0 m c t.val t.isLt).2.2.1 = _
    rw [outsAt0_C m c t h0 h1]
    dsimp only
    exact Pieces.sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _)
      (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t)
      (outsAt0 m c (t.val - 1) (predLt t)).2.1 (outsAt0 m c (t.val - 1) (predLt t)).2.2.1
      (outsAt0 m c (t.val - 1) (predLt t)).2.2.2
  · show (outsAt0 m c t.val t.isLt).2.2.1 = _
    rw [outsAt0_B m c t h0 h1]
    dsimp only
    exact Pieces.sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _)
      (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t)
      (outsAt0 m c (t.val - 1) (predLt t)).2.1 (outsAt0 m c (t.val - 1) (predLt t)).2.2.1
      (outsAt0 m c (t.val - 1) (predLt t)).2.2.2

theorem tot2_later (c : Dev nD) (t : Fin cfg0.N) (h0 : ¬t.val % 39 = 0) :
    tot2 m c t.val t.isLt = k0_pay3 (embTerm m c t) (tot2 m c (t.val - 1) (predLt t)) := by
  by_cases h1 : t.val % 39 = 38
  · show (outsAt0 m c t.val t.isLt).2.2.2 = _
    rw [outsAt0_C m c t h0 h1]
    dsimp only
    exact Pieces.sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _)
      (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (iblk m c 8 t)
      (outsAt0 m c (t.val - 1) (predLt t)).2.1 (outsAt0 m c (t.val - 1) (predLt t)).2.2.1
      (outsAt0 m c (t.val - 1) (predLt t)).2.2.2
  · show (outsAt0 m c t.val t.isLt).2.2.2 = _
    rw [outsAt0_B m c t h0 h1]
    dsimp only
    exact Pieces.sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _)
      (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (iblk m c 8 t)
      (outsAt0 m c (t.val - 1) (predLt t)).2.1 (outsAt0 m c (t.val - 1) (predLt t)).2.2.1
      (outsAt0 m c (t.val - 1) (predLt t)).2.2.2

/-! ### The last field: the output block -/

theorem outBlk_last (c : Dev nD) (t : Fin cfg0.N) (h0 : ¬t.val % 39 = 0) (h1 : t.val % 39 = 38) :
    outBlk m c t.val t.isLt
      = k0_pay4 (tot1 m c t.val t.isLt) (tot2 m c t.val t.isLt) (w0Blk m c t) (b0Blk m c t) (w1Blk m c t) (b1Blk m c t)
          (bbBlk m c t) (tot0 m c t.val t.isLt) := by
  rw [tot1_later m c t h0, tot2_later m c t h0, tot0_later m c t h0]
  show (outsAt0 m c t.val t.isLt).1 = _
  rw [outsAt0_C m c t h0 h1]
  dsimp only
  exact Pieces.out0_C_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t)
    (outsAt0 m c (t.val - 1) (predLt t)).2.1 (outsAt0 m c (t.val - 1) (predLt t)).2.2.1
    (outsAt0 m c (t.val - 1) (predLt t)).2.2.2

end Cert.KernelIdeal.PointPieces

end
-- ==== Proof.WordDiv.lean ====
/-
  Floor division and remainder by 128 on one 32-bit id, spelled operation by operation as the host spells
  jnp's "//" and "%" (a truncating divide and remainder, then a correction where the signs of dividend and divisor
  differ and the remainder is not zero). On an id in [0, 100000) the correction never fires and the truncating
  operations are the unsigned ones: the quotient is id / 128 and the remainder id % 128 as natural numbers.
-/
import Idealize.ShloMosaic.PureOps.Ideal

namespace Cert.Fm.Word

open Idealize.ShloMosaic

/-- The sign of a word: 0, 1 or −1. -/
def sgn (x : BitVec 32) : BitVec 32 := if x = 0 then 0 else if x.msb then -1 else 1

/-- jnp's floor division by 128 of one word: the truncating quotient, less one where the signs differ and the
    truncating remainder is not zero. -/
def floorDiv128 (x : BitVec 32) : BitVec 32 :=
  Scalar.select
    (IntOp.andi (IntOp.cmpi .ne (sgn x) (sgn 128#32)) (IntOp.cmpi .ne (IntOp.remsi .host x 128#32) 0#32))
    (IntOp.subi (IntOp.divsi .host x 128#32) 1#32)
    (IntOp.divsi .host x 128#32)

/-- The divisor jnp's remainder uses: 1 in place of a zero divisor. -/
def safeDiv128 : BitVec 32 := Scalar.select (IntOp.cmpi .eq 128#32 0#32) 1#32 128#32

/-- jnp's remainder modulo 128 of one word: the truncating remainder, plus the divisor where it is not zero and its
    sign is not the divisor's. -/
def mod128 (x : BitVec 32) : BitVec 32 :=
  Scalar.select
    (IntOp.andi
      (IntOp.cmpi .ne (IntOp.cmpi .slt (IntOp.remsi .host x safeDiv128) 0#32) (IntOp.cmpi .slt safeDiv128 0#32))
      (IntOp.cmpi .ne (IntOp.remsi .host x safeDiv128) 0#32))
    (IntOp.addi (IntOp.remsi .host x safeDiv128) safeDiv128)
    (IntOp.remsi .host x safeDiv128)

/-- A word below 100000 is below 2³¹, so its top bit is clear: read as a signed number it is not negative. -/
theorem msb_of_lt (x : BitVec 32) (h : x.toNat < 100000) : x.msb = false := by
  rw [BitVec.msb_eq_false_iff_two_mul_lt]; omega

/-- The divisor 128 is positive as a signed word. -/
theorem msb_128 : (128#32).msb = false := by decide

/-- A division by 128 is never at the signed-division corner: 128 is neither 0 nor −1. -/
theorem not_corner_128 (x : BitVec 32) : ¬ IntOp.SDivCorner x 128#32 := by
  unfold IntOp.SDivCorner
  rintro (h | ⟨_, h⟩)
  · exact absurd h (by decide)
  · exact absurd h (by decide)

/-- Both operands being non-negative, the truncating quotient is the unsigned one, and that is the quotient of the
    natural numbers (which is below 2³², so nothing wraps). -/
theorem divsi_128 (x : BitVec 32) (h : x.toNat < 100000) :
    IntOp.divsi .host x 128#32 = BitVec.ofNat 32 (x.toNat / 128) := by
  unfold IntOp.divsi
  rw [if_neg (not_corner_128 x), BitVec.sdiv_eq, msb_of_lt x h, msb_128]
  apply BitVec.eq_of_toNat_eq
  show (x / 128#32).toNat = _
  rw [BitVec.toNat_udiv, BitVec.toNat_ofNat]
  simp
  omega

/-- Likewise the truncating remainder is the unsigned one, the remainder of the natural numbers. -/
theorem remsi_128 (x : BitVec 32) (h : x.toNat < 100000) :
    IntOp.remsi .host x 128#32 = BitVec.ofNat 32 (x.toNat % 128) := by
  unfold IntOp.remsi
  rw [if_neg (not_corner_128 x), BitVec.srem_eq, msb_of_lt x h, msb_128]
  apply BitVec.eq_of_toNat_eq
  show (x % 128#32).toNat = _
  rw [BitVec.toNat_umod, BitVec.toNat_ofNat]
  simp
  omega

/-- The sign of 128 is 1. -/
theorem sgn_128 : sgn 128#32 = 1#32 := by decide

/-- The sign of a non-zero word below 100000 is 1. -/
theorem sgn_of_lt (x : BitVec 32) (h : x.toNat < 100000) (hx : x ≠ 0) : sgn x = 1#32 := by
  unfold sgn
  rw [if_neg hx, msb_of_lt x h]
  rfl

/-- The floor quotient's correction never fires: a non-zero id has the divisor's sign, and the id 0 has remainder 0. -/
theorem floorCond_eq (x : BitVec 32) (h : x.toNat < 100000) :
    IntOp.andi (IntOp.cmpi .ne (sgn x) (sgn 128#32)) (IntOp.cmpi .ne (IntOp.remsi .host x 128#32) 0#32) = 0#1 := by
  by_cases hx : x = 0
  · subst hx
    rw [remsi_128 _ h]
    simp [IntOp.andi, IntOp.cmpi]
  · rw [sgn_of_lt x h hx, sgn_128]
    simp [IntOp.andi, IntOp.cmpi]

/-- The divisor 128 is not zero, so the remainder divides by 128 itself. -/
theorem safeDiv128_eq : safeDiv128 = 128#32 := by decide

/-- The remainder's correction never fires: the remainder is not negative and neither is the divisor. -/
theorem modCond_eq (x : BitVec 32) (h : x.toNat < 100000) :
    IntOp.andi
      (IntOp.cmpi .ne (IntOp.cmpi .slt (IntOp.remsi .host x 128#32) 0#32) (IntOp.cmpi .slt 128#32 0#32))
      (IntOp.cmpi .ne (IntOp.remsi .host x 128#32) 0#32) = 0#1 := by
  have hr : (BitVec.ofNat 32 (x.toNat % 128)).toNat < 100000 := by
    rw [BitVec.toNat_ofNat]; omega
  have h1 : IntOp.cmpi .slt (IntOp.remsi .host x 128#32) 0#32 = 0#1 := by
    rw [remsi_128 x h]
    show BitVec.ofBool ((BitVec.ofNat 32 (x.toNat % 128)).slt 0#32) = 0#1
    rw [BitVec.slt_zero_eq_msb, msb_of_lt _ hr]
    rfl
  have h2 : IntOp.cmpi .slt 128#32 0#32 = 0#1 := by decide
  rw [h1, h2]
  simp [IntOp.andi, IntOp.cmpi]

/-- On an id below 100000 the floor quotient is the natural-number quotient. -/
theorem floorDiv128_eq (x : BitVec 32) (h : x.toNat < 100000) : floorDiv128 x = BitVec.ofNat 32 (x.toNat / 128) := by
  unfold floorDiv128
  rw [floorCond_eq x h]
  unfold Scalar.select
  rw [if_neg (by decide)]
  exact divsi_128 x h

/-- On an id below 100000 the remainder is the natural-number remainder. -/
theorem mod128_eq (x : BitVec 32) (h : x.toNat < 100000) : mod128 x = BitVec.ofNat 32 (x.toNat % 128) := by
  unfold mod128
  rw [safeDiv128_eq, modCond_eq x h]
  unfold Scalar.select
  rw [if_neg (by decide)]
  exact remsi_128 x h

/-- The quotient of an id below 100000 by 128 is below 782. -/
theorem div128_lt (x : BitVec 32) (h : x.toNat < 100000) : x.toNat / 128 < 782 := by omega

/-- A remainder modulo 128 is below 128. -/
theorem mod128_lt (x : BitVec 32) : x.toNat % 128 < 128 := by omega

end Cert.Fm.Word
-- ==== Proof.HostIdx.lean ====
/-
  What the host operations before the kernel put in the three per-row arrays, read at an index. The ids are split
  as id = 128·(id // 128) + id % 128, and the quotients, the remainders and the scales are each laid out field-major
  with a trailing unit axis: entry (f, b, 0) of the quotient array is the floor quotient of sample b's id in field f,
  likewise the remainder array, and entry (f, b, 0) of the scale array is Xv[b, f]. (A transpose swaps the two
  coordinates; a broadcast into a unit axis keeps the value.)
-/
import proofs.«417294_j31825707663666_2_alg».proof.Proof.Gen.KernelIdeal.Frame
import proofs.«417294_j31825707663666_2_alg».proof.Proof.KArgs
import proofs.«417294_j31825707663666_2_alg».proof.Proof.WordDiv
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Packed

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

namespace HostIdx

/-- A swap of the two axes followed by a new trailing unit axis, read at (f, b, 0): the operand at (b, f). -/
theorem swapUnit_at {α : Type} (y : S16384x39.Idx → α) (f : Fin 39) (b : Fin 16384) :
    broadcastInDim S39x16384x1 ![0, 1] bcast_S39x16384_S39x16384x1_0_1
        (transpose S39x16384 [1, 0] y transposes_S16384x39_S39x16384_1_0) (ix3 f b (0 : Fin 1))
      = y (ix2 b f) := by
  refine (broadcastInDim_apply _ bcast_S39x16384_S39x16384x1_0_1 _ (ix3 f b (0 : Fin 1)) (ix2 f b) (fun a => match a with
    | ⟨0, _⟩ => by show f.val = if (39 : Nat) = 1 then 0 else f.val; rw [if_neg (by decide)]
    | ⟨1, _⟩ => by show b.val = if (16384 : Nat) = 1 then 0 else b.val; rw [if_neg (by decide)])).trans ?_
  exact transpose_apply [1, 0] y transposes_S16384x39_S39x16384_1_0 (ix2 f b) (ix2 b f) (fun a => match a with
    | ⟨0, _⟩ => rfl
    | ⟨1, _⟩ => rfl)

/-- Dropping the trailing unit axis, read at (b, f): the operand at (b, f, 0), the same row-major position. -/
theorem dropUnit_at {α : Type} (x : S16384x39x1.Idx → α) (b : Fin 16384) (f : Fin 39) :
    shapeCast S16384x39 x shapeCasts_S16384x39x1_S16384x39 (ix2 b f) = x (ix3 b f (0 : Fin 1)) := by
  refine shapeCast_apply x shapeCasts_S16384x39x1_S16384x39 (ix2 b f) (ix3 b f (0 : Fin 1)) ?_
  rw [Shape.rowMajor_val_three, Shape.rowMajor_val_two]
  show (b.val * 39 + f.val) * 1 + 0 = b.val * 39 + f.val
  omega

/-- A rank-0 value spread over the 16384 × 39 array. -/
abbrev spread {α : Type} (v : S_.Idx → α) : S16384x39.Idx → α := broadcastInDim S16384x39 ![] bcast_S_S16384x39 v

/-- The floor division by 128 on the whole array of ids, operation by operation: the truncating quotient, less one
    where the sign of the id is not the sign of 128 and the truncating remainder is not zero. -/
def fdVec (x : IVec S16384x39 32) : IVec S16384x39 32 :=
  select
    (andi (cmpi .ne (signi x) (spread (signi (constantI S_ 32 128#32))))
          (cmpi .ne (Host.remsi x (spread (constantI S_ 32 128#32))) (spread (constantI S_ 32 0#32))))
    (subi (Host.divsi x (spread (constantI S_ 32 128#32))) (spread (constantI S_ 32 1#32)))
    (Host.divsi x (spread (constantI S_ 32 128#32)))

/-- Every operation of it acts entry by entry and a spread constant reads its one value, so at an index it is the
    floor division of that one word. -/
theorem fdVec_apply (x : IVec S16384x39 32) (i : S16384x39.Idx) : fdVec x i = Cert.Fm.Word.floorDiv128 (x i) := rfl

/-- The divisor the remainder uses, as a rank-0 array: 1 in place of a zero divisor. -/
def sdVec : IVec S_ 32 :=
  select (cmpi .eq (constantI S_ 32 128#32) (constantI S_ 32 0#32)) (constantI S_ 32 1#32) (constantI S_ 32 128#32)

/-- The remainder modulo 128 on the whole array of ids, operation by operation: the truncating remainder, plus the
    divisor where the remainder is not zero and its sign is not the divisor's. -/
def rmVec (x : IVec S16384x39 32) : IVec S16384x39 32 :=
  select
    (andi (cmpi .ne (cmpi .slt (Host.remsi x (spread sdVec)) (spread (constantI S_ 32 0#32)))
                    (spread (cmpi .slt sdVec (constantI S_ 32 0#32))))
          (cmpi .ne (Host.remsi x (spread sdVec)) (spread (constantI S_ 32 0#32))))
    (addi (Host.remsi x (spread sdVec)) (spread sdVec))
    (Host.remsi x (spread sdVec))

/-- Likewise at an index it is the remainder of that one word. -/
theorem rmVec_apply (x : IVec S16384x39 32) (i : S16384x39.Idx) : rmVec x i = Cert.Fm.Word.mod128 (x i) := rfl

/-- The quotient array as a whole: the ids with the unit axis dropped, divided, the two axes swapped, a unit axis added. -/
theorem v4_eq (c : Dev nD) :
    (V m c main_v4 : S39x16384x1.Idx → BitVec 32)
      = broadcastInDim S39x16384x1 ![0, 1] bcast_S39x16384_S39x16384x1_0_1
          (transpose S39x16384 [1, 0]
            (fdVec (shapeCast S16384x39 (m ((c : Thread nD τ).loc main_arg0) : S16384x39x1.Idx → BitVec 32) shapeCasts_S16384x39x1_S16384x39))
            transposes_S16384x39_S39x16384_1_0) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  all_goals rfl

/-- The remainder array as a whole: the same with the remainder in place of the quotient. -/
theorem v6_eq (c : Dev nD) :
    (V m c main_v6 : S39x16384x1.Idx → BitVec 32)
      = broadcastInDim S39x16384x1 ![0, 1] bcast_S39x16384_S39x16384x1_0_1
          (transpose S39x16384 [1, 0]
            (rmVec (shapeCast S16384x39 (m ((c : Thread nD τ).loc main_arg0) : S16384x39x1.Idx → BitVec 32) shapeCasts_S16384x39x1_S16384x39))
            transposes_S16384x39_S39x16384_1_0) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  all_goals rfl

/-- The scale array as a whole: the scales with the two axes swapped and a unit axis added. -/
theorem v8_eq (c : Dev nD) :
    (V m c main_v8 : S39x16384x1.Idx → EReal)
      = broadcastInDim S39x16384x1 ![0, 1] bcast_S39x16384_S39x16384x1_0_1
          (transpose S39x16384 [1, 0] (m ((c : Thread nD τ).loc main_arg1) : S16384x39.Idx → EReal) transposes_S16384x39_S39x16384_1_0) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  all_goals rfl

end HostIdx

/-- The quotient array at (f, b, 0): the floor quotient by 128 of sample b's id in field f. -/
theorem hi_at (c : Dev nD) (f : Fin 39) (b : Fin 16384) :
    (V m c main_v4 : S39x16384x1.Idx → BitVec 32) (ix3 f b (0 : Fin 1))
      = Cert.Fm.Word.floorDiv128 ((Cert.Fm.kArgs m c).Xi (ix3 b f (0 : Fin 1))) := by
  rw [HostIdx.v4_eq]
  refine (HostIdx.swapUnit_at _ f b).trans ?_
  refine (HostIdx.fdVec_apply _ (ix2 b f)).trans ?_
  exact congrArg Cert.Fm.Word.floorDiv128 (HostIdx.dropUnit_at _ b f)

/-- The remainder array at (f, b, 0): the remainder modulo 128 of sample b's id in field f. -/
theorem lo_at (c : Dev nD) (f : Fin 39) (b : Fin 16384) :
    (V m c main_v6 : S39x16384x1.Idx → BitVec 32) (ix3 f b (0 : Fin 1))
      = Cert.Fm.Word.mod128 ((Cert.Fm.kArgs m c).Xi (ix3 b f (0 : Fin 1))) := by
  rw [HostIdx.v6_eq]
  refine (HostIdx.swapUnit_at _ f b).trans ?_
  refine (HostIdx.rmVec_apply _ (ix2 b f)).trans ?_
  exact congrArg Cert.Fm.Word.mod128 (HostIdx.dropUnit_at _ b f)

/-- The scale array at (f, b, 0): sample b's scale in field f. -/
theorem xv_at (c : Dev nD) (f : Fin 39) (b : Fin 16384) :
    (V m c main_v8 : S39x16384x1.Idx → EReal) (ix3 f b (0 : Fin 1)) = (Cert.Fm.kArgs m c).Xv (ix2 b f) := by
  rw [HostIdx.v8_eq]
  exact HostIdx.swapUnit_at _ f b

end Cert.KernelIdeal.Packed

end
-- ==== Proof.HostTab.lean ====
/-
  What the host operations before the kernel put in the packed table and in the reshaped biases, read at an index.
  Per field the two tables are set side by side (17 columns: sixteen second-order entries, then the first-order
  weight), padded with zero rows from 100000 up to 100352 = 784·128 rows, cut into 784 groups of 128 rows, and each
  group transposed so that its 17 columns lie one after another, 128 entries each: entry (f, h, c) of the packed table
  is column c / 128 of padded row 128·h + c % 128. The change of float format is the identity at the exact values. The
  three bias arrays only gain unit axes.
-/
import proofs.«417294_j31825707663666_2_alg».proof.Proof.Gen.KernelIdeal.Frame
import proofs.«417294_j31825707663666_2_alg».proof.Proof.KArgs
import proofs.«417294_j31825707663666_2_alg».proof.Proof.WordDiv
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.KernelIdeal.Packed

open Idealize.ShloMosaic Idealize.ShloMosaic.TcCoe Idealize.ShloMosaic.ValueIdx Idealize.SL.Sem
open Cert.KernelIdeal Cert.KernelIdeal.Gen

namespace Tab

/-! ## The packed table as a function of the two tables -/

/-- The two tables of every field side by side: the second-order table's sixteen columns, then the first-order weight. -/
def cat (x3 : S39x100000x16.Idx → EReal) (x2 : S39x100000.Idx → EReal) : S39x100000x17.Idx → EReal :=
  concatenate S39x100000x17 2
    [⟨S39x100000x16, x3⟩, ⟨S39x100000x1, broadcastInDim S39x100000x1 ![0, 1] bcast_S39x100000_S39x100000x1_0_1 x2⟩]
    concatenates_S39x100000x16_S39x100000x1_S39x100000x17_d2

/-- The same with zero rows appended up to 100352 rows. -/
def padded (x3 : S39x100000x16.Idx → EReal) (x2 : S39x100000.Idx → EReal) : S39x100352x17.Idx → EReal :=
  pad S39x100352x17 ![0, 0, 0] ![0, 352, 0] ![0, 0, 0] (cat x3 x2)
    (sitofp (F := Ideal) .f32 (constantI S_ 32 0#32)) pads_S39x100000x17_S39x100352x17_000_03520_000 h_S_

/-- The padded table cut into groups of 128 rows, each group transposed and flattened, in the narrower float format. -/
def packed (x3 : S39x100000x16.Idx → EReal) (x2 : S39x100000.Idx → EReal) : S39x784x2176.Idx → EReal :=
  truncf (F := Ideal) .bf16
    (shapeCast S39x784x2176
      (transpose S39x784x17x128 [0, 1, 3, 2]
        (shapeCast S39x784x128x17 (padded x3 x2) shapeCasts_S39x100352x17_S39x784x128x17)
        transposes_S39x784x128x17_S39x784x17x128_0_1_3_2)
      shapeCasts_S39x784x17x128_S39x784x2176)
    bitsLt_bf16_f32

/-- Side by side at (f, n, e): the second-order entry for e < 16, the first-order weight at e = 16. -/
theorem cat_apply (x3 : S39x100000x16.Idx → EReal) (x2 : S39x100000.Idx → EReal)
    (f : Fin 39) (n : Fin 100000) (e : Fin 17) :
    cat x3 x2 (ix3 f n e) = if he : e.val < 16 then x3 (ix3 f n ⟨e.val, he⟩) else x2 (ix2 f n) := by
  unfold cat
  by_cases he : e.val < 16
  · rw [dif_pos he]
    -- the coordinate on the joined axis falls in the first piece
    exact concatenate_pair_apply_left (t := S39x100000x17) (s₁ := S39x100000x16) (s₂ := S39x100000x1) (2 : Fin 3) x3
      (broadcastInDim S39x100000x1 ![0, 1] bcast_S39x100000_S39x100000x1_0_1 x2)
      concatenates_S39x100000x16_S39x100000x1_S39x100000x17_d2
      (ix3 f n e) rfl (ix3 f n ⟨e.val, he⟩) (fun b => match b with | ⟨0, _⟩ => rfl | ⟨1, _⟩ => rfl | ⟨2, _⟩ => rfl)
  · rw [dif_neg he]
    -- it is 16: the second piece's one column, which copies the first-order table into a unit axis
    refine (concatenate_pair_apply_right (t := S39x100000x17) (s₁ := S39x100000x16) (s₂ := S39x100000x1) (2 : Fin 3) x3
      (broadcastInDim S39x100000x1 ![0, 1] bcast_S39x100000_S39x100000x1_0_1 x2)
      concatenates_S39x100000x16_S39x100000x1_S39x100000x17_d2
      (ix3 f n e) rfl rfl (ix3 f n (0 : Fin 1))
      (fun b => match b with
        | ⟨0, _⟩ => fun _ => rfl
        | ⟨1, _⟩ => fun _ => rfl
        | ⟨2, _⟩ => fun hb => absurd rfl hb)
      (by have := e.isLt; show 0 + 16 = e.val; omega)).trans ?_
    exact broadcastInDim_apply _ bcast_S39x100000_S39x100000x1_0_1 x2 (ix3 f n (0 : Fin 1)) (ix2 f n) (fun a => match a with
      | ⟨0, _⟩ => by show f.val = if (39 : Nat) = 1 then 0 else f.val; rw [if_neg (by decide)]
      | ⟨1, _⟩ => by show n.val = if (100000 : Nat) = 1 then 0 else n.val; rw [if_neg (by decide)])

/-- The padded table at (f, n, e): the side-by-side table on its own rows, zero on the appended ones. -/
theorem padded_apply (x3 : S39x100000x16.Idx → EReal) (x2 : S39x100000.Idx → EReal)
    (f : Fin 39) (n : Fin 100352) (e : Fin 17) :
    padded x3 x2 (ix3 f n e) = if hn : n.val < 100000 then cat x3 x2 (ix3 f ⟨n.val, hn⟩ e) else 0 := by
  unfold padded
  by_cases hn : n.val < 100000
  · rw [dif_pos hn]
    exact pad_apply_of_inside _ _ _ (cat x3 x2) _ pads_S39x100000x17_S39x100352x17_000_03520_000 h_S_
      (ix3 f n e) (ix3 f ⟨n.val, hn⟩ e) (fun a => match a with
        | ⟨0, _⟩ => by show f.val = 0 + f.val * (0 + 1); omega
        | ⟨1, _⟩ => by show n.val = 0 + n.val * (0 + 1); omega
        | ⟨2, _⟩ => by show e.val = 0 + e.val * (0 + 1); omega)
  · rw [dif_neg hn]
    -- past the last row on axis 1: the padding value, the integer zero converted
    refine (pad_apply_of_not_inside _ _ _ (cat x3 x2) _ pads_S39x100000x17_S39x100352x17_000_03520_000 h_S_
      (ix3 f n e) (1 : Fin 3) (fun hin => hn ?_)).trans ?_
    · have h3 : (n.val - 0) / (0 + 1) < 100000 := hin.2.2
      omega
    · exact sitofp_zero (φ := .f32)

/-- The packed table at (f, h, col): the padded table at row 128·h + col % 128, column col / 128. -/
theorem packed_apply (x3 : S39x100000x16.Idx → EReal) (x2 : S39x100000.Idx → EReal)
    (f : Fin 39) (h : Fin 784) (col : Fin 2176) :
    packed x3 x2 (ix3 f h col)
      = padded x3 x2 (ix3 f ⟨h.val * 128 + col.val % 128, by have := h.isLt; omega⟩
          ⟨col.val / 128, by have := col.isLt; omega⟩) := by
  unfold packed
  have hf := f.isLt; have hh := h.isLt; have hc := col.isLt
  rw [truncf_apply]
  -- the flattened column is (col / 128, col % 128) of the 17 × 128 group
  refine (shapeCast_apply _ shapeCasts_S39x784x17x128_S39x784x2176 (ix3 f h col)
    (ix4 f h (⟨col.val / 128, by omega⟩ : Fin 17) (⟨col.val % 128, by omega⟩ : Fin 128)) (by
      rw [Shape.rowMajor_val_four, Shape.rowMajor_val_three]
      show ((f.val * 784 + h.val) * 17 + col.val / 128) * 128 + col.val % 128 = (f.val * 784 + h.val) * 2176 + col.val
      omega)).trans ?_
  -- the transpose swaps the last two coordinates
  refine (transpose_apply _ _ transposes_S39x784x128x17_S39x784x17x128_0_1_3_2
    (ix4 f h (⟨col.val / 128, by omega⟩ : Fin 17) (⟨col.val % 128, by omega⟩ : Fin 128))
    (ix4 f h (⟨col.val % 128, by omega⟩ : Fin 128) (⟨col.val / 128, by omega⟩ : Fin 17))
    (fun b => match b with | ⟨0, _⟩ => rfl | ⟨1, _⟩ => rfl | ⟨2, _⟩ => rfl | ⟨3, _⟩ => rfl)).trans ?_
  -- row l of group h is padded row 128·h + l
  exact shapeCast_apply _ shapeCasts_S39x100352x17_S39x784x128x17
    (ix4 f h (⟨col.val % 128, by omega⟩ : Fin 128) (⟨col.val / 128, by omega⟩ : Fin 17))
    (ix3 f ⟨h.val * 128 + col.val % 128, by omega⟩ ⟨col.val / 128, by omega⟩) (by
      rw [Shape.rowMajor_val_three, Shape.rowMajor_val_four]
      show (f.val * 100352 + (h.val * 128 + col.val % 128)) * 17 + col.val / 128
        = ((f.val * 784 + h.val) * 128 + col.val % 128) * 17 + col.val / 128
      omega)

/-- The padded table of an argument bundle's two tables is the specification's slab. -/
theorem padded_slab (A : Cert.Fm.Args) (f : Fin 39) (n : Fin 100352) (e : Fin 17) :
    padded A.e2 A.w1 (ix3 f n e) = Cert.Fm.slab A f n.val e := by
  rw [padded_apply]
  unfold Cert.Fm.slab Cert.Fm.e2z Cert.Fm.w1z
  by_cases hn : n.val < 100000
  · rw [dif_pos hn, cat_apply]
    by_cases he : e.val < 16
    · rw [dif_pos he, dif_pos he, dif_pos hn]
    · rw [dif_neg he, dif_neg he, dif_pos hn]
  · rw [dif_neg hn]
    by_cases he : e.val < 16
    · rw [dif_pos he, dif_neg hn]
    · rw [dif_neg he, dif_neg hn]

/-! ## The host operations, stretch by stretch, from any contents -/

/-- The last stretch: two reshapes around a transpose, then the change of float format. -/
theorem last_v15 (W : Valuation τ sig (Elt Ideal)) :
    (StableHlo.after hostOps0_6 W (Proc.devRef .tc main_v15) : S39x784x2176.Idx → EReal)
      = truncf (F := Ideal) .bf16
          (shapeCast S39x784x2176
            (transpose S39x784x17x128 [0, 1, 3, 2]
              (shapeCast S39x784x128x17 (W (Proc.devRef .tc main_v11) : S39x100352x17.Idx → EReal)
                shapeCasts_S39x100352x17_S39x784x128x17)
              transposes_S39x784x128x17_S39x784x17x128_0_1_3_2)
            shapeCasts_S39x784x17x128_S39x784x2176)
          bitsLt_bf16_f32 := by
  simp only [Gen.hostOps0_6]
  after_results; rfl

/-- The stretch before it: the pad, its value the converted integer constant. -/
theorem pad_v11 (W : Valuation τ sig (Elt Ideal)) :
    (StableHlo.after hostOps0_5 W (Proc.devRef .tc main_v11) : S39x100352x17.Idx → EReal)
      = pad S39x100352x17 ![0, 0, 0] ![0, 352, 0] ![0, 0, 0] (W (Proc.devRef .tc main_v10) : S39x100000x17.Idx → EReal)
          (sitofp (F := Ideal) .f32 (W (Proc.devRef .tc main_c_1) : S_.Idx → BitVec 32))
          pads_S39x100000x17_S39x100352x17_000_03520_000 h_S_ := by
  simp only [Gen.hostOps0_5]
  after_results; rfl

/-- The stretch before that: the two tables joined, and the integer constant. -/
theorem cat_v10 (W : Valuation τ sig (Elt Ideal)) :
    (StableHlo.after hostOps0_4 W (Proc.devRef .tc main_v10) : S39x100000x17.Idx → EReal)
      = cat (W (Proc.devRef .tc main_arg3)) (W (Proc.devRef .tc main_arg2)) := by
  unfold cat
  simp only [Gen.hostOps0_4]
  after_results
theorem const_c1 (W : Valuation τ sig (Elt Ideal)) :
    (StableHlo.after hostOps0_4 W (Proc.devRef .tc main_c_1) : S_.Idx → BitVec 32) = constantI S_ 32 0#32 := by
  simp only [Gen.hostOps0_4]
  after_results

/-- The first four stretches write neither table. -/
theorem first_arg3 (W : Valuation τ sig (Elt Ideal)) :
    StableHlo.after (hostOps0 ++ (hostOps0_1 ++ (hostOps0_2 ++ hostOps0_3))) W (Proc.devRef .tc main_arg3)
      = W (Proc.devRef .tc main_arg3) :=
  StableHlo.after_of_forall_not_mem (b := Proc.devRef .tc main_arg3) _ _ (List.forall_iff_forall_mem.mp (by
    simp only [Gen.hostOps0, Gen.hostOps0_1, Gen.hostOps0_2, Gen.hostOps0_3, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem first_arg2 (W : Valuation τ sig (Elt Ideal)) :
    StableHlo.after (hostOps0 ++ (hostOps0_1 ++ (hostOps0_2 ++ hostOps0_3))) W (Proc.devRef .tc main_arg2)
      = W (Proc.devRef .tc main_arg2) :=
  StableHlo.after_of_forall_not_mem (b := Proc.devRef .tc main_arg2) _ _ (List.forall_iff_forall_mem.mp (by
    simp only [Gen.hostOps0, Gen.hostOps0_1, Gen.hostOps0_2, Gen.hostOps0_3, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The seven stretches in a row, the first four set apart from each of the last three. -/
theorem ops_split :
    (List.flatten [hostOps0, hostOps0_1, hostOps0_2, hostOps0_3, hostOps0_4, hostOps0_5, hostOps0_6] : List (HloOp τ sig (Elt Ideal)))
      = (hostOps0 ++ (hostOps0_1 ++ (hostOps0_2 ++ hostOps0_3))) ++ (hostOps0_4 ++ (hostOps0_5 ++ hostOps0_6)) := by
  simp only [List.flatten_cons, List.flatten_nil, List.append_nil, List.append_assoc]

variable (m : (ℓ : Loc nD τ sig) → Buf (Elt Ideal) ℓ)

/-- The packed table the kernel region finds is the packing of the two argument tables. -/
theorem v15_eq (c : Dev nD) :
    (V m c main_v15 : S39x784x2176.Idx → EReal)
      = packed (m ((c : Thread nD τ).loc main_arg3)) (m ((c : Thread nD τ).loc main_arg2)) := by
  dsimp only [Gen.V, Gen.V0]
  rw [ops_split, StableHlo.after_append, StableHlo.after_append, StableHlo.after_append,
    last_v15, pad_v11, cat_v10, const_c1, first_arg3, first_arg2]
  rfl

/-- A bias with a leading unit axis is the argument reshaped. -/
theorem v16_eq (c : Dev nD) :
    (V m c main_v16 : S1x128.Idx → EReal)
      = shapeCast S1x128 (m ((c : Thread nD τ).loc main_arg5) : S128.Idx → EReal) shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results; rfl
theorem v17_eq (c : Dev nD) :
    (V m c main_v17 : S1x128.Idx → EReal)
      = shapeCast S1x128 (m ((c : Thread nD τ).loc main_arg7) : S128.Idx → EReal) shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results; rfl
theorem v18_eq (c : Dev nD) :
    (V m c main_v18 : S1x1.Idx → EReal)
      = shapeCast S1x1 (m ((c : Thread nD τ).loc main_arg8) : S_.Idx → EReal) shapeCasts_S_S1x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results; rfl

end Tab

variable (m : (ℓ : Loc nD τ sig) → Buf (Elt Ideal) ℓ)

/-- The packed table at (f, h, col): column col / 128 of row 128·h + col % 128 of field f's two tables side by side,
    zero past the last row. -/
theorem tab_at (c : Dev nD) (f : Fin 39) (h : Fin 784) (col : Fin 2176) :
    (V m c main_v15 : S39x784x2176.Idx → EReal) (ix3 f h col)
      = Cert.Fm.slab (Cert.Fm.kArgs m c) f (h.val * 128 + col.val % 128)
          ⟨col.val / 128, by have := col.isLt; omega⟩ := by
  refine (congrFun (Tab.v15_eq m c) (ix3 f h col)).trans ?_
  refine (Tab.packed_apply _ _ f h col).trans ?_
  exact Tab.padded_slab (Cert.Fm.kArgs m c) f ⟨h.val * 128 + col.val % 128, by have := h.isLt; omega⟩
    ⟨col.val / 128, by have := col.isLt; omega⟩

/-- The first layer's bias with a leading unit axis. -/
theorem b0_at (c : Dev nD) (j : Fin 128) :
    (V m c main_v16 : S1x128.Idx → EReal) (ix2 (0 : Fin 1) j) = (Cert.Fm.kArgs m c).b0 (ix1 j) := by
  refine (congrFun (Tab.v16_eq m c) (ix2 (0 : Fin 1) j)).trans ?_
  exact shapeCast_a_1a_apply _ shapeCasts_S128_S1x128 (0 : Fin 1) j

/-- The second layer's bias with a leading unit axis. -/
theorem b1_at (c : Dev nD) (j : Fin 128) :
    (V m c main_v17 : S1x128.Idx → EReal) (ix2 (0 : Fin 1) j) = (Cert.Fm.kArgs m c).b1 (ix1 j) := by
  refine (congrFun (Tab.v17_eq m c) (ix2 (0 : Fin 1) j)).trans ?_
  exact shapeCast_a_1a_apply _ shapeCasts_S128_S1x128 (0 : Fin 1) j

/-- The output bias with two unit axes. -/
theorem bb_at (c : Dev nD) :
    (V m c main_v18 : S1x1.Idx → EReal) (ix2 (0 : Fin 1) (0 : Fin 1)) = (Cert.Fm.kArgs m c).bb ix0 := by
  refine (congrFun (Tab.v18_eq m c) (ix2 (0 : Fin 1) (0 : Fin 1))).trans ?_
  -- both indices sit at row-major position 0
  exact shapeCast_apply _ shapeCasts_S_S1x1 (ix2 (0 : Fin 1) (0 : Fin 1)) ix0 (by
    rw [Shape.rowMajor_val_two]
    exact Shape.rowMajorPi_zero _ _)

/-- The two weight matrices reach the kernel as they are. -/
theorem W0_at (c : Dev nD) : (V m c main_arg4 : S16x128.Idx → EReal) = (Cert.Fm.kArgs m c).W0 :=
  V_main_arg4 m c
theorem W1_at (c : Dev nD) : (V m c main_arg6 : S128x128.Idx → EReal) = (Cert.Fm.kArgs m c).W1 :=
  V_main_arg6 m c

end Cert.KernelIdeal.Packed

end
-- ==== Proof.PayloadGather.lean ====
/-
  The two-level selection the kernel body performs, read at one row.

  A row's id is split as id = 128·hi + lo. The body multiplies the indicator of lane hi (over 784 lanes) into the field's
  packed table, whose row hi holds, for each of 17 columns e, the 128 consecutive entries e·128 … e·128 + 127; that
  product's row is row hi of the table. It then multiplies by the indicator of lane lo (over 128 lanes) and sums the
  lanes, which leaves entry e·128 + lo. So the gathered slab at (row, e) is the packed table at (hi, e·128 + lo):
  both sums collapse by the selection laws, no rounding and no other term being left at the exact values.
-/
import proofs.«417294_j31825707663666_2_alg».proof.Proof.Gen.KernelIdeal.Skeleton
import proofs.«417294_j31825707663666_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

namespace Gather

/-! ## Words: the indicator of a word comparison -/

/-- Two words made from numbers below 2^32 are equal exactly when the numbers are. -/
theorem ofNat32_eq_iff {a b : ℕ} (ha : a < 2 ^ 32) (hb : b < 2 ^ 32) :
    BitVec.ofNat 32 a = BitVec.ofNat 32 b ↔ a = b := by
  constructor
  · intro h
    have h' := congrArg BitVec.toNat h
    rwa [BitVec.toNat_ofNat, BitVec.toNat_ofNat, Nat.mod_eq_of_lt ha, Nat.mod_eq_of_lt hb] at h'
  · intro h; rw [h]

/-- The compare bit of two words, widened to a word and read as a signed integer, is the real number one when the
    words are equal and zero when they are not. -/
theorem indicator_word (a b : BitVec 32) :
    (FloatOps.sitofp (F := Ideal) .f32 ((IntOp.cmpi .eq a b).setWidth 32) : EReal) = if a = b then (1 : EReal) else 0 := by
  show ((((IntOp.cmpi .eq a b).setWidth 32).toInt : ℝ) : EReal) = _
  by_cases h : a = b
  · have hc : IntOp.cmpi .eq a b = 1#1 := by simp [IntOp.cmpi, h]
    have h1 : ((1#1 : BitVec 1).setWidth 32).toInt = 1 := by decide
    rw [if_pos h, hc, h1]; simp
  · have hne : (a == b) = false := beq_false_of_ne h
    have hc : IntOp.cmpi .eq a b = 0#1 := by simp [IntOp.cmpi, hne]
    have h0 : ((0#1 : BitVec 1).setWidth 32).toInt = 0 := by decide
    rw [if_neg h, hc, h0]; simp

/-! ## Layout operations of this body read at coordinates -/

section Layout
variable {α : Type}

/-- A column of a rows broadcast over n lanes reads, at (p, c), the column's entry of row p. -/
theorem broadcastTo_a1_ab_apply {a n : ℕ} (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a, 1, c] array broadcast over b middle positions reads, at (p, q, l), the operand at (p, 0, l). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- An [a, c] array viewed [a, 1, c] reads, at (p, u, l), the operand at (p, l). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (l : Fin c) :
    shapeCast ⟨3, ![a, 1, c]⟩ x h (ix3 p u l) = x (ix2 p l) :=
  shapeCast_apply x h _ _ (by
    have hu : u.val = 0 := by omega
    rw [Shape.rowMajor_val_two, Shape.rowMajor_val_three]
    show p.val * c + l.val = (p.val * 1 + u.val) * c + l.val
    rw [hu, Nat.mul_one, Nat.add_zero])

/-- A row of 2176 entries viewed as 17 groups of 128 reads, at (r, e, l), entry e·128 + l of the row. -/
theorem shapeCast_groups_apply (x : (⟨2, ![512, 2176]⟩ : Shape).Idx → α)
    (h : (⟨2, ![512, 2176]⟩ : Shape).ShapeCasts ⟨3, ![512, 17, 128]⟩) (r : Fin 512) (e : Fin 17) (l : Fin 128) :
    shapeCast ⟨3, ![512, 17, 128]⟩ x h (ix3 r e l)
      = x (ix2 r (⟨e.val * 128 + l.val, by have := e.isLt; have := l.isLt; omega⟩ : Fin 2176)) :=
  shapeCast_apply x h _ _ (by
    rw [Shape.rowMajor_val_two, Shape.rowMajor_val_three]
    show r.val * 2176 + (e.val * 128 + l.val) = (r.val * 17 + e.val) * 128 + l.val
    omega)

end Layout

/-! ## The indicator of a lane -/

/-- The compare-widen-convert chain over n lanes reads, at (r, k), the indicator of "row r's word is the word of k". -/
theorem onehot_apply {a n : ℕ} (w : IVec ⟨2, ![a, 1]⟩ 32)
    (hb : (⟨2, ![a, 1]⟩ : Shape).Broadcasts ⟨2, ![a, n]⟩)
    (hio : (⟨2, ![a, n]⟩ : Shape).Iotas .tc 32 [1]) (h132 : 1 < 32) (r : Fin a) (k : Fin n) :
    (sitofp (F := Ideal) .f32 (extui 32 (cmpi .eq (broadcastTo ⟨2, ![a, n]⟩ w hb) (iota .tc ⟨2, ![a, n]⟩ 32 [1] hio)) h132)) (ix2 r k)
      = if w (ix2 r (0 : Fin 1)) = BitVec.ofNat 32 k.val then (1 : EReal) else 0 := by
  show FloatOps.sitofp (F := Ideal) .f32 ((IntOp.cmpi .eq (broadcastTo ⟨2, ![a, n]⟩ w hb (ix2 r k))
      (iota .tc ⟨2, ![a, n]⟩ 32 [1] hio (ix2 r k))).setWidth 32) = _
  rw [broadcastTo_a1_ab_apply, iota_single_apply]
  exact indicator_word _ _

/-! ## The product against the table, and the lane sum -/

theorem lhs_gather_0 (i : S512x2176.Idx) (q : dot_S512x784_S784x2176_S512x2176_1_0_0_1_n_n.contr.Idx) :
    (dot_S512x784_S784x2176_S512x2176_1_0_0_1_n_n.lhsIdx i q 0).val = (i 0).val := by
  unfold DotDims.lhsIdx
  rw [dif_neg (show ¬(0 : Fin S512x784.rank) ∈ dot_S512x784_S784x2176_S512x2176_1_0_0_1_n_n.lhsBatch by decide), dif_pos (show (0 : Fin S512x784.rank) ∈ dot_S512x784_S784x2176_S512x2176_1_0_0_1_n_n.lhsNonContracting by decide)]
  rfl
theorem lhs_gather_1 (i : S512x2176.Idx) (q : dot_S512x784_S784x2176_S512x2176_1_0_0_1_n_n.contr.Idx) :
    (dot_S512x784_S784x2176_S512x2176_1_0_0_1_n_n.lhsIdx i q 1).val = (q ⟨0, by decide⟩).val :=
  dot_S512x784_S784x2176_S512x2176_1_0_0_1_n_n.lhsIdx_val_of_single rfl i q
theorem rhs_gather_0 (i : S512x2176.Idx) (q : dot_S512x784_S784x2176_S512x2176_1_0_0_1_n_n.contr.Idx) :
    (dot_S512x784_S784x2176_S512x2176_1_0_0_1_n_n.rhsIdx i q 0).val = (q ⟨0, by decide⟩).val :=
  dot_S512x784_S784x2176_S512x2176_1_0_0_1_n_n.rhsIdx_val_of_single rfl i q
theorem rhs_gather_1 (i : S512x2176.Idx) (q : dot_S512x784_S784x2176_S512x2176_1_0_0_1_n_n.contr.Idx) :
    (dot_S512x784_S784x2176_S512x2176_1_0_0_1_n_n.rhsIdx i q 1).val = (i 1).val := by
  unfold DotDims.rhsIdx
  rw [dif_neg (show ¬(1 : Fin S784x2176.rank) ∈ dot_S512x784_S784x2176_S512x2176_1_0_0_1_n_n.rhsBatch by decide), dif_pos (show (1 : Fin S784x2176.rank) ∈ dot_S512x784_S784x2176_S512x2176_1_0_0_1_n_n.rhsNonContracting by decide)]
  rfl

/-- The product into the zero block, at (r, c): the sum over the 784 lanes of the left row times the right column. -/
theorem matmul_gather_apply (lhs : FVec Ideal S512x784 .bf16) (rhs : FVec Ideal S784x2176 .bf16) (r : Fin 512) (c : Fin 2176) :
    matmul dot_S512x784_S784x2176_S512x2176_1_0_0_1_n_n none lhs rhs (constant (F := Ideal) S512x2176 .f32 0x00000000#32) (ix2 r c)
      = ∑ k : Fin 784, lhs (ix2 r k) * rhs (ix2 k c) := by
  simp only [matmul]
  rw [Ideal.matmul_constant_zero_apply, ← Equiv.sum_comp (contrEquiv1 dot_S512x784_S784x2176_S512x2176_1_0_0_1_n_n 784 rfl rfl).symm]
  refine Finset.sum_congr rfl fun k _ => ?_
  have hk := contrEquiv1_symm_val dot_S512x784_S784x2176_S512x2176_1_0_0_1_n_n 784 rfl rfl k
  have el : dot_S512x784_S784x2176_S512x2176_1_0_0_1_n_n.lhsIdx (ix2 r c) ((contrEquiv1 dot_S512x784_S784x2176_S512x2176_1_0_0_1_n_n 784 rfl rfl).symm k) = ix2 r k := funext fun a => Fin.ext (by
    match a with
    | ⟨0, _⟩ => exact lhs_gather_0 _ _
    | ⟨1, _⟩ => exact (lhs_gather_1 _ _).trans hk)
  have er : dot_S512x784_S784x2176_S512x2176_1_0_0_1_n_n.rhsIdx (ix2 r c) ((contrEquiv1 dot_S512x784_S784x2176_S512x2176_1_0_0_1_n_n 784 rfl rfl).symm k) = ix2 k c := funext fun a => Fin.ext (by
    match a with
    | ⟨0, _⟩ => exact (rhs_gather_0 _ _).trans hk
    | ⟨1, _⟩ => exact rhs_gather_1 _ _)
  rw [el, er]

/-- The sum over the 128 lanes, at (r, e): the sum of the operand at (r, e, l). -/
theorem laneSum_apply (src : FVec Ideal S512x17x128 .f32) (hred : S512x17x128.Reduces [2] S512x17)
    (hφ : FKind.Formats .f32) (hacc : (0x00000000#32 : BitVec 32) = 0x00000000#32) (r : Fin 512) (e : Fin 17) :
    multiReduction (F := Ideal) .add [2] S512x17 src 0x00000000#32 hred hφ hacc (ix2 r e)
      = ∑ l : Fin 128, src (ix3 r e l) := by
  refine (Ideal.multiReduction_add_single src 0x00000000#32 hred hφ hacc (ix2 r e)).trans ?_
  refine Finset.sum_congr rfl fun l _ => congrArg src ?_
  funext ax
  match ax with
  | ⟨0, _⟩ => rfl
  | ⟨1, _⟩ => rfl
  | ⟨2, _⟩ => rfl

/-! ## The gathered slab -/

/-- With a row's word the word of a, the indicator of "the word is the word of k" is the indicator of a = k. -/
theorem indicator_of_word {n : ℕ} (hn : n ≤ 2 ^ 32) (w : BitVec 32) (a k : Fin n) (hw : w = BitVec.ofNat 32 a.val) :
    (if w = BitVec.ofNat 32 k.val then (1 : EReal) else 0) = if a = k then (1 : EReal) else 0 := by
  have hiff : (w = BitVec.ofNat 32 k.val) ↔ a = k := by
    rw [hw, ofNat32_eq_iff (lt_of_lt_of_le a.isLt hn) (lt_of_lt_of_le k.isLt hn)]
    exact Fin.val_inj
  by_cases h : a = k
  · rw [if_pos h, if_pos (hiff.mpr h)]
  · rw [if_neg h, if_neg (fun e => h (hiff.mp e))]

end Gather

open Gather

/-- The gathered slab at row r, column e: with the row's two index words naming lane hi of 784 and lane lo of 128,
    entry e·128 + lo of row hi of the packed table block. -/
theorem pay9_at (v3 v5 : Vec Ideal S1x512x1 .i32) (v15 : Vec Ideal S1x784x2176 .bf16) (r : Fin 512) (e : Fin 17)
    (hi : Fin 784) (lo : Fin 128)
    (hhi : v3 (ix3 (0 : Fin 1) r (0 : Fin 1)) = BitVec.ofNat 32 hi.val)
    (hlo : v5 (ix3 (0 : Fin 1) r (0 : Fin 1)) = BitVec.ofNat 32 lo.val) :
    k0_pay9 (F := Ideal) v3 v5 v15 (ix2 r e)
      = v15 (ix3 (0 : Fin 1) hi (⟨e.val * 128 + lo.val, by have := e.isLt; have := lo.isLt; omega⟩ : Fin 2176)) := by
  unfold k0_pay9
  -- the lane sum, then each lane's product; the sum will collapse at lane lo
  refine (laneSum_apply _ _ _ _ r e).trans ?_
  refine Eq.trans ?_ (Cert.Fm.sum_mul_indicator lo
    (fun l : Fin 128 => v15 (ix3 (0 : Fin 1) hi (⟨e.val * 128 + l.val, by have := e.isLt; have := l.isLt; omega⟩ : Fin 2176))))
  refine Finset.sum_congr rfl fun l _ => ?_
  refine (mulf_apply _ _ _).trans ?_
  refine congrArg₂ (· * ·) ?_ ?_
  · -- the product against the table at entry e·128 + l of row r: the sum over the 784 lanes collapses at lane hi
    refine (shapeCast_groups_apply _ _ r e l).trans ?_
    refine (matmul_gather_apply _ _ r _).trans ?_
    refine Eq.trans ?_ (Cert.Fm.sum_indicator_mul hi
      (fun k : Fin 784 => v15 (ix3 (0 : Fin 1) k (⟨e.val * 128 + l.val, by have := e.isLt; have := l.isLt; omega⟩ : Fin 2176))))
    refine Finset.sum_congr rfl fun k _ => ?_
    refine congrArg₂ (· * ·) ?_ ?_
    · refine (truncf_apply (φ := .f32) (ψ := .bf16) _ _ _).trans ?_
      refine (onehot_apply _ _ _ _ r k).trans ?_
      refine indicator_of_word (by norm_num) _ hi k ?_
      exact (shapeCast_1ab_ab_apply v3 _ r (0 : Fin 1)).trans hhi
    · exact shapeCast_1ab_ab_apply v15 _ k _
  · -- the indicator of lane lo, carried through the added middle axis and its broadcast
    refine (broadcastTo_a1c_abc_apply _ _ r e l).trans ?_
    refine (shapeCast_ac_a1c_apply _ _ r (0 : Fin 1) l).trans ?_
    refine (onehot_apply _ _ _ _ r l).trans ?_
    refine indicator_of_word (by norm_num) _ lo l ?_
    exact (shapeCast_1ab_ab_apply v5 _ r (0 : Fin 1)).trans hlo

/-- The scaled second-order embedding at row r, entry e: the selected table entry times the row's scale. -/
theorem pay10_at (v3 v5 : Vec Ideal S1x512x1 .i32) (v7 : Vec Ideal S1x512x1 .f32) (v15 : Vec Ideal S1x784x2176 .bf16)
    (r : Fin 512) (e : Fin 16) (hi : Fin 784) (lo : Fin 128)
    (hhi : v3 (ix3 (0 : Fin 1) r (0 : Fin 1)) = BitVec.ofNat 32 hi.val)
    (hlo : v5 (ix3 (0 : Fin 1) r (0 : Fin 1)) = BitVec.ofNat 32 lo.val) :
    k0_pay10 (F := Ideal) v3 v5 v7 v15 (ix2 r e)
      = v15 (ix3 (0 : Fin 1) hi (⟨e.val * 128 + lo.val, by have := e.isLt; have := lo.isLt; omega⟩ : Fin 2176))
        * v7 (ix3 (0 : Fin 1) r (0 : Fin 1)) := by
  unfold k0_pay10
  refine (mulf_apply _ _ _).trans ?_
  refine congrArg₂ (· * ·) ?_ ?_
  · -- the first sixteen columns of the slab
    refine (slice2_axis1_apply 0 _ _ r e (⟨e.val, by have := e.isLt; omega⟩ : Fin 17) (Nat.zero_add _).symm).trans ?_
    exact pay9_at v3 v5 v15 r ⟨e.val, by have := e.isLt; omega⟩ hi lo hhi hlo
  · -- the row's scale, one column broadcast over the sixteen
    refine (broadcastTo_a1_ab_apply _ _ r e).trans ?_
    unfold k0_pay8
    exact shapeCast_1ab_ab_apply v7 _ r (0 : Fin 1)

/-- The running first-order total at row r after this field: what it held plus the selected weight (column 16) times
    the row's scale. -/
theorem pay11_at (v3 v5 : Vec Ideal S1x512x1 .i32) (v7 : Vec Ideal S1x512x1 .f32) (v15 : Vec Ideal S1x784x2176 .bf16)
    (v32 : Vec Ideal S512x1 .f32) (r : Fin 512) (hi : Fin 784) (lo : Fin 128)
    (hhi : v3 (ix3 (0 : Fin 1) r (0 : Fin 1)) = BitVec.ofNat 32 hi.val)
    (hlo : v5 (ix3 (0 : Fin 1) r (0 : Fin 1)) = BitVec.ofNat 32 lo.val) :
    k0_pay11 (F := Ideal) v3 v5 v7 v15 v32 (ix2 r (0 : Fin 1))
      = v32 (ix2 r (0 : Fin 1))
        + v15 (ix3 (0 : Fin 1) hi (⟨16 * 128 + lo.val, by have := lo.isLt; omega⟩ : Fin 2176))
          * v7 (ix3 (0 : Fin 1) r (0 : Fin 1)) := by
  unfold k0_pay11
  refine (addf_apply _ _ _).trans ?_
  refine congrArg (v32 (ix2 r (0 : Fin 1)) + ·) ?_
  refine (mulf_apply _ _ _).trans ?_
  refine congrArg₂ (· * ·) ?_ ?_
  · -- the slab's last column
    refine (slice2_axis1_apply 16 _ _ r (0 : Fin 1) (⟨16, by omega⟩ : Fin 17) rfl).trans ?_
    exact pay9_at v3 v5 v15 r ⟨16, by omega⟩ hi lo hhi hlo
  · unfold k0_pay8
    exact shapeCast_1ab_ab_apply v7 _ r (0 : Fin 1)

end Cert.KernelIdeal.Pay

end
-- ==== Proof.PayloadHead.lean ====
/-
  The body's remaining stores read at an index: the three running totals' updates, their resets, and the last
  field's finishing step — the cross terms ½·(s·s − q) of a row fed through the two-layer ReLU head, the head's units
  summed and added to bias plus first-order total. Each matrix product into a zero accumulator is a plain sum over
  the contracted coordinate and the lane sum a plain sum over the lanes, so the finishing step is the specification's
  "finish" of the row's three totals, term for term.
-/
import proofs.«417294_j31825707663666_2_alg».proof.Proof.Gen.KernelIdeal.Skeleton
import proofs.«417294_j31825707663666_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- Storing the first-order total back changes nothing. -/
theorem pay1_at (v34 : FVec Ideal S512x1 .f32) (i : S512x1.Idx) : k0_pay1 (F := Ideal) v34 i = v34 i := by
  unfold k0_pay1
  show shapeCast S512x1 v34 shapeCasts_S512x1_S512x1 i = v34 i
  rw [shapeCast_self]

/-- The sum of embeddings after this field: what it held plus this field's embedding. -/
theorem pay2_at (v31 : FVec Ideal S512x16 .f32) (v38 : Vec Ideal S512x16 .f32) (i : S512x16.Idx) :
    k0_pay2 (F := Ideal) v31 v38 i = v38 i + v31 i := by
  unfold k0_pay2
  show shapeCast S512x16 (addf v38 v31) shapeCasts_S512x16_S512x16 i = v38 i + v31 i
  rw [shapeCast_self]
  rfl

/-- The sum of squared embeddings after this field: what it held plus this field's embedding squared. -/
theorem pay3_at (v31 : FVec Ideal S512x16 .f32) (v43 : Vec Ideal S512x16 .f32) (i : S512x16.Idx) :
    k0_pay3 (F := Ideal) v31 v43 i = v43 i + v31 i * v31 i := by
  unfold k0_pay3
  show shapeCast S512x16 (addf v43 (mulf v31 v31)) shapeCasts_S512x16_S512x16 i = v43 i + v31 i * v31 i
  rw [shapeCast_self]
  rfl

/-- The three resets store zero. -/
theorem pay5_at (i : S512x1.Idx) : k0_pay5 (F := Ideal) i = 0 := by
  unfold k0_pay5
  show shapeCast S512x1 (broadcast S512x1 (Scalar.ofBits (F := Ideal) .f32 0x00000000#32)) shapeCasts_S512x1_S512x1 i = 0
  rw [shapeCast_self]
  exact Ideal.ofBits_zero_f32
theorem pay6_at (i : S512x16.Idx) : k0_pay6 (F := Ideal) i = 0 := by
  unfold k0_pay6
  show shapeCast S512x16 (broadcast S512x16 (Scalar.ofBits (F := Ideal) .f32 0x00000000#32)) shapeCasts_S512x16_S512x16 i = 0
  rw [shapeCast_self]
  exact Ideal.ofBits_zero_f32
theorem pay7_at (i : S512x16.Idx) : k0_pay7 (F := Ideal) i = 0 := by
  unfold k0_pay7
  show shapeCast S512x16 (broadcast S512x16 (Scalar.ofBits (F := Ideal) .f32 0x00000000#32)) shapeCasts_S512x16_S512x16 i = 0
  rw [shapeCast_self]
  exact Ideal.ofBits_zero_f32

namespace Head

/-! The first matrix product's operand indices, one axis at a time. -/
theorem lhs_mm0_0 (i : S512x128.Idx) (q : dot_S512x16_S16x128_S512x128_1_0_0_1_n_n.contr.Idx) :
    (dot_S512x16_S16x128_S512x128_1_0_0_1_n_n.lhsIdx i q 0).val = (i 0).val := by
  unfold DotDims.lhsIdx
  rw [dif_neg (show ¬(0 : Fin S512x16.rank) ∈ dot_S512x16_S16x128_S512x128_1_0_0_1_n_n.lhsBatch by decide), dif_pos (show (0 : Fin S512x16.rank) ∈ dot_S512x16_S16x128_S512x128_1_0_0_1_n_n.lhsNonContracting by decide)]
  rfl
theorem lhs_mm0_1 (i : S512x128.Idx) (q : dot_S512x16_S16x128_S512x128_1_0_0_1_n_n.contr.Idx) :
    (dot_S512x16_S16x128_S512x128_1_0_0_1_n_n.lhsIdx i q 1).val = (q ⟨0, by decide⟩).val :=
  dot_S512x16_S16x128_S512x128_1_0_0_1_n_n.lhsIdx_val_of_single rfl i q
theorem rhs_mm0_0 (i : S512x128.Idx) (q : dot_S512x16_S16x128_S512x128_1_0_0_1_n_n.contr.Idx) :
    (dot_S512x16_S16x128_S512x128_1_0_0_1_n_n.rhsIdx i q 0).val = (q ⟨0, by decide⟩).val :=
  dot_S512x16_S16x128_S512x128_1_0_0_1_n_n.rhsIdx_val_of_single rfl i q
theorem rhs_mm0_1 (i : S512x128.Idx) (q : dot_S512x16_S16x128_S512x128_1_0_0_1_n_n.contr.Idx) :
    (dot_S512x16_S16x128_S512x128_1_0_0_1_n_n.rhsIdx i q 1).val = (i 1).val := by
  unfold DotDims.rhsIdx
  rw [dif_neg (show ¬(1 : Fin S16x128.rank) ∈ dot_S512x16_S16x128_S512x128_1_0_0_1_n_n.rhsBatch by decide), dif_pos (show (1 : Fin S16x128.rank) ∈ dot_S512x16_S16x128_S512x128_1_0_0_1_n_n.rhsNonContracting by decide)]
  rfl

/-- The first matrix product into a zero accumulator, at row r and unit j: the sum over the sixteen contracted
    coordinates of the products. -/
theorem mm0_at (x : FVec Ideal S512x16 .bf16) (w : FVec Ideal S16x128 .bf16) (r : Fin 512) (j : Fin 128) :
    matmul dot_S512x16_S16x128_S512x128_1_0_0_1_n_n none x w (constant (F := Ideal) S512x128 .f32 0x00000000#32) (ix2 r j)
      = ∑ e : Fin 16, x (ix2 r e) * w (ix2 e j) := by
  simp only [matmul]
  rw [Ideal.matmul_constant_zero_apply, ← Equiv.sum_comp (contrEquiv1 dot_S512x16_S16x128_S512x128_1_0_0_1_n_n 16 rfl rfl).symm]
  refine Finset.sum_congr rfl fun k _ => ?_
  have hk := contrEquiv1_symm_val dot_S512x16_S16x128_S512x128_1_0_0_1_n_n 16 rfl rfl k
  have el : dot_S512x16_S16x128_S512x128_1_0_0_1_n_n.lhsIdx (ix2 r j) ((contrEquiv1 dot_S512x16_S16x128_S512x128_1_0_0_1_n_n 16 rfl rfl).symm k) = ix2 r k := funext fun a => Fin.ext (by
    match a with
    | ⟨0, _⟩ => exact lhs_mm0_0 _ _
    | ⟨1, _⟩ => exact (lhs_mm0_1 _ _).trans hk)
  have er : dot_S512x16_S16x128_S512x128_1_0_0_1_n_n.rhsIdx (ix2 r j) ((contrEquiv1 dot_S512x16_S16x128_S512x128_1_0_0_1_n_n 16 rfl rfl).symm k) = ix2 k j := funext fun a => Fin.ext (by
    match a with
    | ⟨0, _⟩ => exact (rhs_mm0_0 _ _).trans hk
    | ⟨1, _⟩ => exact rhs_mm0_1 _ _)
  rw [el, er]

/-! The second matrix product's operand indices, one axis at a time. -/
theorem lhs_mm1_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_mm1_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_mm1_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_mm1_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The second matrix product into a zero accumulator, at row r and unit j: the sum over the 128 contracted
    coordinates of the products. -/
theorem mm1_at (x : FVec Ideal S512x128 .bf16) (w : FVec Ideal S128x128 .bf16) (r : Fin 512) (j : Fin 128) :
    matmul dot_S512x128_S128x128_S512x128_1_0_0_1_n_n none x w (constant (F := Ideal) S512x128 .f32 0x00000000#32) (ix2 r j)
      = ∑ k : Fin 128, x (ix2 r k) * w (ix2 k j) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r j) ((contrEquiv1 dot_S512x128_S128x128_S512x128_1_0_0_1_n_n 128 rfl rfl).symm k) = ix2 r k := funext fun a => Fin.ext (by
    match a with
    | ⟨0, _⟩ => exact lhs_mm1_0 _ _
    | ⟨1, _⟩ => exact (lhs_mm1_1 _ _).trans hk)
  have er : dot_S512x128_S128x128_S512x128_1_0_0_1_n_n.rhsIdx (ix2 r j) ((contrEquiv1 dot_S512x128_S128x128_S512x128_1_0_0_1_n_n 128 rfl rfl).symm k) = ix2 k j := funext fun a => Fin.ext (by
    match a with
    | ⟨0, _⟩ => exact (rhs_mm1_0 _ _).trans hk
    | ⟨1, _⟩ => exact rhs_mm1_1 _ _)
  rw [el, er]

/-- The lane sum at row r: the sum over the 128 lanes. -/
theorem lanesum_at (y : FVec Ideal S512x128 .f32) (hφ : FKind.Formats FTy.f32)
    (hacc : (0x00000000#32 : BitVec FTy.f32.bits) = FKind.add.neutral .f32 hφ) (r : Fin 512) :
    multiReduction (F := Ideal) .add [1] S512 y 0x00000000#32 reduces_S512x128_S512 hφ hacc (ix1 r)
      = ∑ j : Fin 128, y (ix2 r j) := by
  refine (Ideal.multiReduction_add_single y 0x00000000#32 reduces_S512x128_S512 hφ hacc (ix1 r)).trans ?_
  refine Finset.sum_congr rfl fun k _ => ?_
  exact congrArg y (funext fun a => Fin.ext (by match a with | ⟨0, _⟩ => rfl | ⟨1, _⟩ => rfl))

/-- A column of 512 entries stored as a [512, 1] array reads, at (r, 0), entry r. -/
theorem col_at {α : Type} (x : S512.Idx → α) (r : Fin 512) (u : Fin 1) :
    shapeCast S512x1 x shapeCasts_S512_S512x1 (ix2 r u) = x (ix1 r) :=
  shapeCast_apply x shapeCasts_S512_S512x1 _ _ (by
    have hu : u.val = 0 := by omega
    rw [Shape.rowMajor_val_two, Shape.rowMajor_val_one]
    show r.val = r.val * 1 + u.val
    rw [hu, Nat.mul_one, Nat.add_zero])

/-- The head's first layer at row r and unit j. -/
theorem layer0_at (x : FVec Ideal S512x16 .bf16) (w : FVec Ideal S16x128 .bf16) (b : Vec Ideal S1x128 .f32)
    (r : Fin 512) (j : Fin 128) :
    maximumf (addf (matmul dot_S512x16_S16x128_S512x128_1_0_0_1_n_n none x w (constant (F := Ideal) S512x128 .f32 0x00000000#32))
        (broadcastTo S512x128 (shapeCast S1x128 b shapeCasts_S1x128_S1x128) broadcasts_S1x128_S512x128))
      (broadcast S512x128 (Scalar.ofBits (F := Ideal) .f32 0x00000000#32)) (ix2 r j)
      = max ((∑ e : Fin 16, x (ix2 r e) * w (ix2 e j)) + b (ix2 (0 : Fin 1) j)) 0 := by
  rw [maximumf_apply, addf_apply, broadcast_apply, mm0_at, shapeCast_self, broadcastTo_1b_ab_apply]
  exact congrArg (max _) Ideal.ofBits_zero_f32

/-- The head's second layer at row r and unit j. -/
theorem layer1_at (x : FVec Ideal S512x128 .bf16) (w : FVec Ideal S128x128 .bf16) (b : Vec Ideal S1x128 .f32)
    (r : Fin 512) (j : Fin 128) :
    maximumf (addf (matmul dot_S512x128_S128x128_S512x128_1_0_0_1_n_n none x w (constant (F := Ideal) S512x128 .f32 0x00000000#32))
        (broadcastTo S512x128 (shapeCast S1x128 b shapeCasts_S1x128_S1x128) broadcasts_S1x128_S512x128))
      (broadcast S512x128 (Scalar.ofBits (F := Ideal) .f32 0x00000000#32)) (ix2 r j)
      = max ((∑ k : Fin 128, x (ix2 r k) * w (ix2 k j)) + b (ix2 (0 : Fin 1) j)) 0 := by
  rw [maximumf_apply, addf_apply, broadcast_apply, mm1_at, shapeCast_self, broadcastTo_1b_ab_apply]
  exact congrArg (max _) Ideal.ofBits_zero_f32

end Head

open Head

/-- The finishing step at row r: the specification's finish of the row's three totals, once the weight and bias
    blocks are known to be the arguments' arrays. -/
theorem pay4_at (A : Cert.Fm.Args) (v52 v53 : Vec Ideal S512x16 .f32) (v59 : Vec Ideal S16x128 .f32)
    (v62 : Vec Ideal S1x128 .f32) (v68 : Vec Ideal S128x128 .f32) (v72 : Vec Ideal S1x128 .f32)
    (v80 : Vec Ideal S1x1 .f32) (v82 : Vec Ideal S512x1 .f32)
    (hW0 : ∀ (e : Fin 16) (j : Fin 128), v59 (ix2 e j) = A.W0 (ix2 e j))
    (hb0 : ∀ j : Fin 128, v62 (ix2 (0 : Fin 1) j) = A.b0 (ix1 j))
    (hW1 : ∀ (k j : Fin 128), v68 (ix2 k j) = A.W1 (ix2 k j))
    (hb1 : ∀ j : Fin 128, v72 (ix2 (0 : Fin 1) j) = A.b1 (ix1 j))
    (hbb : v80 (ix2 (0 : Fin 1) (0 : Fin 1)) = A.bb ix0) (r : Fin 512) :
    k0_pay4 (F := Ideal) v52 v53 v59 v62 v68 v72 v80 v82 (ix2 r (0 : Fin 1))
      = Cert.Fm.finish A (v82 (ix2 r (0 : Fin 1))) (fun e => v52 (ix2 r e)) (fun e => v53 (ix2 r e)) := by
  unfold k0_pay4
  simp only [addf_apply, broadcast_apply]
  rw [col_at]
  refine (congrArg (_ + ·) (lanesum_at _ _ _ r)).trans ?_
  unfold Cert.Fm.finish Cert.Fm.head
  refine congrArg₂ (· + ·) (congrArg (· + _) ?_) (Finset.sum_congr rfl fun j _ => ?_)
  · rw [← hbb]
    exact congrArg v80 (funext fun a => Fin.ext (by match a with | ⟨0, _⟩ => rfl | ⟨1, _⟩ => rfl))
  · rw [layer1_at]
    unfold Cert.Fm.hid1
    rw [hb1]
    refine congrArg (fun t => max (t + _) 0) (Finset.sum_congr rfl fun k _ => ?_)
    rw [truncf_apply, truncf_apply, hW1, layer0_at]
    unfold Cert.Fm.hid0
    rw [hb0]
    refine congrArg (fun t => max (t + _) 0 * _) (Finset.sum_congr rfl fun e _ => ?_)
    rw [truncf_apply, truncf_apply, hW0]
    rfl

end Cert.KernelIdeal.Pay

end
-- ==== Proof.PointFacts.lean ====
/-
  One grid point, one row. Row r of point t is sample b = (t / 39)·512 + r in field f = t % 39, with id n < 100000.
  The quotient block holds n / 128 there and the remainder block n % 128, so the body's two-level selection picks
  entry e·128 + n % 128 of row n / 128 of field f's packed table, which is column e of the row 128·(n / 128) + n % 128 = n
  of the two tables side by side. Hence the body's per-field terms at row r are the specification's: the scaled
  second-order embedding emb b f e, and for the first-order total "what it held plus lin b f".
-/
import proofs.«417294_j31825707663666_2_alg».proof.Proof.BlockReads
import proofs.«417294_j31825707663666_2_alg».proof.Proof.HostIdx
import proofs.«417294_j31825707663666_2_alg».proof.Proof.HostTab
import proofs.«417294_j31825707663666_2_alg».proof.Proof.PayloadGather
import proofs.«417294_j31825707663666_2_alg».proof.Proof.PayloadHead
import proofs.«417294_j31825707663666_2_alg».proof.Proof.WordDiv
import proofs.«417294_j31825707663666_2_alg».proof.Proof.KArgs

set_option maxRecDepth 16384

noncomputable section

namespace Cert.KernelIdeal.Point

open Idealize.ShloMosaic Idealize.ShloMosaic.TcCoe Idealize.ShloMosaic.ValueIdx Idealize.SL.Sem
open Cert.KernelIdeal Cert.KernelIdeal.Gen Cert.KernelIdeal.Blocks Cert.KernelIdeal.Packed Cert.KernelIdeal.Pay Cert.Fm

variable (m : (ℓ : Loc nD τ sig) → Buf (Elt Ideal) ℓ)

/-- The id of row r of point t. -/
def pid (c : Dev nD) (t : Fin cfg0.N) (r : Fin 512) : ℕ := vid (kArgs m c) (row t r) (fld t)

theorem pid_lt (c : Dev nD) (hv : InVocab (kArgs m c)) (t : Fin cfg0.N) (r : Fin 512) : pid m c t r < 100000 :=
  hv (row t r) (fld t)

/-- The lane of 784 the id's quotient names, and the lane of 128 its remainder names. -/
def hiLane (c : Dev nD) (hv : InVocab (kArgs m c)) (t : Fin cfg0.N) (r : Fin 512) : Fin 784 :=
  ⟨pid m c t r / 128, by have := pid_lt m c hv t r; omega⟩
def loLane (c : Dev nD) (t : Fin cfg0.N) (r : Fin 512) : Fin 128 := ⟨pid m c t r % 128, Nat.mod_lt _ (by decide)⟩

/-- Row r of the quotient block is the word of the id's quotient. -/
theorem hi_word (c : Dev nD) (hv : InVocab (kArgs m c)) (t : Fin cfg0.N) (r : Fin 512) :
    hiBlk m c t (ix3 (0 : Fin 1) r (0 : Fin 1)) = BitVec.ofNat 32 (hiLane m c hv t r).val := by
  rw [hiBlk_at, hi_at, Word.floorDiv128_eq _ (pid_lt m c hv t r)]
  rfl

/-- Row r of the remainder block is the word of the id's remainder. -/
theorem lo_word (c : Dev nD) (hv : InVocab (kArgs m c)) (t : Fin cfg0.N) (r : Fin 512) :
    loBlk m c t (ix3 (0 : Fin 1) r (0 : Fin 1)) = BitVec.ofNat 32 (loLane m c t r).val := by
  rw [loBlk_at, lo_at, Word.mod128_eq _ (pid_lt m c hv t r)]
  rfl

/-- Row r of the scale block is the sample's scale in the field. -/
theorem xv_val (c : Dev nD) (t : Fin cfg0.N) (r : Fin 512) :
    xvBlk m c t (ix3 (0 : Fin 1) r (0 : Fin 1)) = (kArgs m c).Xv (ix2 (row t r) (fld t)) := by
  rw [xvBlk_at, xv_at]

/-- The selected entry of the table block: column e of the id's row of the two tables side by side. -/
theorem tab_val (c : Dev nD) (hv : InVocab (kArgs m c)) (t : Fin cfg0.N) (r : Fin 512) (e : Fin 17) :
    tabBlk m c t (ix3 (0 : Fin 1) (hiLane m c hv t r)
        (⟨e.val * 128 + (loLane m c t r).val, by have := e.isLt; have := (loLane m c t r).isLt; omega⟩ : Fin 2176))
      = slab (kArgs m c) (fld t) (pid m c t r) e := by
  rw [tabBlk_at, tab_at]
  have hl : (loLane m c t r).val = pid m c t r % 128 := rfl
  have hh : (hiLane m c hv t r).val = pid m c t r / 128 := rfl
  have hn : (hiLane m c hv t r).val * 128 + (e.val * 128 + (loLane m c t r).val) % 128 = pid m c t r := by
    rw [hl, hh]; omega
  have he : (⟨(e.val * 128 + (loLane m c t r).val) / 128, by have := e.isLt; have := (loLane m c t r).isLt; omega⟩ : Fin 17) = e :=
    Fin.ext (by show (e.val * 128 + (loLane m c t r).val) / 128 = e.val; rw [hl]; omega)
  show slab (kArgs m c) (fld t) ((hiLane m c hv t r).val * 128 + (e.val * 128 + (loLane m c t r).val) % 128)
      ⟨(e.val * 128 + (loLane m c t r).val) / 128, _⟩ = _
  rw [hn, he]

/-- The body's scaled embedding at row r, entry e, is the specification's for that sample and field. -/
theorem emb_pt (c : Dev nD) (hv : InVocab (kArgs m c)) (t : Fin cfg0.N) (r : Fin 512) (e : Fin 16) :
    k0_pay10 (F := Ideal) (hiBlk m c t) (loBlk m c t) (xvBlk m c t) (tabBlk m c t) (ix2 r e)
      = embN (kArgs m c) (row t r) (fld t).val e := by
  rw [pay10_at (hiBlk m c t) (loBlk m c t) (xvBlk m c t) (tabBlk m c t) r e (hiLane m c hv t r) (loLane m c t r)
      (hi_word m c hv t r) (lo_word m c hv t r),
    tab_val m c hv t r ⟨e.val, by have := e.isLt; omega⟩, slab_lt, xv_val, embN_of_lt]
  rfl

/-- The body's first-order update at row r: what the total held plus the specification's term for that sample and
    field. -/
theorem lin_pt (c : Dev nD) (hv : InVocab (kArgs m c)) (t : Fin cfg0.N) (r : Fin 512) (v32 : Vec Ideal S512x1 .f32) :
    k0_pay11 (F := Ideal) (hiBlk m c t) (loBlk m c t) (xvBlk m c t) (tabBlk m c t) v32 (ix2 r (0 : Fin 1))
      = v32 (ix2 r (0 : Fin 1)) + linN (kArgs m c) (row t r) (fld t).val := by
  rw [pay11_at (hiBlk m c t) (loBlk m c t) (xvBlk m c t) (tabBlk m c t) v32 r (hiLane m c hv t r) (loLane m c t r)
      (hi_word m c hv t r) (lo_word m c hv t r),
    tab_val m c hv t r ⟨16, by omega⟩, slab_last, xv_val, linN_of_lt]
  rfl

end Cert.KernelIdeal.Point

end
-- ==== Proof.Totals.lean ====
/-
  The three running totals after every grid point, and the output block at a tile's last field.

  Claim, for every point n and row r, with b the sample that row is and k = n % 39 the point's field: after point n
  the first total at row r is the sum of lin b f over the fields f ≤ k, and the other two at (r, e) are the sums of
  emb b f e and of its square over the fields f ≤ k. By induction on n. At a tile's first field (k = 0) the totals are
  reset and the field's terms added: 0 + term, the sum over the first field alone. At a later field the point before is
  field k − 1 of the SAME tile, so by induction the totals held the sums over the fields < k, and adding field k's terms
  gives the sums over the fields ≤ k. At the last field (k = 38) the totals are the sums over all 39 fields and the
  output block's row r is the finishing step applied to them: the layer's result for sample b.
-/
import proofs.«417294_j31825707663666_2_alg».proof.Proof.PointPieces
import proofs.«417294_j31825707663666_2_alg».proof.Proof.PointFacts

set_option maxRecDepth 16384

noncomputable section

namespace Cert.KernelIdeal.Totals

open Idealize.ShloMosaic Idealize.ShloMosaic.TcCoe Idealize.ShloMosaic.ValueIdx Idealize.SL.Sem
open Cert.KernelIdeal Cert.KernelIdeal.Gen Cert.KernelIdeal.Blocks Cert.KernelIdeal.Packed Cert.KernelIdeal.Pay
open Cert.KernelIdeal.PointPieces Cert.KernelIdeal.Point Cert.Fm

variable (m : (ℓ : Loc nD τ sig) → Buf (Elt Ideal) ℓ)

/-- The point's embedding term at row r, entry e, under the name the totals' updates carry it by. -/
theorem embTerm_at (c : Dev nD) (hv : InVocab (kArgs m c)) (t : Fin cfg0.N) (r : Fin 512) (e : Fin 16) :
    embTerm m c t (ix2 r e) = embN (kArgs m c) (row t r) (fld t).val e :=
  emb_pt m c hv t r e

/-- After point n: at every row the three totals are the sums over the fields up to and including the point's. -/
def Inv (c : Dev nD) (n : ℕ) (hn : n < cfg0.N) : Prop :=
  ∀ r : Fin 512,
    tot0 m c n hn (ix2 r (0 : Fin 1)) = linUpTo (kArgs m c) (row ⟨n, hn⟩ r) (n % 39 + 1)
    ∧ (∀ e : Fin 16, tot1 m c n hn (ix2 r e) = sumUpTo (kArgs m c) (row ⟨n, hn⟩ r) e (n % 39 + 1))
    ∧ (∀ e : Fin 16, tot2 m c n hn (ix2 r e) = sqUpTo (kArgs m c) (row ⟨n, hn⟩ r) e (n % 39 + 1))

theorem inv (c : Dev nD) (hv : InVocab (kArgs m c)) : ∀ (n : ℕ) (hn : n < cfg0.N), Inv m c n hn := by
  intro n
  induction n using Nat.strong_induction_on with
  | _ n ih =>
    intro hn r
    have hfld : (fld (⟨n, hn⟩ : Fin cfg0.N)).val = n % 39 := rfl
    by_cases h0 : n % 39 = 0
    · -- a tile's first field: reset, then this field's terms
      have h1 : ¬n % 39 = 38 := by omega
      refine ⟨?_, fun e => ?_, fun e => ?_⟩
      · rw [tot0_first m c ⟨n, hn⟩ h0 h1, pay1_at, lin_pt m c hv ⟨n, hn⟩ r, pay5_at, hfld, h0,
          linUpTo_succ, linUpTo_zero]
      · rw [tot1_first m c ⟨n, hn⟩ h0 h1, pay2_at, embTerm_at m c hv ⟨n, hn⟩ r e, pay6_at, hfld, h0,
          sumUpTo_succ, sumUpTo_zero]
      · rw [tot2_first m c ⟨n, hn⟩ h0 h1, pay3_at, embTerm_at m c hv ⟨n, hn⟩ r e, pay7_at, hfld, h0,
          sqUpTo_succ, sqUpTo_zero]
    · -- a later field: the point before is the previous field of the same tile
      have hp : n - 1 < cfg0.N := Nat.lt_of_le_of_lt (Nat.sub_le _ _) hn
      obtain ⟨i0, i1, i2⟩ := ih (n - 1) (by omega) hp r
      have hrow : row (⟨n - 1, hp⟩ : Fin cfg0.N) r = row ⟨n, hn⟩ r :=
        Fin.ext (by show (n - 1) / 39 * 512 + r.val = n / 39 * 512 + r.val; omega)
      have hmod : (n - 1) % 39 + 1 = n % 39 := by omega
      rw [hrow, hmod] at i0 i1 i2
      refine ⟨?_, fun e => ?_, fun e => ?_⟩
      · rw [tot0_later m c ⟨n, hn⟩ h0, pay1_at, lin_pt m c hv ⟨n, hn⟩ r, hfld, linUpTo_succ]
        exact congrArg (· + _) i0
      · rw [tot1_later m c ⟨n, hn⟩ h0, pay2_at, embTerm_at m c hv ⟨n, hn⟩ r e, hfld, sumUpTo_succ]
        exact congrArg (· + _) (i1 e)
      · rw [tot2_later m c ⟨n, hn⟩ h0, pay3_at, embTerm_at m c hv ⟨n, hn⟩ r e, hfld, sqUpTo_succ]
        exact congrArg (· + _) (i2 e)

/-- At a tile's last field, row r of the output block is the layer's result for the sample that row is. -/
theorem out_last (c : Dev nD) (hv : InVocab (kArgs m c)) (t : Fin cfg0.N) (h1 : t.val % 39 = 38) (r : Fin 512) :
    outBlk m c t.val t.isLt (ix2 r (0 : Fin 1)) = result (kArgs m c) (row t r) := by
  have h0 : ¬t.val % 39 = 0 := by omega
  obtain ⟨i0, i1, i2⟩ := inv m c hv t.val t.isLt r
  have hk : t.val % 39 + 1 = 39 := by omega
  rw [hk] at i0 i1 i2
  rw [outBlk_last m c t h0 h1,
    pay4_at (kArgs m c) (tot1 m c t.val t.isLt) (tot2 m c t.val t.isLt) (w0Blk m c t) (b0Blk m c t) (w1Blk m c t)
      (b1Blk m c t) (bbBlk m c t) (tot0 m c t.val t.isLt)
      (fun e j => by rw [w0Blk_eq, W0_at])
      (fun j => by rw [b0Blk_eq, b0_at])
      (fun k j => by rw [w1Blk_eq, W1_at])
      (fun j => by rw [b1Blk_eq, b1_at])
      (by rw [bbBlk_eq, bb_at]) r]
  unfold result
  rw [i0, funext i1, funext i2]

end Cert.KernelIdeal.Totals

end
-- ==== Proof.KernelValue.lean ====
/-
  The kernel's result array. The output window's block of tile q is rows 512·q … 512·q + 511 of the [16384, 1] result
  and is written back once, after the tile's last field, when it holds the layer's result for those 512 samples
  (Totals.out_last). The 32 write-backs cover the array, so after the region entry (b, 0) of the result array is the
  layer's result for sample b; the one host operation after the region drops the unit axis.
-/
import proofs.«417294_j31825707663666_2_alg».proof.Proof.Totals
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.PointPieces Cert.KernelIdeal.Totals Cert.Fm

variable (m : (ℓ : Loc nD τ sig) → Buf (Elt Ideal) ℓ) (ρ : Dev nD → PrngReg)

/-- The result array with its unit axis: entry (b, 0) is the layer's result for sample b. -/
def G (c : Dev nD) : S16384x1.Idx → EReal := fun i => result (kArgs m c) ⟨(i 0).val, idx2_lt0 i⟩

/-- What a tile's last point writes back is that tile's block of G. -/
theorem flushed_eq (c : Dev nD) (hv : InVocab (kArgs m c)) (t : Fin cfg0.N) (hf : (cfg0.win 9).flush t = true) :
    (dats m 0 c).flushed 9 t = ((cfg0.win 9).blk t).view.read (Elt Ideal) (G m c) := by
  have h1 : t.val % 39 = 38 := (flush0_9 t).mp hf
  obtain ⟨-, -, -, -, -, -, -, -, -, ⟨e0, e1⟩⟩ := idx_facts t
  show (cfg0.win 9).cut (grid0.coords t) ((dats m 0 c).after 9 t) = _
  rw [after0_9]
  funext j
  obtain ⟨r, u, rfl⟩ : ∃ (r : Fin 512) (u : Fin 1), j = ix2 r u := ⟨j 0, j 1, eq_ix2 j⟩
  obtain rfl : u = 0 := Subsingleton.elim _ _
  show outBlk m c t.val t.isLt (ix2 r (0 : Fin 1)) = G m c (((cfg0.win 9).blk t).view.emb (ix2 r (0 : Fin 1)))
  rw [out_last m c hv t h1 r]
  unfold G
  refine congrArg (result (kArgs m c)) (Fin.ext ?_)
  show t.val / 39 * 512 + r.val = win0_9.index t (0 : Fin 2) * 512 + 1 * r.val
  omega

/-- An index of the result array is in point t's block iff each coordinate is in the block's range. -/
theorem mem_blk (t : Fin cfg0.N) (i : S16384x1.Idx) :
    i ∈ ((cfg0.win 9).blk t).view.set
      ↔ ∀ a : Fin 2, win0_9.index t a * S512x1.size a ≤ (i a).val ∧ (i a).val < win0_9.index t a * S512x1.size a + S512x1.size a := by
  show i ∈ ((View.whole main_v19).slice (win0_9.rect t)).set ↔ _
  rw [View.set_slice_whole, Rect.mem_set_unit]
  exact Iff.rfl

/-- Every entry of the result array is written back by its tile's last point. -/
theorem cover (c : Dev nD) (i : S16384x1.Idx) :
    ∃ t : Fin cfg0.N, (cfg0.win 9).flush t = true ∧ i ∈ ((cfg0.win 9).blk t).view.set := by
  have hi0 : (i 0).val < 16384 := idx2_lt0 i
  have hi1 : (i 1).val < 1 := idx2_lt1 i
  have hlt : (i 0).val / 512 * 39 + 38 < cfg0.N := by rw [N_eq]; omega
  refine ⟨⟨(i 0).val / 512 * 39 + 38, hlt⟩, (flush0_9 _).mpr (by show ((i 0).val / 512 * 39 + 38) % 39 = 38; omega), ?_⟩
  obtain ⟨-, -, -, -, -, -, -, -, -, ⟨e0, e1⟩⟩ := idx_facts ⟨(i 0).val / 512 * 39 + 38, hlt⟩
  have e0' : win0_9.index ⟨(i 0).val / 512 * 39 + 38, hlt⟩ (0 : Fin 2) = ((i 0).val / 512 * 39 + 38) / 39 := e0
  rw [mem_blk]
  intro a
  match a with
  | ⟨0, _⟩ =>
    show win0_9.index ⟨(i 0).val / 512 * 39 + 38, hlt⟩ (0 : Fin 2) * 512 ≤ (i 0).val
      ∧ (i 0).val < win0_9.index ⟨(i 0).val / 512 * 39 + 38, hlt⟩ (0 : Fin 2) * 512 + 512
    omega
  | ⟨1, _⟩ =>
    show win0_9.index ⟨(i 0).val / 512 * 39 + 38, hlt⟩ (1 : Fin 2) * 1 ≤ (i 1).val
      ∧ (i 1).val < win0_9.index ⟨(i 0).val / 512 * 39 + 38, hlt⟩ (1 : Fin 2) * 1 + 1
    omega

/-- After the region the result array, with its unit axis, is G. -/
theorem final (c : Dev nD) (hv : InVocab (kArgs m c)) : (dats m 0 c).arrAt 9 cfg0.N = G m c :=
  (dats m 0 c).arrAt_eq_of_cover 9 (G m c) (fun t hf => flushed_eq m c hv t hf) (cover c)

/-- The layer's result as the rank-1 array the program returns. -/
def out (c : Dev nD) : S16384.Idx → EReal := fun i => result (kArgs m c) ⟨(i 0).val, (i 0).isLt⟩

/-- The one host operation after the region drops the unit axis: the returned array is the layer's result. -/
theorem tail_eq (c : Dev nD) (hv : InVocab (kArgs m c)) :
    (Pipeline.afterTail₀ cfgs (dats m) 0 (V0 m) [hostOps1] c main_v20 : S16384.Idx → EReal) = out m c := by
  unfold Pipeline.afterTail₀
  show StableHlo.after hostOps1 _ (Proc.devRef .tc main_v20) = _
  after_results
  have hw : Pipeline.withArrays (cfgs 0).spec c (V0 m c) (fun w => (dats m 0 c).arrAt w (cfgs 0).N)
      (Proc.tc.devRef main_v19) = G m c :=
    (Pipeline.withArrays_arr spec0 launch0.win.arr_inj c _ _ 9).trans (final m c hv)
  funext i
  show shapeCast S16384 (Pipeline.withArrays (cfgs 0).spec c (V0 m c) (fun w => (dats m 0 c).arrAt w (cfgs 0).N)
      (Proc.tc.devRef main_v19)) shapeCasts_S16384x1_S16384 i = _
  rw [hw]
  refine (shapeCast_apply (G m c) shapeCasts_S16384x1_S16384 i
    (ix2 (⟨(i 0).val, (i 0).isLt⟩ : Fin 16384) (0 : Fin 1)) ?_).trans rfl
  rw [Shape.rowMajor_val_two, Shape.rowMajor_val_one]
  show (i 0).val * 1 + 0 = (i 0).val
  omega

/-- The kernel's program, run from a memory in which every id names a row: every weakly fair execution terminates
    with the returned array at the layer's result and the nine argument arrays unchanged. -/
theorem run (hv : ∀ c, InVocab (kArgs m c)) :
    θ_run defs (onTc (τ := τ) (main (F := Ideal))) ⟨m, fun _ => 0, ρ⟩ fun r => ∀ c : Dev nD,
      r.2.mem ((c.tc : Thread nD τ).loc main_v20) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v20 (Pipeline.mem_restRefs_of main_v20 (by decide) (by decide))).trans (tail_eq m c (hv c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans ((((dats m) 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans ((((dats m) 0 c).arrAt_in 6 rfl _).trans ((A_eq m c 6).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KValue

end
-- ==== Proof.RefGather.lean ====
/-
  The reference's two table look-ups read at an index. For sample b and field f it forms the pair of start indices
  (f, id), each first shifted by the axis length if negative (a negative index counts from the end) — the field
  number is never negative, and an id that names a row is not — and the gather then clamps each start index into its
  axis, which again changes nothing for an index that is already inside. So the first look-up at (b, f) is w1[f, id]
  and the second at (b, f, e) is e2[f, id, e]: the specification's tables at the id, which it extends by zero only
  past the last row.
-/
import proofs.«417294_j31825707663666_2_alg».proof.Proof.Gen.ReferenceIdeal.Read
import proofs.«417294_j31825707663666_2_alg».proof.Proof.Spec
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Idealize.ShloMosaic Idealize.ShloMosaic.ValueIdx Cert.ReferenceIdeal

/-! ## Words -/

/-- A word below 2³¹ is not negative as a signed word: the signed comparison with zero gives the bit 0. -/
theorem slt_zero_of_small (w : BitVec 32) (hw : w.toNat < 2 ^ 31) : IntOp.cmpi .slt w 0#32 = 0#1 := by
  refine eq_zero_of_ne_one fun h => ?_
  have h' := (StableHlo.Predicate.slt_iff_toNat hw (by decide)).mp h
  exact absurd h' (by simp)

/-- Clamping a word's signed value into [0, N − 1] is its unsigned value when that is below N ≤ 2³¹. -/
theorem clamp_id (w : BitVec 32) (N : ℕ) (hN : N ≤ 2 ^ 31) (hw : w.toNat < N) :
    min w.toInt.toNat (N - 1) = w.toNat := by
  rw [StableHlo.Predicate.toInt_eq_toNat_of_lt (by omega), Int.toNat_natCast]
  exact Nat.min_eq_left (by omega)

/-! ## The two start-index components at (b, f) -/

/-- The field number, after the shift a negative index would get, is still the field number. -/
theorem field_word (f : Fin 39) : Read.val_main_v7 (F := Ideal) (ix2 (0 : Fin 1) f) = BitVec.ofNat 32 f.val := by
  have h2 : Read.val_main_v2 (F := Ideal) (ix2 (0 : Fin 1) f) = BitVec.ofNat 32 f.val := by
    rw [Read.val_main_v2_apply, Read.val_main_v1_apply]
  have hs : (BitVec.ofNat 32 f.val).toNat < 2 ^ 31 := by
    rw [BitVec.toNat_ofNat]; have := f.isLt; omega
  rw [Read.val_main_v7_apply, Read.val_main_v4_apply, h2, Read.val_main_v3_apply, Read.val_main_c_apply,
    slt_zero_of_small _ hs, select_zero]

/-- The same for the second look-up's copy of the chain. -/
theorem field_word' (f : Fin 39) : Read.val_main_v23 (F := Ideal) (ix2 (0 : Fin 1) f) = BitVec.ofNat 32 f.val := by
  have h2 : Read.val_main_v2 (F := Ideal) (ix2 (0 : Fin 1) f) = BitVec.ofNat 32 f.val := by
    rw [Read.val_main_v2_apply, Read.val_main_v1_apply]
  have hs : (BitVec.ofNat 32 f.val).toNat < 2 ^ 31 := by
    rw [BitVec.toNat_ofNat]; have := f.isLt; omega
  rw [Read.val_main_v23_apply, Read.val_main_v20_apply, h2, Read.val_main_v19_apply, Read.val_main_c_3_apply,
    slt_zero_of_small _ hs, select_zero]

/-- The flat position b · 39 + f splits back into (b, f, 0). -/
theorem idx_v0_at (b : Fin 16384) (f : Fin 39) : Read.idx_main_v0 (ix2 b f) = ix3 b f (0 : Fin 1) := by
  funext a
  match a with
  | ⟨0, _⟩ => exact Fin.ext (show (b.val * 39 + f.val) / 39 = b.val by have := f.isLt; omega)
  | ⟨1, _⟩ => exact Fin.ext (show (b.val * 39 + f.val) / 1 % 39 = f.val by have := f.isLt; omega)
  | ⟨2, _⟩ => rfl

/-- The reshaped ids at (b, f) are the ids at (b, f, 0). -/
theorem ids_at (A : Cert.Fm.Args) (b : Fin 16384) (f : Fin 39) :
    Read.val_main_v0 (F := Ideal) A.Xi (ix2 b f) = A.Xi (ix3 b f 0) := by
  rw [Read.val_main_v0_apply, idx_v0_at]

/-- An id below 2³¹ is not shifted. -/
theorem id_word (A : Cert.Fm.Args) (b : Fin 16384) (f : Fin 39) (h : (A.Xi (ix3 b f 0)).toNat < 2 ^ 31) :
    Read.val_main_v12 (F := Ideal) A.Xi (ix2 b f) = A.Xi (ix3 b f 0) := by
  rw [Read.val_main_v12_apply, Read.val_main_v9_apply, ids_at, Read.val_main_v8_apply, Read.val_main_c_1_apply,
    slt_zero_of_small _ h, select_zero]

theorem id_word' (A : Cert.Fm.Args) (b : Fin 16384) (f : Fin 39) (h : (A.Xi (ix3 b f 0)).toNat < 2 ^ 31) :
    Read.val_main_v28 (F := Ideal) A.Xi (ix2 b f) = A.Xi (ix3 b f 0) := by
  rw [Read.val_main_v28_apply, Read.val_main_v25_apply, ids_at, Read.val_main_v24_apply, Read.val_main_c_5_apply,
    slt_zero_of_small _ h, select_zero]

/-! ## The start-index array at (b, f, 0) and (b, f, 1) -/

theorem idx_v13_at (b : Fin 16384) (f : Fin 39) : Read.idx_main_v13 (ix2 b f) = ix2 (0 : Fin 1) f := by
  funext a
  match a with
  | ⟨0, _⟩ => rfl
  | ⟨1, _⟩ => rfl

theorem idx_v14_at (b : Fin 16384) (f : Fin 39) : Read.idx_main_v14 (ix3 b f (0 : Fin 1)) = ix2 b f := by
  funext a
  match a with
  | ⟨0, _⟩ => rfl
  | ⟨1, _⟩ => rfl

theorem idx_v15_at (b : Fin 16384) (f : Fin 39) : Read.idx_main_v15 (ix3 b f (0 : Fin 1)) = ix2 b f := by
  funext a
  match a with
  | ⟨0, _⟩ => rfl
  | ⟨1, _⟩ => rfl

theorem idx_v29_at (b : Fin 16384) (f : Fin 39) : Read.idx_main_v29 (ix2 b f) = ix2 (0 : Fin 1) f := by
  funext a
  match a with
  | ⟨0, _⟩ => rfl
  | ⟨1, _⟩ => rfl

theorem idx_v30_at (b : Fin 16384) (f : Fin 39) : Read.idx_main_v30 (ix3 b f (0 : Fin 1)) = ix2 b f := by
  funext a
  match a with
  | ⟨0, _⟩ => rfl
  | ⟨1, _⟩ => rfl

theorem idx_v31_at (b : Fin 16384) (f : Fin 39) : Read.idx_main_v31 (ix3 b f (0 : Fin 1)) = ix2 b f := by
  funext a
  match a with
  | ⟨0, _⟩ => rfl
  | ⟨1, _⟩ => rfl

/-- Component 0 of the first look-up's start index at (b, f): the field number. -/
theorem start0_at (A : Cert.Fm.Args) (b : Fin 16384) (f : Fin 39) :
    Read.val_main_v16 (F := Ideal) A.Xi (ix3 b f (0 : Fin 2)) = BitVec.ofNat 32 f.val := by
  unfold Read.val_main_v16
  rw [concatenate_pair_apply_left (s₁ := S16384x39x1) (s₂ := S16384x39x1) (2 : Fin S16384x39x2.rank) _ _ _ (ix3 b f (0 : Fin 2)) rfl (ix3 b f (0 : Fin 1))
    (fun c => match c with | ⟨0, _⟩ => rfl | ⟨1, _⟩ => rfl | ⟨2, _⟩ => rfl)]
  rw [Read.val_main_v14_apply, idx_v14_at, Read.val_main_v13_apply, idx_v13_at, field_word]

/-- Component 1 of the first look-up's start index at (b, f): the id. -/
theorem start1_at (A : Cert.Fm.Args) (b : Fin 16384) (f : Fin 39) (h : (A.Xi (ix3 b f 0)).toNat < 2 ^ 31) :
    Read.val_main_v16 (F := Ideal) A.Xi (ix3 b f (1 : Fin 2)) = A.Xi (ix3 b f 0) := by
  unfold Read.val_main_v16
  rw [concatenate_pair_apply_right (s₁ := S16384x39x1) (s₂ := S16384x39x1) (2 : Fin S16384x39x2.rank) _ _ _ (ix3 b f (1 : Fin 2)) rfl rfl (ix3 b f (0 : Fin 1))
    (fun c => match c with | ⟨0, _⟩ => fun _ => rfl | ⟨1, _⟩ => fun _ => rfl | ⟨2, _⟩ => fun hc => absurd rfl hc) rfl]
  rw [Read.val_main_v15_apply, idx_v15_at, id_word A b f h]

theorem start0_at' (A : Cert.Fm.Args) (b : Fin 16384) (f : Fin 39) :
    Read.val_main_v32 (F := Ideal) A.Xi (ix3 b f (0 : Fin 2)) = BitVec.ofNat 32 f.val := by
  unfold Read.val_main_v32
  rw [concatenate_pair_apply_left (s₁ := S16384x39x1) (s₂ := S16384x39x1) (2 : Fin S16384x39x2.rank) _ _ _ (ix3 b f (0 : Fin 2)) rfl (ix3 b f (0 : Fin 1))
    (fun c => match c with | ⟨0, _⟩ => rfl | ⟨1, _⟩ => rfl | ⟨2, _⟩ => rfl)]
  rw [Read.val_main_v30_apply, idx_v30_at, Read.val_main_v29_apply, idx_v29_at, field_word']

theorem start1_at' (A : Cert.Fm.Args) (b : Fin 16384) (f : Fin 39) (h : (A.Xi (ix3 b f 0)).toNat < 2 ^ 31) :
    Read.val_main_v32 (F := Ideal) A.Xi (ix3 b f (1 : Fin 2)) = A.Xi (ix3 b f 0) := by
  unfold Read.val_main_v32
  rw [concatenate_pair_apply_right (s₁ := S16384x39x1) (s₂ := S16384x39x1) (2 : Fin S16384x39x2.rank) _ _ _ (ix3 b f (1 : Fin 2)) rfl rfl (ix3 b f (0 : Fin 1))
    (fun c => match c with | ⟨0, _⟩ => fun _ => rfl | ⟨1, _⟩ => fun _ => rfl | ⟨2, _⟩ => fun hc => absurd rfl hc) rfl]
  rw [Read.val_main_v31_apply, idx_v31_at, id_word' A b f h]

/-! ## The two gathers at an index -/

section Gathers
variable {α : Type}

/-- The first look-up at (b, f) reads the table at the pair of start-index components, each read as a signed
    integer and clamped into its axis: both axes are collapsed, so nothing else is added. -/
theorem gather1_at (x : S39x100000.Idx → α) (idx : IVec S16384x39x2 32) (b : Fin 16384) (f : Fin 39)
    (p : Fin 39) (q : Fin 100000)
    (hp : min (idx (ix3 b f (0 : Fin 2))).toInt.toNat 38 = p.val)
    (hq : min (idx (ix3 b f (1 : Fin 2))).toInt.toNat 99999 = q.val) :
    Host.gather gather_S39x100000_S16384x39x2_S16384x39_n_01_n_n_01_2_11 x idx (ix2 b f) = x (ix2 p q) := by
  unfold Host.gather
  congr 1
  funext a
  refine Fin.ext ?_
  match a with
  | ⟨0, _⟩ =>
    show GatherDims.start gather_S39x100000_S16384x39x2_S16384x39_n_01_n_n_01_2_11 (ix2 b f) idx (0 : Fin 2)
      + GatherDims.batchCoord gather_S39x100000_S16384x39x2_S16384x39_n_01_n_n_01_2_11 (ix2 b f) (0 : Fin 2)
      + GatherDims.offCoord gather_S39x100000_S16384x39x2_S16384x39_n_01_n_n_01_2_11 (ix2 b f) (0 : Fin 2) = p.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈
      gather_S39x100000_S16384x39x2_S16384x39_n_01_n_n_01_2_11.startIndexMap by decide)]
    have hsi : gather_S39x100000_S16384x39x2_S16384x39_n_01_n_n_01_2_11.siIdx (ix2 b f)
        ⟨List.idxOf (0 : Fin 2) gather_S39x100000_S16384x39x2_S16384x39_n_01_n_n_01_2_11.startIndexMap,
          List.idxOf_lt_length_iff.2 (by decide)⟩ = ix3 b f (0 : Fin 2) := by
      funext c; refine Fin.ext ?_
      match c with
      | ⟨0, _⟩ => rfl
      | ⟨1, _⟩ => rfl
      | ⟨2, _⟩ => rfl
    rw [hsi]
    exact hp
  | ⟨1, _⟩ =>
    show GatherDims.start gather_S39x100000_S16384x39x2_S16384x39_n_01_n_n_01_2_11 (ix2 b f) idx (1 : Fin 2)
      + GatherDims.batchCoord gather_S39x100000_S16384x39x2_S16384x39_n_01_n_n_01_2_11 (ix2 b f) (1 : Fin 2)
      + GatherDims.offCoord gather_S39x100000_S16384x39x2_S16384x39_n_01_n_n_01_2_11 (ix2 b f) (1 : Fin 2) = q.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈
      gather_S39x100000_S16384x39x2_S16384x39_n_01_n_n_01_2_11.startIndexMap by decide)]
    have hsi : gather_S39x100000_S16384x39x2_S16384x39_n_01_n_n_01_2_11.siIdx (ix2 b f)
        ⟨List.idxOf (1 : Fin 2) gather_S39x100000_S16384x39x2_S16384x39_n_01_n_n_01_2_11.startIndexMap,
          List.idxOf_lt_length_iff.2 (by decide)⟩ = ix3 b f (1 : Fin 2) := by
      funext c; refine Fin.ext ?_
      match c with
      | ⟨0, _⟩ => rfl
      | ⟨1, _⟩ => rfl
      | ⟨2, _⟩ => rfl
    rw [hsi]
    exact hq

/-- The second look-up at (b, f, e) reads the table at the clamped pair on its two collapsed axes and at e on the
    kept axis, whose slice is the whole axis and so starts at 0. -/
theorem gather2_at (x : S39x100000x16.Idx → α) (idx : IVec S16384x39x2 32) (b : Fin 16384) (f : Fin 39) (e : Fin 16)
    (p : Fin 39) (q : Fin 100000)
    (hp : min (idx (ix3 b f (0 : Fin 2))).toInt.toNat 38 = p.val)
    (hq : min (idx (ix3 b f (1 : Fin 2))).toInt.toNat 99999 = q.val) :
    Host.gather gather_S39x100000x16_S16384x39x2_S16384x39x16_2_01_n_n_01_2_1116 x idx (ix3 b f e) = x (ix3 p q e) := by
  unfold Host.gather
  congr 1
  funext a
  refine Fin.ext ?_
  match a with
  | ⟨0, _⟩ =>
    show GatherDims.start gather_S39x100000x16_S16384x39x2_S16384x39x16_2_01_n_n_01_2_1116 (ix3 b f e) idx (0 : Fin 3)
      + GatherDims.batchCoord gather_S39x100000x16_S16384x39x2_S16384x39x16_2_01_n_n_01_2_1116 (ix3 b f e) (0 : Fin 3)
      + GatherDims.offCoord gather_S39x100000x16_S16384x39x2_S16384x39x16_2_01_n_n_01_2_1116 (ix3 b f e) (0 : Fin 3) = p.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S39x100000x16_S16384x39x2_S16384x39x16_2_01_n_n_01_2_1116.startIndexMap by decide)]
    have hsi : gather_S39x100000x16_S16384x39x2_S16384x39x16_2_01_n_n_01_2_1116.siIdx (ix3 b f e)
        ⟨List.idxOf (0 : Fin 3) gather_S39x100000x16_S16384x39x2_S16384x39x16_2_01_n_n_01_2_1116.startIndexMap, List.idxOf_lt_length_iff.2 (by decide)⟩ = ix3 b f (0 : Fin 2) := by
      funext c; refine Fin.ext ?_
      match c with
      | ⟨0, _⟩ => rfl
      | ⟨1, _⟩ => rfl
      | ⟨2, _⟩ => rfl
    rw [hsi]
    exact hp
  | ⟨1, _⟩ =>
    show GatherDims.start gather_S39x100000x16_S16384x39x2_S16384x39x16_2_01_n_n_01_2_1116 (ix3 b f e) idx (1 : Fin 3)
      + GatherDims.batchCoord gather_S39x100000x16_S16384x39x2_S16384x39x16_2_01_n_n_01_2_1116 (ix3 b f e) (1 : Fin 3)
      + GatherDims.offCoord gather_S39x100000x16_S16384x39x2_S16384x39x16_2_01_n_n_01_2_1116 (ix3 b f e) (1 : Fin 3) = q.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S39x100000x16_S16384x39x2_S16384x39x16_2_01_n_n_01_2_1116.startIndexMap by decide)]
    have hsi : gather_S39x100000x16_S16384x39x2_S16384x39x16_2_01_n_n_01_2_1116.siIdx (ix3 b f e)
        ⟨List.idxOf (1 : Fin 3) gather_S39x100000x16_S16384x39x2_S16384x39x16_2_01_n_n_01_2_1116.startIndexMap, List.idxOf_lt_length_iff.2 (by decide)⟩ = ix3 b f (1 : Fin 2) := by
      funext c; refine Fin.ext ?_
      match c with
      | ⟨0, _⟩ => rfl
      | ⟨1, _⟩ => rfl
      | ⟨2, _⟩ => rfl
    rw [hsi]
    exact hq
  | ⟨2, _⟩ =>
    show GatherDims.start gather_S39x100000x16_S16384x39x2_S16384x39x16_2_01_n_n_01_2_1116 (ix3 b f e) idx (2 : Fin 3)
      + GatherDims.batchCoord gather_S39x100000x16_S16384x39x2_S16384x39x16_2_01_n_n_01_2_1116 (ix3 b f e) (2 : Fin 3)
      + GatherDims.offCoord gather_S39x100000x16_S16384x39x2_S16384x39x16_2_01_n_n_01_2_1116 (ix3 b f e) (2 : Fin 3) = e.val
    rw [GatherDims.batchCoord_eq_zero _ _ _ List.not_mem_nil]
    unfold GatherDims.start GatherDims.offCoord
    rw [dif_neg (show ¬ (2 : Fin 3) ∈ gather_S39x100000x16_S16384x39x2_S16384x39x16_2_01_n_n_01_2_1116.startIndexMap by decide),
      dif_pos (show (2 : Fin 3) ∈ gather_S39x100000x16_S16384x39x2_S16384x39x16_2_01_n_n_01_2_1116.sKept by decide)]
    simp only [Nat.zero_add, Nat.add_zero]
    rfl

end Gathers

/-! ## The two look-ups -/

/-- The first-order look-up at (b, f): field f's weight at sample b's id. -/
theorem first_gather_at (A : Cert.Fm.Args) (hv : Cert.Fm.InVocab A) (b : Fin 16384) (f : Fin 39) :
    Cert.ReferenceIdeal.Read.val_main_v17 (F := Ideal) A.Xi A.w1 (ix2 b f)
      = Cert.Fm.w1z A f (Cert.Fm.vid A b f) := by
  have hid : (A.Xi (ix3 b f 0)).toNat < 100000 := hv b f
  have hf : (BitVec.ofNat 32 f.val).toNat = f.val := by
    rw [BitVec.toNat_ofNat]; exact Nat.mod_eq_of_lt (by have := f.isLt; omega)
  unfold Read.val_main_v17
  refine (gather1_at _ _ b f f ⟨Cert.Fm.vid A b f, hv b f⟩ ?_ ?_).trans ?_
  · rw [start0_at]
    exact (clamp_id _ 39 (by norm_num) (by rw [hf]; exact f.isLt)).trans hf
  · rw [start1_at A b f (by omega)]
    exact clamp_id _ 100000 (by norm_num) hid
  · unfold Cert.Fm.w1z
    rw [dif_pos (hv b f)]

/-- The second-order look-up at (b, f, e): entry e of field f's row at sample b's id. -/
theorem second_gather_at (A : Cert.Fm.Args) (hv : Cert.Fm.InVocab A) (b : Fin 16384) (f : Fin 39) (e : Fin 16) :
    Cert.ReferenceIdeal.Read.val_main_v33 (F := Ideal) A.Xi A.e2 (ix3 b f e)
      = Cert.Fm.e2z A f (Cert.Fm.vid A b f) e := by
  have hid : (A.Xi (ix3 b f 0)).toNat < 100000 := hv b f
  have hf : (BitVec.ofNat 32 f.val).toNat = f.val := by
    rw [BitVec.toNat_ofNat]; exact Nat.mod_eq_of_lt (by have := f.isLt; omega)
  unfold Read.val_main_v33
  refine (gather2_at _ _ b f e f ⟨Cert.Fm.vid A b f, hv b f⟩ ?_ ?_).trans ?_
  · rw [start0_at']
    exact (clamp_id _ 39 (by norm_num) (by rw [hf]; exact f.isLt)).trans hf
  · rw [start1_at' A b f (by omega)]
    exact clamp_id _ 100000 (by norm_num) hid
  · unfold Cert.Fm.e2z
    rw [dif_pos (hv b f)]

end Cert.ReferenceIdeal.RefValue

end
-- ==== Proof.RefValue.lean ====
/-
  The reference's result is the specification's. Its program looks up, per sample and field, the first-order weight
  and the second-order row at the id, scales both by the sample's value in that field, sums over the fields (a host
  sum is its initial value 0 plus the sum over the reduced coordinate), forms the cross terms ½·(s·s − q), and runs the
  head: two matrix products (plain sums over the contracted coordinate), each followed by its bias and a maximum with
  0, then the sum of the last layer's units; the result is (bias + first-order sum) + that. Read index by index this is
  "result", term for term; the only rewriting is 0 + x = x for the three sums' initial value and the binary32 zero
  word being the number 0.
-/
import proofs.«417294_j31825707663666_2_alg».proof.Proof.Gen.ReferenceIdeal.Run
import proofs.«417294_j31825707663666_2_alg».proof.Proof.Gen.ReferenceIdeal.Read
import proofs.«417294_j31825707663666_2_alg».proof.Proof.RefGather
import proofs.«417294_j31825707663666_2_alg».proof.Proof.KArgs
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal

/-! ## The first-order branch -/

/-- The scaled first-order look-up at (b, f) is the first-order term. -/
theorem v18_at (A : Cert.Fm.Args) (hv : Cert.Fm.InVocab A) (b : Fin 16384) (f : Fin 39) :
    Read.val_main_v18 (F := Ideal) A.Xi A.Xv A.w1 (ix2 b f) = Cert.Fm.lin A b f := by
  rw [Read.val_main_v18_apply, first_gather_at A hv b f, Ideal.mulf_def]
  rfl

/-- The sum of the first-order terms over the fields. -/
theorem v54_at (A : Cert.Fm.Args) (hv : Cert.Fm.InVocab A) (b : Fin 16384) :
    Read.val_main_v54 (F := Ideal) A.Xi A.Xv A.w1 (ix1 b) = ∑ f : Fin 39, Cert.Fm.lin A b f := by
  rw [Read.val_main_v54_apply, Read.val_main_cst_9_apply, Ideal.ofBits_def, Ideal.ofBits_zero_f32, zero_add]
  refine Finset.sum_congr rfl fun f _ => ?_
  have e : Read.idx_main_v54 (ix1 b) f = ix2 b f :=
    funext fun a => Fin.ext (by match a with | ⟨0, _⟩ => rfl | ⟨1, _⟩ => rfl)
  rw [e, v18_at A hv b f]

/-- The output bias plus the first-order sum. -/
theorem v56_at (A : Cert.Fm.Args) (hv : Cert.Fm.InVocab A) (b : Fin 16384) :
    Read.val_main_v56 (F := Ideal) A.Xi A.Xv A.w1 A.bb (ix1 b) = A.bb ix0 + ∑ f : Fin 39, Cert.Fm.lin A b f := by
  rw [Read.val_main_v56_apply, Read.val_main_v55_apply, v54_at A hv b, Ideal.addf_def]

/-! ## The second-order branch -/

/-- The scaled second-order look-up at (b, f, e) is the scaled embedding. -/
theorem v36_at (A : Cert.Fm.Args) (hv : Cert.Fm.InVocab A) (b : Fin 16384) (f : Fin 39) (e : Fin 16) :
    Read.val_main_v36 (F := Ideal) A.Xi A.Xv A.e2 (ix3 b f e) = Cert.Fm.emb A b f e := by
  rw [Read.val_main_v36_apply, second_gather_at A hv b f e, Read.val_main_v35_apply, Read.val_main_v34_apply,
    Ideal.mulf_def]
  have e1 : Read.idx_main_v34 (Read.idx_main_v35 (ix3 b f e)) = ix2 b f :=
    funext fun a => Fin.ext (by match a with | ⟨0, _⟩ => rfl | ⟨1, _⟩ => rfl)
  rw [e1]
  rfl

/-- The sum of the embeddings over the fields. -/
theorem v37_at (A : Cert.Fm.Args) (hv : Cert.Fm.InVocab A) (b : Fin 16384) (e : Fin 16) :
    Read.val_main_v37 (F := Ideal) A.Xi A.Xv A.e2 (ix2 b e) = ∑ f : Fin 39, Cert.Fm.emb A b f e := by
  rw [Read.val_main_v37_apply, Read.val_main_cst_apply, Ideal.ofBits_def, Ideal.ofBits_zero_f32, zero_add]
  refine Finset.sum_congr rfl fun f _ => ?_
  have e1 : Read.idx_main_v37 (ix2 b e) f = ix3 b f e :=
    funext fun a => Fin.ext (by match a with | ⟨0, _⟩ => rfl | ⟨1, _⟩ => rfl | ⟨2, _⟩ => rfl)
  rw [e1, v36_at A hv b f e]

/-- The sum of the squared embeddings over the fields. -/
theorem v40_at (A : Cert.Fm.Args) (hv : Cert.Fm.InVocab A) (b : Fin 16384) (e : Fin 16) :
    Read.val_main_v40 (F := Ideal) A.Xi A.Xv A.e2 (ix2 b e)
      = ∑ f : Fin 39, Cert.Fm.emb A b f e * Cert.Fm.emb A b f e := by
  rw [Read.val_main_v40_apply, Read.val_main_cst_7_apply, Ideal.ofBits_def, Ideal.ofBits_zero_f32, zero_add]
  refine Finset.sum_congr rfl fun f _ => ?_
  have e1 : Read.idx_main_v40 (ix2 b e) f = ix3 b f e :=
    funext fun a => Fin.ext (by match a with | ⟨0, _⟩ => rfl | ⟨1, _⟩ => rfl | ⟨2, _⟩ => rfl)
  rw [e1, Read.val_main_v39_apply, v36_at A hv b f e, Ideal.mulf_def]

/-- The cross term at (b, e). -/
theorem v43_at (A : Cert.Fm.Args) (hv : Cert.Fm.InVocab A) (b : Fin 16384) (e : Fin 16) :
    Read.val_main_v43 (F := Ideal) A.Xi A.Xv A.e2 (ix2 b e)
      = Cert.Fm.cross (∑ f : Fin 39, Cert.Fm.emb A b f e) (∑ f : Fin 39, Cert.Fm.emb A b f e * Cert.Fm.emb A b f e) := by
  rw [Read.val_main_v43_apply, Read.val_main_v42_apply, Read.val_main_cst_8_apply, Read.val_main_v41_apply,
    Read.val_main_v38_apply, v37_at A hv b e, v40_at A hv b e, Ideal.mulf_def, Ideal.mulf_def, Ideal.subf_def,
    Ideal.ofBits_def]
  rfl

/-! ## The head -/

/-- The cross terms of sample b, as the head reads them. -/
def crossRow (A : Cert.Fm.Args) (b : Fin 16384) (e : Fin 16) : EReal :=
  Cert.Fm.cross (∑ f : Fin 39, Cert.Fm.emb A b f e) (∑ f : Fin 39, Cert.Fm.emb A b f e * Cert.Fm.emb A b f e)

/-- The first layer at (b, j). -/
theorem v48_at (A : Cert.Fm.Args) (hv : Cert.Fm.InVocab A) (b : Fin 16384) (j : Fin 128) :
    Read.val_main_v48 (F := Ideal) A.Xi A.Xv A.e2 A.W0 A.b0 (ix2 b j) = Cert.Fm.hid0 A (crossRow A b) j := by
  rw [Read.val_main_v48_apply, Read.val_main_v47_apply, Read.val_main_v44_apply, Read.val_main_v46_apply,
    Read.val_main_v45_apply, Read.val_main_call0_v0_apply, Read.val_main_call0_cst_apply,
    Ideal.maximumf_def, Ideal.addf_def, Ideal.ofBits_def, Ideal.ofBits_zero_f32]
  have eb : Read.idx_main_v45 (Read.idx_main_v46 (ix2 b j)) = ix1 j :=
    funext fun a => Fin.ext (by match a with | ⟨0, _⟩ => rfl)
  rw [eb]
  unfold Cert.Fm.hid0
  refine congrArg (fun t => max (t + A.b0 (ix1 j)) 0) (Finset.sum_congr rfl fun k _ => ?_)
  have el : Read.lidx_main_v44 (ix2 b j) k = ix2 b k :=
    funext fun a => Fin.ext (by match a with | ⟨0, _⟩ => rfl | ⟨1, _⟩ => rfl)
  have er : Read.ridx_main_v44 (ix2 b j) k = ix2 k j :=
    funext fun a => Fin.ext (by match a with | ⟨0, _⟩ => rfl | ⟨1, _⟩ => rfl)
  rw [el, er, v43_at A hv b k]
  rfl

/-- The second layer at (b, j). -/
theorem v53_at (A : Cert.Fm.Args) (hv : Cert.Fm.InVocab A) (b : Fin 16384) (j : Fin 128) :
    Read.val_main_v53 (F := Ideal) A.Xi A.Xv A.e2 A.W0 A.b0 A.W1 A.b1 (ix2 b j)
      = Cert.Fm.hid1 A (Cert.Fm.hid0 A (crossRow A b)) j := by
  rw [Read.val_main_v53_apply, Read.val_main_v52_apply, Read.val_main_v49_apply, Read.val_main_v51_apply,
    Read.val_main_v50_apply, Read.val_main_call1_v0_apply, Read.val_main_call1_cst_apply,
    Ideal.maximumf_def, Ideal.addf_def, Ideal.ofBits_def, Ideal.ofBits_zero_f32]
  have eb : Read.idx_main_v50 (Read.idx_main_v51 (ix2 b j)) = ix1 j :=
    funext fun a => Fin.ext (by match a with | ⟨0, _⟩ => rfl)
  rw [eb]
  unfold Cert.Fm.hid1
  refine congrArg (fun t => max (t + A.b1 (ix1 j)) 0) (Finset.sum_congr rfl fun k _ => ?_)
  have el : Read.lidx_main_v49 (ix2 b j) k = ix2 b k :=
    funext fun a => Fin.ext (by match a with | ⟨0, _⟩ => rfl | ⟨1, _⟩ => rfl)
  have er : Read.ridx_main_v49 (ix2 b j) k = ix2 k j :=
    funext fun a => Fin.ext (by match a with | ⟨0, _⟩ => rfl | ⟨1, _⟩ => rfl)
  rw [el, er, v48_at A hv b k]

/-- The head's output for sample b: the second layer's units summed. -/
theorem v57_at (A : Cert.Fm.Args) (hv : Cert.Fm.InVocab A) (b : Fin 16384) :
    Read.val_main_v57 (F := Ideal) A.Xi A.Xv A.e2 A.W0 A.b0 A.W1 A.b1 (ix1 b) = Cert.Fm.head A (crossRow A b) := by
  rw [Read.val_main_v57_apply, Read.val_main_cst_10_apply, Ideal.ofBits_def, Ideal.ofBits_zero_f32, zero_add]
  unfold Cert.Fm.head
  refine Finset.sum_congr rfl fun j _ => ?_
  have e : Read.idx_main_v57 (ix1 b) j = ix2 b j :=
    funext fun a => Fin.ext (by match a with | ⟨0, _⟩ => rfl | ⟨1, _⟩ => rfl)
  rw [e, v53_at A hv b j]

/-! ## The result -/

/-- The reference's last stage at sample b is the layer's result for b, when every id names a row. -/
theorem ref_result (A : Cert.Fm.Args) (hv : Cert.Fm.InVocab A) (b : Fin 16384) :
    Cert.ReferenceIdeal.Read.val_main_v58 (F := Ideal) A.Xi A.Xv A.w1 A.e2 A.W0 A.b0 A.W1 A.b1 A.bb (ix1 b)
      = Cert.Fm.result A b := by
  rw [Read.val_main_v58_apply, v56_at A hv b, v57_at A hv b, Ideal.addf_def]
  unfold Cert.Fm.result Cert.Fm.finish
  rw [Cert.Fm.linUpTo_all]
  refine congrArg (fun x => (A.bb ix0 + ∑ f : Fin 39, Cert.Fm.lin A b f) + Cert.Fm.head A x) (funext fun e => ?_)
  show Cert.Fm.cross _ _ = Cert.Fm.cross (Cert.Fm.sumUpTo A b e 39) (Cert.Fm.sqUpTo A b e 39)
  rw [Cert.Fm.sumUpTo_all, Cert.Fm.sqUpTo_all]

end Cert.ReferenceIdeal.RefValue

end
-- ==== Proof.lean ====
/-
  The kernel computes a factorization-machine layer with a two-layer ReLU head; the reference is the same layer written
  with table look-ups. Both are the function "result" of Proof/Spec.lean of the nine argument arrays, on every input in
  which each id names a row of its field's tables (which the precondition says: Proof/PreFacts.lean).

  The reference looks the two tables up at the id directly (Proof/RefGather.lean) and sums over the fields
  (Proof/RefValue.lean). The kernel has no look-up: the host splits each id as 128·hi + lo (Proof/WordDiv.lean,
  Proof/HostIdx.lean) and packs each field's two tables, padded with zero rows, so that row hi holds the 17 columns of
  rows 128·hi … 128·hi + 127 one after another (Proof/HostTab.lean); the body multiplies the indicator of lane hi into
  that table and the indicator of lane lo into the result, and both sums collapse to the one selected entry
  (Proof/PayloadGather.lean). It visits the 39 fields of a batch tile one grid point at a time, keeping the first-order
  sum, the sum of embeddings and the sum of their squares in three buffers it carries from point to point; an
  induction over the points shows they hold the partial sums over the fields seen so far (Proof/Totals.lean, over
  Proof/Pieces.lean, Proof/PointPieces.lean, Proof/BlockReads.lean, Proof/PointFacts.lean), and at a tile's last field
  the finishing step (Proof/PayloadHead.lean) writes the tile's 512 results, which together cover the result array
  (Proof/KernelValue.lean). The only algebra used is that addition of extended reals is associative and commutative
  and that 0·x = 0 and 1·x = x: no finiteness of an input is needed.

  The three frames are the generated ones (the reference's is its generated run with the result dropped); the ideal
  pass rewrote nothing, so the idealization claim is trivial.
-/
import proofs.«417294_j31825707663666_2_alg».proof.Defs
import proofs.«417294_j31825707663666_2_alg».proof.Proof.Gen.Kernel
import proofs.«417294_j31825707663666_2_alg».proof.Proof.Gen.Kernel.Frame
import proofs.«417294_j31825707663666_2_alg».proof.Proof.Gen.KernelIdeal
import proofs.«417294_j31825707663666_2_alg».proof.Proof.Gen.KernelIdeal.Frame
import proofs.«417294_j31825707663666_2_alg».proof.Proof.Gen.ReferenceIdeal
import proofs.«417294_j31825707663666_2_alg».proof.Proof.Gen.ReferenceIdeal.Run
import proofs.«417294_j31825707663666_2_alg».proof.Proof.Gen.ReferenceIdeal.Read
import proofs.«417294_j31825707663666_2_alg».proof.Proof.Gen.Pre_finite_inputs
import proofs.«417294_j31825707663666_2_alg».proof.Proof.KArgs
import proofs.«417294_j31825707663666_2_alg».proof.Proof.PreFacts
import proofs.«417294_j31825707663666_2_alg».proof.Proof.KernelValue
import proofs.«417294_j31825707663666_2_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every id of every core's argument arrays names a row. -/
theorem inVocab_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.Fm.InVocab (Cert.Fm.kArgs m c) :=
  fun b f => Cert.Pre_finite_inputs.IdRange.id_lt_of_pre _ _ _ _ _ _ _ _ _ (hpre c) (ix3 b f (0 : Fin 1))

/-- Both programs end with the layer's result of the (shared) argument arrays. -/
theorem algebraic : Cert.algebraic_KernelIdeal_ReferenceIdeal := by
  intro m ρ m' ρ' hpre hagree
  have hv : ∀ c, Cert.Fm.InVocab (Cert.Fm.kArgs m c) := inVocab_of_pre m hpre
  refine ⟨fun c => Cert.KernelIdeal.KValue.out m c, Cert.KernelIdeal.KValue.run m ρ hv, ?_⟩
  refine (θ_run Cert.ReferenceIdeal.defs _ _).mono (fun _ h c => ⟨(h c).1.trans ?_, (h c).2⟩)
    (Cert.ReferenceIdeal.Value.run (F := Ideal) m' ρ')
  have hA : Cert.Fm.rArgs m' c = Cert.Fm.kArgs m c := by
    obtain ⟨a0, a1, a2, a3, a4, a5, a6, a7, a8⟩ := hagree c
    unfold Cert.Fm.rArgs Cert.Fm.kArgs
    rw [a0, a1, a2, a3, a4, a5, a6, a7, a8]
  rw [Cert.ReferenceIdeal.Read.val_main_v58_eq]
  funext i
  obtain ⟨b, rfl⟩ : ∃ b : Fin 16384, i = ix1 b := ⟨i 0, eq_ix1 i⟩
  refine (Cert.ReferenceIdeal.RefValue.ref_result (Cert.Fm.rArgs m' c) (by rw [hA]; exact hv c) b).trans ?_
  rw [hA]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
